-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S64x40 .f32) (main_arg11 : FVec F S40 .f32) (main_arg12 : FVec F S64 .f32) (main_arg13 : FVec F S64 .f32) (main_arg14 : FVec F S64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x40 .f32 := Host.absf main_arg10
  let main_cst_14 : FVec F S_ .f32 := constant S_ .f32 0x7F800000#32
  let main_v40 : FVec F S64x40 .f32 := broadcastInDim S64x40 ![] bcast_S_S64x40 main_cst_14
  let main_v41 : IVec S64x40 1 := cmpf .olt main_v39 main_v40
  let main_c_15 : IVec S_ 1 := constantI S_ 1 1#1
  let main_v42 : IVec S_ 1 := (fun x v => Host.reduce IntOp.andi x v reducesTo_S64x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_v48 main_v49 main_v50

def fn_part1 {F : FTy → Type} [FloatOps F] (main_arg6 : FVec F S64x64 .f32) (main_arg7 : FVec F S64 .f32) (main_arg8 : FVec F S64x64 .f32) (main_arg9 : FVec F S64 .f32) (main_arg10 : FVec F S64x40 .f32) (main_arg11 : FVec F S40 .f32) (main_arg12 : FVec F S64 .f32) (main_arg13 : FVec F S64 .f32) (main_arg14 : FVec F S64 .f32) (main_arg15 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S50000x128 .f32) (main_arg1 : IVec S800000 32) (main_arg2 : IVec S800000 32) (main_arg3 : FVec F S800000 .f32) (main_arg4 : FVec F S128x64 .f32) (main_arg5 : FVec F S64 .f32) (main_arg6 : FVec F S64x64 .f32) (main_arg7 : FVec F S64 .f32) (main_arg8 : FVec F S64x64 .f32) (main_arg9 : FVec F S64 .f32) (main_arg10 : FVec F S64x40 .f32) (main_arg11 : FVec F S40 .f32) (main_arg12 : FVec F S64 .f32) (main_arg13 : FVec F S64 .f32) (main_arg14 : FVec F S64 .f32) (main_arg15 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S64x32 : Shape := ⟨2, ![64, 32]⟩
abbrev S32x64 : Shape := ⟨2, ![32, 64]⟩
abbrev S1x64 : Shape := ⟨2, ![1, 64]⟩
abbrev S50000x64 : Shape := ⟨2, ![50000, 64]⟩
abbrev S2000x128 : Shape := ⟨2, ![2000, 128]⟩
abbrev S2000x64 : Shape := ⟨2, ![2000, 64]⟩
abbrev S_ : Shape := ⟨0, ![]⟩
abbrev S800000x1 : Shape := ⟨2, ![800000, 1]⟩
abbrev S800000x64 : Shape := ⟨2, ![800000, 64]⟩
abbrev S2000x32 : Shape := ⟨2, ![2000, 32]⟩
abbrev S1x40 : Shape := ⟨2, ![1, 40]⟩
abbrev S50000x40 : Shape := ⟨2, ![50000, 40]⟩
abbrev S2000x40 : Shape := ⟨2, ![2000, 40]⟩
abbrev S800000x40 : Shape := ⟨2, ![800000, 40]⟩
abbrev S2000 : Shape := ⟨1, ![2000]⟩
abbrev S2000x1 : Shape := ⟨2, ![2000, 1]⟩

abbrev nBuf : Space → Nat
  | .hbm => 98
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x40, .f32⟩
  | .hbm, ⟨11, _⟩ => ⟨S40, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x32, .f32⟩
  | .hbm, ⟨17, _⟩ => ⟨S32x64, .f32⟩
  | .hbm, ⟨18, _⟩ => ⟨S1x64, .f32⟩
  | .hbm, ⟨19, _⟩ => ⟨S50000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x1, .f32⟩
  | .hbm, ⟨30, _⟩ => ⟨S800000x64, .f32⟩
  | .hbm, ⟨31, _⟩ => ⟨S800000x64, .f32⟩
  | .hbm, ⟨32, _⟩ => ⟨S_, .f32⟩
  | .hbm, ⟨33, _⟩ => ⟨S50000x64, .f32⟩
  | .hbm, ⟨34, _⟩ => ⟨S800000x1, .i32⟩
  | .hbm, ⟨35, _⟩ => ⟨S50000x64, .f32⟩
  | .hbm, ⟨36, _⟩ => ⟨S50000x64, .f32⟩
  | .hbm, ⟨37, _⟩ => ⟨S1x64, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S800000x1, .f32⟩
  | .hbm, ⟨49, _⟩ => ⟨S800000x64, .f32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S1x64, .f32⟩
  | .hbm, ⟨57, _⟩ => ⟨S50000x64, .f32⟩
  | .hbm, ⟨58, _⟩ => ⟨S1x64, .f32⟩
  | .hbm, ⟨59, _⟩ => ⟨S50000x64, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x64, .f32⟩
  | .hbm, ⟨69, _⟩ => ⟨S800000x1, .f32⟩
  | .hbm, ⟨70, _⟩ => ⟨S800000x64, .f32⟩
  | .hbm, ⟨71, _⟩ => ⟨S800000x64, .f32⟩
  | .hbm, ⟨72, _⟩ => ⟨S_, .f32⟩
  | .hbm, ⟨73, _⟩ => ⟨S50000x64, .f32⟩
  | .hbm, ⟨74, _⟩ => ⟨S800000x1, .i32⟩
  | .hbm, ⟨75, _⟩ => ⟨S50000x64, .f32⟩
  | .hbm, ⟨76, _⟩ => ⟨S1x64, .f32⟩
  | .hbm, ⟨77, _⟩ => ⟨S1x64, .f32⟩
  | .hbm, ⟨78, _⟩ => ⟨S50000x64, .f32⟩
  | .hbm, ⟨79, _⟩ => ⟨S1x40, .f32⟩
  | .hbm, ⟨80, _⟩ => ⟨S50000x40, .f32⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x40, .f32⟩
  | .hbm, ⟨90, _⟩ => ⟨S800000x1, .f32⟩
  | .hbm, ⟨91, _⟩ => ⟨S800000x40, .f32⟩
  | .hbm, ⟨92, _⟩ => ⟨S800000x40, .f32⟩
  | .hbm, ⟨93, _⟩ => ⟨S_, .f32⟩
  | .hbm, ⟨94, _⟩ => ⟨S50000x40, .f32⟩
  | .hbm, ⟨95, _⟩ => ⟨S800000x1, .i32⟩
  | .hbm, ⟨96, _⟩ => ⟨S50000x40, .f32⟩
  | .hbm, ⟨97, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .f32⟩
  | .local _ .vmem, ⟨5, _⟩ => ⟨S2000x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S64x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S1x64, .f32⟩
  | .local _ .vmem, ⟨21, _⟩ => ⟨S1x64, .f32⟩
  | .local _ .vmem, ⟨22, _⟩ => ⟨S64x32, .f32⟩
  | .local _ .vmem, ⟨23, _⟩ => ⟨S32x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S64x64, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S1x64, .f32⟩
  | .local _ .vmem, ⟨37, _⟩ => ⟨S1x64, .f32⟩
  | .local _ .vmem, ⟨38, _⟩ => ⟨S64x32, .f32⟩
  | .local _ .vmem, ⟨39, _⟩ => ⟨S32x64, .f32⟩
  | .local _ .vmem, ⟨40, _⟩ => ⟨S2000x64, .f32⟩
  | .local _ .vmem, ⟨41, _⟩ => ⟨S2000x64, .f32⟩
  | .local _ .vmem, ⟨42, _⟩ => ⟨S2000x64, .f32⟩
  | .local _ .vmem, ⟨43, _⟩ => ⟨S2000x64, .f32⟩
  | .local _ .vmem, ⟨44, _⟩ => ⟨S64x40, .f32⟩
  | .local _ .vmem, ⟨45, _⟩ => ⟨S1x40, .f32⟩
  | .local _ .vmem, ⟨46, _⟩ => ⟨S2000x40, .f32⟩
  | .local _ .vmem, ⟨47, _⟩ => ⟨S2000x40, .f32⟩
  | .local _ .vmem, ⟨48, _⟩ => ⟨S2000x40, .f32⟩
  | .local _ .vmem, ⟨49, _⟩ => ⟨S2000x40, .f32⟩
  | .local _ .vmem, ⟨50, _⟩ => ⟨S2000x40, .f32⟩
  | .local _ .vmem, ⟨51, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_cst_0 : Ref sig .tc := ⟨.hbm, 17, rfl⟩
abbrev main_v0 : Ref sig .tc := ⟨.hbm, 18, rfl⟩
abbrev main_v1 : Ref sig .tc := ⟨.hbm, 19, rfl⟩
abbrev main_c : Ref sig .tc := ⟨.hbm, 20, rfl⟩
abbrev main_v2 : Ref sig .tc := ⟨.hbm, 21, rfl⟩
abbrev main_v3 : Ref sig .tc := ⟨.hbm, 22, rfl⟩
abbrev main_c_1 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst_2 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_6 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_8 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_9 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg1_1 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc4_sem0_0 : DmaSem sig := 26
abbrev cc4_sem0_1 : DmaSem sig := 27
abbrev cc4_sem1_0 : DmaSem sig := 28
abbrev cc4_sem2_0 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem3_0 : DmaSem sig := 37
abbrev cc5_sem4_0 : DmaSem sig := 38
abbrev cc5_sem5_0 : DmaSem sig := 39
abbrev cc5_sem6_0 : DmaSem sig := 40
abbrev cc5_sem6_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem1_1 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S64x32 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S32x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S2000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x40 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x40 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x40 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

class Facts₀ : Prop where
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S2000x64_S2000x64 : S2000x64.ShapeCasts S2000x64
  inb_S64x64_S64x64_0_0 : ∀ a, (![0, 0] : Fin 2 → Nat) a + S64x64.size a ≤ S64x64.size a
  h_S64x64 : 0 < S64x64.numel
  inb_S64x32_S64x32_0_0 : ∀ a, (![0, 0] : Fin 2 → Nat) a + S64x32.size a ≤ S64x32.size a
  h_S64x32 : 0 < S64x32.numel
  inb_S32x64_S32x64_0_0 : ∀ a, (![0, 0] : Fin 2 → Nat) a + S32x64.size a ≤ S32x64.size a
  h_S32x64 : 0 < S32x64.numel
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  shapeCasts_S2000x40_S2000x40 : S2000x40.ShapeCasts S2000x40
  reduces_S2000x40_S2000 : S2000x40.Reduces [1] S2000
  shapeCasts_S2000_S2000x1 : S2000.ShapeCasts S2000x1
  broadcasts_S2000x1_S2000x40 : S2000x1.Broadcasts S2000x40
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  dot_S2000x64_S64x32_S2000x32_1_0_0_1_n_n_wf : DotDims.WF S2000x64 S64x32 S2000x32 [1] [0] [0] [1] [] []
  dot_S2000x32_S32x64_S2000x64_1_0_0_1_n_n_wf : DotDims.WF S2000x32 S32x64 S2000x64 [1] [0] [0] [1] [] []
  dot_S2000x64_S64x40_S2000x40_1_0_0_1_n_n_wf : DotDims.WF S2000x64 S64x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x32.size a ≤ S64x32.size a
  hwx3_4 : ∀ i : grid3.Coords, EltTy.bits .f32 = 32 ∨ (Rect.block (s := S64x32) S64x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x64.size a ≤ S32x64.size a
  hwx3_5 : ∀ i : grid3.Coords, EltTy.bits .f32 = 32 ∨ (Rect.block (s := S32x64) S32x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x64.size a ≤ S50000x64.size a
  hwx4_3 : ∀ i : grid4.Coords, EltTy.bits .f32 = 32 ∨ (Rect.block (s := S50000x64) S2000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S64x32.size a ≤ S64x32.size a
  hwx5_4 : ∀ i : grid5.Coords, EltTy.bits .f32 = 32 ∨ (Rect.block (s := S64x32) S64x32.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S32x64.size a ≤ S32x64.size a
  hwx5_5 : ∀ i : grid5.Coords, EltTy.bits .f32 = 32 ∨ (Rect.block (s := S32x64) S32x64.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x64.size a ≤ S50000x64.size a
  hwx5_6 : ∀ i : grid5.Coords, EltTy.bits .f32 = 32 ∨ (Rect.block (s := S50000x64) S2000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x40.size a ≤ S64x40.size a
  hwx6_1 : ∀ i : grid6.Coords, EltTy.bits .f32 = 32 ∨ (Rect.block (s := S64x40) S64x40.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x40.size a ≤ S1x40.size a
  hwx6_2 : ∀ i : grid6.Coords, EltTy.bits .f32 = 32 ∨ (Rect.block (s := S1x40) S1x40.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x40.size a ≤ S50000x40.size a
  hwx6_3 : ∀ i : grid6.Coords, EltTy.bits .f32 = 32 ∨ (Rect.block (s := S50000x40) S2000x40.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S50000x40.size a
  hwx7_0 : ∀ i : grid7.Coords, EltTy.bits .f32 = 32 ∨ (Rect.block (s := S50000x40) S2000x40.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x40.size a ≤ S50000x40.size a
  hwx7_1 : ∀ i : grid7.Coords, EltTy.bits .f32 = 32 ∨ (Rect.block (s := S50000x40) S2000x40.size (cc7_transform_1 i) (hinb7_1 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def dot_S2000x32_S32x64_S2000x64_1_0_0_1_n_n : DotDims S2000x32 S32x64 S2000x64 where
  lhsContracting := [1]
  rhsContracting := [0]
  lhsNonContracting := [0]
  rhsNonContracting := [1]
  lhsBatch := []
  rhsBatch := []
  wf := dot_S2000x32_S32x64_S2000x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v15) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v30) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v31) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v32) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_cst) S64x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_cst_0) S32x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v33) S2000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v33) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v34) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v35) S2000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v48) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v33) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v49) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v50) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_cst) S64x32.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_cst_0) S32x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v51) S2000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v51) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v52) S1x40.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v53) S2000x40.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v66) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v67) S2000x40.size cc7_transform_1 reads7_1 true false 2 stage7_1 sem7_1
    hrank7 hreads7_1 hinb7_1 nbuf7_1 (Memref.isWhole_whole _) hwx7_1 hstage7_1

abbrev win7 : Fin 2 → Pipeline.Window sig grid7 := fun | 0 => win7_0 | 1 => win7_1 | ⟨_ + 2, h⟩ => absurd h (Nat.not_lt.2 (Nat.le_add_left _ _))
abbrev spec7 : Fin 2 → Pipeline.WinSpec sig grid7.rank := fun w => (win7 w).toWinSpec

class Facts : Prop extends Facts₀ where

variable [Facts]
-- ==== ReferenceIdeal.lean ====
abbrev S50000x128 : Shape := ⟨2, ![50000, 128]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S64x40 : Shape := ⟨2, ![64, 40]⟩
abbrev S40 : Shape := ⟨1, ![40]⟩
abbrev S50000x64 : Shape := ⟨2, ![50000, 64]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000x32x2 : Shape := ⟨3, ![50000, 32, 2]⟩
abbrev S50000x32 : Shape := ⟨2, ![50000, 32]⟩
abbrev S50000x32x1 : Shape := ⟨3, ![50000, 32, 1]⟩
abbrev S50000x40 : Shape := ⟨2, ![50000, 40]⟩
abbrev S1x40 : Shape := ⟨2, ![1, 40]⟩
abbrev S800000x40 : Shape := ⟨2, ![800000, 40]⟩
abbrev S50000 : Shape := ⟨1, ![50000]⟩
abbrev S50000x1 : Shape := ⟨2, ![50000, 1]⟩

abbrev nBuf : Space → Nat
  | .hbm => 184
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S800000, .f32⟩
  | 4 => ⟨S128x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x40, .f32⟩
  | 11 => ⟨S40, .f32⟩
  | 12 => ⟨S64, .f32⟩
  | 13 => ⟨S64, .f32⟩
  | 14 => ⟨S64, .f32⟩
  | 15 => ⟨S64, .f32⟩
  | 16 => ⟨S50000x64, .f32⟩
  | 17 => ⟨S1x64, .f32⟩
  | 18 => ⟨S50000x64, .f32⟩
  | 19 => ⟨S50000x64, .f32⟩
  | 20 => ⟨S_, .i32⟩
  | 21 => ⟨S800000, .i32⟩
  | 22 => ⟨S800000, .i1⟩
  | 23 => ⟨S_, .i32⟩
  | 24 => ⟨S800000, .i32⟩
  | 25 => ⟨S800000, .i32⟩
  | 26 => ⟨S800000, .i32⟩
  | 27 => ⟨S800000x1, .i32⟩
  | 28 => ⟨S800000x64, .f32⟩
  | 29 => ⟨S800000x1, .f32⟩
  | 30 => ⟨S800000x64, .f32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S_, .f32⟩
  | 37 => ⟨S50000x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x64, .f32⟩
  | 52 => ⟨S800000x1, .f32⟩
  | 53 => ⟨S800000x64, .f32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S_, .f32⟩
  | 60 => ⟨S50000x64, .f32⟩
  | 61 => ⟨S50000x64, .f32⟩
  | 62 => ⟨S50000x32x2, .f32⟩
  | 63 => ⟨S_, .f32⟩
  | 64 => ⟨S50000x32, .f32⟩
  | 65 => ⟨S50000x32x1, .f32⟩
  | 66 => ⟨S_, .f32⟩
  | 67 => ⟨S50000x32x1, .f32⟩
  | 68 => ⟨S50000x32x1, .f32⟩
  | 69 => ⟨S50000x32x2, .f32⟩
  | 70 => ⟨S50000x32x2, .f32⟩
  | 71 => ⟨S50000x32x2, .f32⟩
  | 72 => ⟨S_, .f32⟩
  | 73 => ⟨S50000x32, .f32⟩
  | 74 => ⟨S50000x32x1, .f32⟩
  | 75 => ⟨S_, .f32⟩
  | 76 => ⟨S50000x32x1, .f32⟩
  | 77 => ⟨S50000x32x1, .f32⟩
  | 78 => ⟨S50000x32x2, .f32⟩
  | 79 => ⟨S50000x32x2, .f32⟩
  | 80 => ⟨S_, .f32⟩
  | 81 => ⟨S50000x32x1, .f32⟩
  | 82 => ⟨S50000x32x1, .f32⟩
  | 83 => ⟨S50000x32x1, .f32⟩
  | 84 => ⟨S50000x32x2, .f32⟩
  | 85 => ⟨S50000x32x2, .f32⟩
  | 86 => ⟨S50000x64, .f32⟩
  | 87 => ⟨S1x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x64, .f32⟩
  | 107 => ⟨S800000x1, .f32⟩
  | 108 => ⟨S800000x64, .f32⟩
  | 109 => ⟨S800000x64, .f32⟩
  | 110 => ⟨S_, .f32⟩
  | 111 => ⟨S50000x64, .f32⟩
  | 112 => ⟨S800000x1, .i32⟩
  | 113 => ⟨S50000x64, .f32⟩
  | 114 => ⟨S_, .f32⟩
  | 115 => ⟨S50000x64, .f32⟩
  | 116 => ⟨S50000x64, .f32⟩
  | 117 => ⟨S50000x32x2, .f32⟩
  | 118 => ⟨S_, .f32⟩
  | 119 => ⟨S50000x32, .f32⟩
  | 120 => ⟨S50000x32x1, .f32⟩
  | 121 => ⟨S_, .f32⟩
  | 122 => ⟨S50000x32x1, .f32⟩
  | 123 => ⟨S50000x32x1, .f32⟩
  | 124 => ⟨S50000x32x2, .f32⟩
  | 125 => ⟨S50000x32x2, .f32⟩
  | 126 => ⟨S50000x32x2, .f32⟩
  | 127 => ⟨S_, .f32⟩
  | _ => ⟨S50000x128, .f32⟩

abbrev hbmTy0_1 (i : Nat) : BufTy := match i % 128 with
  | 0 => ⟨S50000x32, .f32⟩
  | 1 => ⟨S50000x32x1, .f32⟩
  | 2 => ⟨S_, .f32⟩
  | 3 => ⟨S50000x32x1, .f32⟩
  | 4 => ⟨S50000x32x1, .f32⟩
  | 5 => ⟨S50000x32x2, .f32⟩
  | 6 => ⟨S50000x32x2, .f32⟩
  | 7 => ⟨S_, .f32⟩
  | 8 => ⟨S50000x32x1, .f32⟩
  | 9 => ⟨S50000x32x1, .f32⟩
  | 10 => ⟨S50000x32x1, .f32⟩
  | 11 => ⟨S50000x32x2, .f32⟩
  | 12 => ⟨S50000x32x2, .f32⟩
  | 13 => ⟨S50000x64, .f32⟩
  | 14 => ⟨S1x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S50000x64, .f32⟩
  | 21 => ⟨S50000x40, .f32⟩
  | 22 => ⟨S1x40, .f32⟩
  | 23 => ⟨S50000x40, .f32⟩
  | 24 => ⟨S50000x40, .f32⟩
  | 25 => ⟨S_, .i32⟩
  | 26 => ⟨S800000, .i32⟩
  | 27 => ⟨S800000, .i1⟩
  | 28 => ⟨S_, .i32⟩
  | 29 => ⟨S800000, .i32⟩
  | 30 => ⟨S800000, .i32⟩
  | 31 => ⟨S800000, .i32⟩
  | 32 => ⟨S800000x1, .i32⟩
  | 33 => ⟨S800000x40, .f32⟩
  | 34 => ⟨S800000x1, .f32⟩
  | 35 => ⟨S800000x40, .f32⟩
  | 36 => ⟨S800000x40, .f32⟩
  | 37 => ⟨S_, .f32⟩
  | 38 => ⟨S50000x40, .f32⟩
  | 39 => ⟨S800000x1, .i32⟩
  | 40 => ⟨S50000x40, .f32⟩
  | 41 => ⟨S_, .f32⟩
  | 42 => ⟨S50000, .f32⟩
  | 43 => ⟨S_, .f32⟩
  | 44 => ⟨S50000, .f32⟩
  | 45 => ⟨S50000, .f32⟩
  | 46 => ⟨S50000x1, .f32⟩
  | 47 => ⟨S50000x40, .f32⟩
  | 48 => ⟨S50000x40, .f32⟩
  | 49 => ⟨S50000x40, .f32⟩
  | 50 => ⟨S_, .f32⟩
  | 51 => ⟨S50000, .f32⟩
  | 52 => ⟨S50000x1, .f32⟩
  | 53 => ⟨S50000x1, .f32⟩
  | 54 => ⟨S50000x40, .f32⟩
  | 55 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call0_cst : Ref sig .tc := ⟨.hbm, 36, rfl⟩
abbrev main_call0_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_1 : Ref sig .tc := ⟨.hbm, 43, rfl⟩
abbrev main_v22 : Ref sig .tc := ⟨.hbm, 44, rfl⟩
abbrev main_v23 : Ref sig .tc := ⟨.hbm, 45, rfl⟩
abbrev main_c_2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_cst : Ref sig .tc := ⟨.hbm, 59, rfl⟩
abbrev main_call1_v0 : Ref sig .tc := ⟨.hbm, 60, rfl⟩
abbrev main_v35 : Ref sig .tc := ⟨.hbm, 61, rfl⟩
abbrev main_v36 : Ref sig .tc := ⟨.hbm, 62, rfl⟩
abbrev main_cst_4 : Ref sig .tc := ⟨.hbm, 63, rfl⟩
abbrev main_v37 : Ref sig .tc := ⟨.hbm, 64, rfl⟩
abbrev main_v38 : Ref sig .tc := ⟨.hbm, 65, rfl⟩
abbrev main_cst_5 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_6 : Ref sig .tc := ⟨.hbm, 72, rfl⟩
abbrev main_v44 : Ref sig .tc := ⟨.hbm, 73, rfl⟩
abbrev main_v45 : Ref sig .tc := ⟨.hbm, 74, rfl⟩
abbrev main_cst_7 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_9 : Ref sig .tc := ⟨.hbm, 98, rfl⟩
abbrev main_v67 : Ref sig .tc := ⟨.hbm, 99, rfl⟩
abbrev main_v68 : Ref sig .tc := ⟨.hbm, 100, rfl⟩
abbrev main_c_10 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_11 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_call2_cst : Ref sig .tc := ⟨.hbm, 114, rfl⟩
abbrev main_call2_v0 : Ref sig .tc := ⟨.hbm, 115, rfl⟩
abbrev main_v80 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_cst_13 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_14 : Ref sig .tc := ⟨.hbm, 127, rfl⟩
abbrev main_v89 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_16 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_c_17 : Ref sig .tc := ⟨.hbm, 153, rfl⟩
abbrev main_v112 : Ref sig .tc := ⟨.hbm, 154, rfl⟩
abbrev main_v113 : Ref sig .tc := ⟨.hbm, 155, rfl⟩
abbrev main_c_18 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_cst_19 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_call3_cst : Ref sig .tc := ⟨.hbm, 169, rfl⟩
abbrev main_call3_v0 : Ref sig .tc := ⟨.hbm, 170, rfl⟩
abbrev main_call3_cst_0 : Ref sig .tc := ⟨.hbm, 171, rfl⟩
abbrev main_call3_v1 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_v6 : Ref sig .tc := ⟨.hbm, 177, rfl⟩
abbrev main_call3_cst_1 : Ref sig .tc := ⟨.hbm, 178, rfl⟩
abbrev main_call3_v7 : Ref sig .tc := ⟨.hbm, 179, rfl⟩
abbrev main_call3_v8 : Ref sig .tc := ⟨.hbm, 180, rfl⟩
abbrev main_call3_v9 : Ref sig .tc := ⟨.hbm, 181, rfl⟩
abbrev main_call3_v10 : Ref sig .tc := ⟨.hbm, 182, rfl⟩
abbrev main_v125 : Ref sig .tc := ⟨.hbm, 183, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  shapeCasts_S50000x64_S50000x32x2 : S50000x64.ShapeCasts S50000x32x2
  reducesTo_S50000x32x2_S50000x32_d2 : S50000x32x2.ReducesTo [2] S50000x32
  h_S_ : 0 < S_.numel
  bcast_S50000x32_S50000x32x1_0_1 : S50000x32.BroadcastsInDim S50000x32x1 (![0, 1] : Fin 2 → Fin S50000x32x1.rank)
  bcast_S_S50000x32x1 : S_.BroadcastsInDim S50000x32x1 (![] : Fin 0 → Fin S50000x32x1.rank)
  bcast_S50000x32x1_S50000x32x2_0_1_2 : S50000x32x1.BroadcastsInDim S50000x32x2 (![0, 1, 2] : Fin 3 → Fin S50000x32x2.rank)
  shapeCasts_S50000x32x2_S50000x64 : S50000x32x2.ShapeCasts S50000x64
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  bcast_S800000x1_S800000x40_0_1 : S800000x1.BroadcastsInDim S800000x40 (![0, 1] : Fin 2 → Fin S800000x40.rank)
  bcast_S_S50000x40 : S_.BroadcastsInDim S50000x40 (![] : Fin 0 → Fin S50000x40.rank)
  reducesTo_S50000x40_S50000_d1 : S50000x40.ReducesTo [1] S50000
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.RefRun.lean ====
/- The reference program's run, stated over the stages: every weakly fair execution of its @main terminates with the
   result buffer at the last stage (the log-softmax of the fourth layer) as a function of the argument arrays, and the
   arguments unchanged. The operation list is followed layer by layer, each layer from the contents the layers before
   leave, so that a value several later operations read is named once instead of being repeated in one term. -/
import proofs.«400152_j40956808135039_1_alg».proof.Proof.RefOps
import proofs.«400152_j40956808135039_1_alg».proof.Proof.RefRead

noncomputable section

namespace Cert.ReferenceIdeal.StageRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-! ## The operation list, cut after each layer

The 168 operations are cut where a layer's result is complete: that result is read again by the next layer (as its
input and as its residual), so each layer is folded from the contents the earlier layers leave, with the earlier
result a single value. -/

/-- Operations 1 to 23: the first layer: the linear map of the features, the weighted gather and scatter-add over the edges, the rectification. -/
abbrev K1 : List (HloOp τ sig (Elt F)) :=
  [ binary main_arg0 main_arg4 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg5 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_arg1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_arg1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_arg1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_v3 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg3 main_v11 (broadcastInDim S800000x1 ![0] bcast_S800000_S800000x1_0 : (⟨S800000, .f32⟩ : BufTy).Contents (Elt F) → (⟨S800000x1, .f32⟩ : BufTy).Contents (Elt F)),
    unary main_v11 main_v12 (broadcastInDim S800000x64 ![0, 1] bcast_S800000x1_S800000x64_0_1 : (⟨S800000x1, .f32⟩ : BufTy).Contents (Elt F) → (⟨S800000x64, .f32⟩ : BufTy).Contents (Elt F)),
    binary main_v10 main_v12 main_v13 (mulf : (⟨S800000x64, .f32⟩ : BufTy).Contents (Elt F) → (⟨S800000x64, .f32⟩ : BufTy).Contents (Elt F) → (⟨S800000x64, .f32⟩ : BufTy).Contents (Elt F)),
    nullary main_cst (constant S_ .f32 0x00000000#32),
    unary main_cst main_v14 (broadcastInDim S50000x64 ![] bcast_S_S50000x64 : (⟨S_, .f32⟩ : BufTy).Contents (Elt F) → (⟨S50000x64, .f32⟩ : BufTy).Contents (Elt F)),
    unary main_arg2 main_v15 (broadcastInDim S800000x1 ![0] bcast_S800000_S800000x1_0 : (⟨S800000, .i32⟩ : BufTy).Contents (Elt F) → (⟨S800000x1, .i32⟩ : BufTy).Contents (Elt F)),
    ternary main_v14 main_v15 main_v13 main_v16 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v16) (TRef.of (T := ⟨S50000x64, .f32⟩) main_call0_v0) (TRef.of (T := ⟨S50000x64, .f32⟩) main_v17) maximumf ]
/-- The references operations 1 to 23 write. -/
abbrev K1_W : List (Ref sig .tc) := [main_v0, main_v1, main_v2, main_v3, main_c, main_v4, main_v5, main_c_0, main_v6, main_v7, main_v8, main_v9, main_v10, main_v11, main_v12, main_v13, main_cst, main_v14, main_v15, main_v16, main_call0_cst, main_call0_v0, main_v17]

/-- Operations 24 to 78: the second layer: linear map, edge aggregation, rectification, the normalisation over pairs of channels with its scale and shift, and the residual sum with the first layer. -/
abbrev K2 : List (HloOp τ sig (Elt F)) :=
  [ binary main_v17 main_arg6 main_v18 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg7 main_v19 (broadcastInDim S1x64 ![1] bcast_S64_S1x64_1 : (⟨S64, .f32⟩ : BufTy).Contents (Elt F) → (⟨S1x64, .f32⟩ : BufTy).Contents (Elt F)),
    unary main_v19 main_v20 (broadcastInDim S50000x64 ![0, 1] bcast_S1x64_S50000x64_0_1 : (⟨S1x64, .f32⟩ : BufTy).Contents (Elt F) → (⟨S50000x64, .f32⟩ : BufTy).Contents (Elt F)),
    binary main_v18 main_v20 main_v21 (addf : (⟨S50000x64, .f32⟩ : BufTy).Contents (Elt F) → (⟨S50000x64, .f32⟩ : BufTy).Contents (Elt F) → (⟨S50000x64, .f32⟩ : BufTy).Contents (Elt F)),
    nullary main_c_1 (constantI S_ 32 0#32),
    unary main_c_1 main_v22 (broadcastInDim S800000 ![] bcast_S_S800000 : (⟨S_, .i32⟩ : BufTy).Contents (Elt F) → (⟨S800000, .i32⟩ : BufTy).Contents (Elt F)),
    binary main_arg1 main_v22 main_v23 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v24 (broadcastInDim S800000 ![] bcast_S_S800000 : (⟨S_, .i32⟩ : BufTy).Contents (Elt F) → (⟨S800000, .i32⟩ : BufTy).Contents (Elt F)),
    binary main_arg1 main_v24 main_v25 (addi : (⟨S800000, .i32⟩ : BufTy).Contents (Elt F) → (⟨S800000, .i32⟩ : BufTy).Contents (Elt F) → (⟨S800000, .i32⟩ : BufTy).Contents (Elt F)),
    ternary main_v23 main_v25 main_arg1 main_v26 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v26 main_v27 (broadcastInDim S800000x1 ![0] bcast_S800000_S800000x1_0 : (⟨S800000, .i32⟩ : BufTy).Contents (Elt F) → (⟨S800000x1, .i32⟩ : BufTy).Contents (Elt F)),
    binary main_v21 main_v27 main_v28 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg3 main_v29 (broadcastInDim S800000x1 ![0] bcast_S800000_S800000x1_0 : (⟨S800000, .f32⟩ : BufTy).Contents (Elt F) → (⟨S800000x1, .f32⟩ : BufTy).Contents (Elt F)),
    unary main_v29 main_v30 (broadcastInDim S800000x64 ![0, 1] bcast_S800000x1_S800000x64_0_1 : (⟨S800000x1, .f32⟩ : BufTy).Contents (Elt F) → (⟨S800000x64, .f32⟩ : BufTy).Contents (Elt F)),
    binary main_v28 main_v30 main_v31 (mulf : (⟨S800000x64, .f32⟩ : BufTy).Contents (Elt F) → (⟨S800000x64, .f32⟩ : BufTy).Contents (Elt F) → (⟨S800000x64, .f32⟩ : BufTy).Contents (Elt F)),
    nullary main_cst_3 (constant S_ .f32 0x00000000#32),
    unary main_cst_3 main_v32 (broadcastInDim S50000x64 ![] bcast_S_S50000x64 : (⟨S_, .f32⟩ : BufTy).Contents (Elt F) → (⟨S50000x64, .f32⟩ : BufTy).Contents (Elt F)),
    unary main_arg2 main_v33 (broadcastInDim S800000x1 ![0] bcast_S800000_S800000x1_0 : (⟨S800000, .i32⟩ : BufTy).Contents (Elt F) → (⟨S800000x1, .i32⟩ : BufTy).Contents (Elt F)),
    ternary main_v32 main_v33 main_v31 main_v34 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v34) (TRef.of (T := ⟨S50000x64, .f32⟩) main_call1_v0) (TRef.of (T := ⟨S50000x64, .f32⟩) main_v35) maximumf,
    reshape main_v35 main_v36 rfl shapeCasts_S50000x64_S50000x32x2,
    nullary main_cst_4 (constant S_ .f32 0x00000000#32),
    binary main_v36 main_cst_4 main_v37 ((fun x v => Host.reduceAdd x v reducesTo_S50000x32x2_S50000x32_d2 h_S_) : (⟨S50000x32x2, .f32⟩ : BufTy).Contents (Elt F) → (⟨S_, .f32⟩ : BufTy).Contents (Elt F) → (⟨S50000x32, .f32⟩ : BufTy).Contents (Elt F)),
    unary main_v37 main_v38 (broadcastInDim S50000x32x1 ![0, 1] bcast_S50000x32_S50000x32x1_0_1 : (⟨S50000x32, .f32⟩ : BufTy).Contents (Elt F) → (⟨S50000x32x1, .f32⟩ : BufTy).Contents (Elt F)),
    nullary main_cst_5 (constant S_ .f32 0x40000000#32),
    unary main_cst_5 main_v39 (broadcastInDim S50000x32x1 ![] bcast_S_S50000x32x1 : (⟨S_, .f32⟩ : BufTy).Contents (Elt F) → (⟨S50000x32x1, .f32⟩ : BufTy).Contents (Elt F)),
    binary main_v38 main_v39 main_v40 (Host.divf : (⟨S50000x32x1, .f32⟩ : BufTy).Contents (Elt F) → (⟨S50000x32x1, .f32⟩ : BufTy).Contents (Elt F) → (⟨S50000x32x1, .f32⟩ : BufTy).Contents (Elt F)),
    unary main_v40 main_v41 (broadcastInDim S50000x32x2 ![0, 1, 2] bcast_S50000x32x1_S50000x32x2_0_1_2 : (⟨S50000x32x1, .f32⟩ : BufTy).Contents (Elt F) → (⟨S50000x32x2, .f32⟩ : BufTy).Contents (Elt F)),
    binary main_v36 main_v41 main_v42 (subf : (⟨S50000x32x2, .f32⟩ : BufTy).Contents (Elt F) → (⟨S50000x32x2, .f32⟩ : BufTy).Contents (Elt F) → (⟨S50000x32x2, .f32⟩ : BufTy).Contents (Elt F)),
    binary main_v42 main_v42 main_v43 (mulf : (⟨S50000x32x2, .f32⟩ : BufTy).Contents (Elt F) → (⟨S50000x32x2, .f32⟩ : BufTy).Contents (Elt F) → (⟨S50000x32x2, .f32⟩ : BufTy).Contents (Elt F)),
    nullary main_cst_6 (constant S_ .f32 0x00000000#32),
    binary main_v43 main_cst_6 main_v44 ((fun x v => Host.reduceAdd x v reducesTo_S50000x32x2_S50000x32_d2 h_S_) : (⟨S50000x32x2, .f32⟩ : BufTy).Contents (Elt F) → (⟨S_, .f32⟩ : BufTy).Contents (Elt F) → (⟨S50000x32, .f32⟩ : BufTy).Contents (Elt F)),
    unary main_v44 main_v45 (broadcastInDim S50000x32x1 ![0, 1] bcast_S50000x32_S50000x32x1_0_1 : (⟨S50000x32, .f32⟩ : BufTy).Contents (Elt F) → (⟨S50000x32x1, .f32⟩ : BufTy).Contents (Elt F)),
    nullary main_cst_7 (constant S_ .f32 0x40000000#32),
    unary main_cst_7 main_v46 (broadcastInDim S50000x32x1 ![] bcast_S_S50000x32x1 : (⟨S_, .f32⟩ : BufTy).Contents (Elt F) → (⟨S50000x32x1, .f32⟩ : BufTy).Contents (Elt F)),
    binary main_v45 main_v46 main_v47 (Host.divf : (⟨S50000x32x1, .f32⟩ : BufTy).Contents (Elt F) → (⟨S50000x32x1, .f32⟩ : BufTy).Contents (Elt F) → (⟨S50000x32x1, .f32⟩ : BufTy).Contents (Elt F)),
    unary main_v40 main_v48 (broadcastInDim S50000x32x2 ![0, 1, 2] bcast_S50000x32x1_S50000x32x2_0_1_2 : (⟨S50000x32x1, .f32⟩ : BufTy).Contents (Elt F) → (⟨S50000x32x2, .f32⟩ : BufTy).Contents (Elt F)),
    binary main_v36 main_v48 main_v49 (subf : (⟨S50000x32x2, .f32⟩ : BufTy).Contents (Elt F) → (⟨S50000x32x2, .f32⟩ : BufTy).Contents (Elt F) → (⟨S50000x32x2, .f32⟩ : BufTy).Contents (Elt F)),
    nullary main_cst_8 (constant S_ .f32 0x3727C5AC#32),
    unary main_cst_8 main_v50 (broadcastInDim S50000x32x1 ![] bcast_S_S50000x32x1 : (⟨S_, .f32⟩ : BufTy).Contents (Elt F) → (⟨S50000x32x1, .f32⟩ : BufTy).Contents (Elt F)),
    binary main_v47 main_v50 main_v51 (addf : (⟨S50000x32x1, .f32⟩ : BufTy).Contents (Elt F) → (⟨S50000x32x1, .f32⟩ : BufTy).Contents (Elt F) → (⟨S50000x32x1, .f32⟩ : BufTy).Contents (Elt F)),
    unary main_v51 main_v52 (Host.rsqrt : (⟨S50000x32x1, .f32⟩ : BufTy).Contents (Elt F) → (⟨S50000x32x1, .f32⟩ : BufTy).Contents (Elt F)),
    unary main_v52 main_v53 (broadcastInDim S50000x32x2 ![0, 1, 2] bcast_S50000x32x1_S50000x32x2_0_1_2 : (⟨S50000x32x1, .f32⟩ : BufTy).Contents (Elt F) → (⟨S50000x32x2, .f32⟩ : BufTy).Contents (Elt F)),
    binary main_v49 main_v53 main_v54 (mulf : (⟨S50000x32x2, .f32⟩ : BufTy).Contents (Elt F) → (⟨S50000x32x2, .f32⟩ : BufTy).Contents (Elt F) → (⟨S50000x32x2, .f32⟩ : BufTy).Contents (Elt F)),
    reshape main_v54 main_v55 rfl shapeCasts_S50000x32x2_S50000x64,
    unary main_arg12 main_v56 (broadcastInDim S1x64 ![1] bcast_S64_S1x64_1 : (⟨S64, .f32⟩ : BufTy).Contents (Elt F) → (⟨S1x64, .f32⟩ : BufTy).Contents (Elt F)),
    unary main_v56 main_v57 (broadcastInDim S50000x64 ![0, 1] bcast_S1x64_S50000x64_0_1 : (⟨S1x64, .f32⟩ : BufTy).Contents (Elt F) → (⟨S50000x64, .f32⟩ : BufTy).Contents (Elt F)),
    binary main_v55 main_v57 main_v58 (mulf : (⟨S50000x64, .f32⟩ : BufTy).Contents (Elt F) → (⟨S50000x64, .f32⟩ : BufTy).Contents (Elt F) → (⟨S50000x64, .f32⟩ : BufTy).Contents (Elt F)),
    unary main_arg13 main_v59 (broadcastInDim S1x64 ![1] bcast_S64_S1x64_1 : (⟨S64, .f32⟩ : BufTy).Contents (Elt F) → (⟨S1x64, .f32⟩ : BufTy).Contents (Elt F)),
    unary main_v59 main_v60 (broadcastInDim S50000x64 ![0, 1] bcast_S1x64_S50000x64_0_1 : (⟨S1x64, .f32⟩ : BufTy).Contents (Elt F) → (⟨S50000x64, .f32⟩ : BufTy).Contents (Elt F)),
    binary main_v58 main_v60 main_v61 (addf : (⟨S50000x64, .f32⟩ : BufTy).Contents (Elt F) → (⟨S50000x64, .f32⟩ : BufTy).Contents (Elt F) → (⟨S50000x64, .f32⟩ : BufTy).Contents (Elt F)),
    binary main_v61 main_v17 main_v62 (addf : (⟨S50000x64, .f32⟩ : BufTy).Contents (Elt F) → (⟨S50000x64, .f32⟩ : BufTy).Contents (Elt F) → (⟨S50000x64, .f32⟩ : BufTy).Contents (Elt F)) ]
/-- The references operations 24 to 78 write. -/
abbrev K2_W : List (Ref sig .tc) := [main_v18, main_v19, main_v20, main_v21, main_c_1, main_v22, main_v23, main_c_2, main_v24, main_v25, main_v26, main_v27, main_v28, main_v29, main_v30, main_v31, main_cst_3, main_v32, main_v33, main_v34, main_call1_cst, main_call1_v0, main_v35, main_v36, main_cst_4, main_v37, main_v38, main_cst_5, main_v39, main_v40, main_v41, main_v42, main_v43, main_cst_6, main_v44, main_v45, main_cst_7, main_v46, main_v47, main_v48, main_v49, main_cst_8, main_v50, main_v51, main_v52, main_v53, main_v54, main_v55, main_v56, main_v57, main_v58, main_v59, main_v60, main_v61, main_v62]

/-- Operations 79 to 133: the third layer: the same as the second, its residual being the second layer's result. -/
abbrev K3 : List (HloOp τ sig (Elt F)) :=
  [ binary main_v62 main_arg8 main_v63 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v64 (broadcastInDim S1x64 ![1] bcast_S64_S1x64_1 : (⟨S64, .f32⟩ : BufTy).Contents (Elt F) → (⟨S1x64, .f32⟩ : BufTy).Contents (Elt F)),
    unary main_v64 main_v65 (broadcastInDim S50000x64 ![0, 1] bcast_S1x64_S50000x64_0_1 : (⟨S1x64, .f32⟩ : BufTy).Contents (Elt F) → (⟨S50000x64, .f32⟩ : BufTy).Contents (Elt F)),
    binary main_v63 main_v65 main_v66 (addf : (⟨S50000x64, .f32⟩ : BufTy).Contents (Elt F) → (⟨S50000x64, .f32⟩ : BufTy).Contents (Elt F) → (⟨S50000x64, .f32⟩ : BufTy).Contents (Elt F)),
    nullary main_c_9 (constantI S_ 32 0#32),
    unary main_c_9 main_v67 (broadcastInDim S800000 ![] bcast_S_S800000 : (⟨S_, .i32⟩ : BufTy).Contents (Elt F) → (⟨S800000, .i32⟩ : BufTy).Contents (Elt F)),
    binary main_arg1 main_v67 main_v68 (cmpi .slt : (⟨S800000, .i32⟩ : BufTy).Contents (Elt F) → (⟨S800000, .i32⟩ : BufTy).Contents (Elt F) → (⟨S800000, .i1⟩ : BufTy).Contents (Elt F)),
    nullary main_c_10 (constantI S_ 32 50000#32),
    unary main_c_10 main_v69 (broadcastInDim S800000 ![] bcast_S_S800000 : (⟨S_, .i32⟩ : BufTy).Contents (Elt F) → (⟨S800000, .i32⟩ : BufTy).Contents (Elt F)),
    binary main_arg1 main_v69 main_v70 (addi : (⟨S800000, .i32⟩ : BufTy).Contents (Elt F) → (⟨S800000, .i32⟩ : BufTy).Contents (Elt F) → (⟨S800000, .i32⟩ : BufTy).Contents (Elt F)),
    ternary main_v68 main_v70 main_arg1 main_v71 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v71 main_v72 (broadcastInDim S800000x1 ![0] bcast_S800000_S800000x1_0 : (⟨S800000, .i32⟩ : BufTy).Contents (Elt F) → (⟨S800000x1, .i32⟩ : BufTy).Contents (Elt F)),
    binary main_v66 main_v72 main_v73 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_arg3 main_v74 (broadcastInDim S800000x1 ![0] bcast_S800000_S800000x1_0 : (⟨S800000, .f32⟩ : BufTy).Contents (Elt F) → (⟨S800000x1, .f32⟩ : BufTy).Contents (Elt F)),
    unary main_v74 main_v75 (broadcastInDim S800000x64 ![0, 1] bcast_S800000x1_S800000x64_0_1 : (⟨S800000x1, .f32⟩ : BufTy).Contents (Elt F) → (⟨S800000x64, .f32⟩ : BufTy).Contents (Elt F)),
    binary main_v73 main_v75 main_v76 (mulf : (⟨S800000x64, .f32⟩ : BufTy).Contents (Elt F) → (⟨S800000x64, .f32⟩ : BufTy).Contents (Elt F) → (⟨S800000x64, .f32⟩ : BufTy).Contents (Elt F)),
    nullary main_cst_11 (constant S_ .f32 0x00000000#32),
    unary main_cst_11 main_v77 (broadcastInDim S50000x64 ![] bcast_S_S50000x64 : (⟨S_, .f32⟩ : BufTy).Contents (Elt F) → (⟨S50000x64, .f32⟩ : BufTy).Contents (Elt F)),
    unary main_arg2 main_v78 (broadcastInDim S800000x1 ![0] bcast_S800000_S800000x1_0 : (⟨S800000, .i32⟩ : BufTy).Contents (Elt F) → (⟨S800000x1, .i32⟩ : BufTy).Contents (Elt F)),
    ternary main_v77 main_v78 main_v76 main_v79 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v79) (TRef.of (T := ⟨S50000x64, .f32⟩) main_call2_v0) (TRef.of (T := ⟨S50000x64, .f32⟩) main_v80) maximumf,
    reshape main_v80 main_v81 rfl shapeCasts_S50000x64_S50000x32x2,
    nullary main_cst_12 (constant S_ .f32 0x00000000#32),
    binary main_v81 main_cst_12 main_v82 ((fun x v => Host.reduceAdd x v reducesTo_S50000x32x2_S50000x32_d2 h_S_) : (⟨S50000x32x2, .f32⟩ : BufTy).Contents (Elt F) → (⟨S_, .f32⟩ : BufTy).Contents (Elt F) → (⟨S50000x32, .f32⟩ : BufTy).Contents (Elt F)),
    unary main_v82 main_v83 (broadcastInDim S50000x32x1 ![0, 1] bcast_S50000x32_S50000x32x1_0_1 : (⟨S50000x32, .f32⟩ : BufTy).Contents (Elt F) → (⟨S50000x32x1, .f32⟩ : BufTy).Contents (Elt F)),
    nullary main_cst_13 (constant S_ .f32 0x40000000#32),
    unary main_cst_13 main_v84 (broadcastInDim S50000x32x1 ![] bcast_S_S50000x32x1 : (⟨S_, .f32⟩ : BufTy).Contents (Elt F) → (⟨S50000x32x1, .f32⟩ : BufTy).Contents (Elt F)),
    binary main_v83 main_v84 main_v85 (Host.divf : (⟨S50000x32x1, .f32⟩ : BufTy).Contents (Elt F) → (⟨S50000x32x1, .f32⟩ : BufTy).Contents (Elt F) → (⟨S50000x32x1, .f32⟩ : BufTy).Contents (Elt F)),
    unary main_v85 main_v86 (broadcastInDim S50000x32x2 ![0, 1, 2] bcast_S50000x32x1_S50000x32x2_0_1_2 : (⟨S50000x32x1, .f32⟩ : BufTy).Contents (Elt F) → (⟨S50000x32x2, .f32⟩ : BufTy).Contents (Elt F)),
    binary main_v81 main_v86 main_v87 (subf : (⟨S50000x32x2, .f32⟩ : BufTy).Contents (Elt F) → (⟨S50000x32x2, .f32⟩ : BufTy).Contents (Elt F) → (⟨S50000x32x2, .f32⟩ : BufTy).Contents (Elt F)),
    binary main_v87 main_v87 main_v88 (mulf : (⟨S50000x32x2, .f32⟩ : BufTy).Contents (Elt F) → (⟨S50000x32x2, .f32⟩ : BufTy).Contents (Elt F) → (⟨S50000x32x2, .f32⟩ : BufTy).Contents (Elt F)),
    nullary main_cst_14 (constant S_ .f32 0x00000000#32),
    binary main_v88 main_cst_14 main_v89 ((fun x v => Host.reduceAdd x v reducesTo_S50000x32x2_S50000x32_d2 h_S_) : (⟨S50000x32x2, .f32⟩ : BufTy).Contents (Elt F) → (⟨S_, .f32⟩ : BufTy).Contents (Elt F) → (⟨S50000x32, .f32⟩ : BufTy).Contents (Elt F)),
    unary main_v89 main_v90 (broadcastInDim S50000x32x1 ![0, 1] bcast_S50000x32_S50000x32x1_0_1 : (⟨S50000x32, .f32⟩ : BufTy).Contents (Elt F) → (⟨S50000x32x1, .f32⟩ : BufTy).Contents (Elt F)),
    nullary main_cst_15 (constant S_ .f32 0x40000000#32),
    unary main_cst_15 main_v91 (broadcastInDim S50000x32x1 ![] bcast_S_S50000x32x1 : (⟨S_, .f32⟩ : BufTy).Contents (Elt F) → (⟨S50000x32x1, .f32⟩ : BufTy).Contents (Elt F)),
    binary main_v90 main_v91 main_v92 (Host.divf : (⟨S50000x32x1, .f32⟩ : BufTy).Contents (Elt F) → (⟨S50000x32x1, .f32⟩ : BufTy).Contents (Elt F) → (⟨S50000x32x1, .f32⟩ : BufTy).Contents (Elt F)),
    unary main_v85 main_v93 (broadcastInDim S50000x32x2 ![0, 1, 2] bcast_S50000x32x1_S50000x32x2_0_1_2 : (⟨S50000x32x1, .f32⟩ : BufTy).Contents (Elt F) → (⟨S50000x32x2, .f32⟩ : BufTy).Contents (Elt F)),
    binary main_v81 main_v93 main_v94 (subf : (⟨S50000x32x2, .f32⟩ : BufTy).Contents (Elt F) → (⟨S50000x32x2, .f32⟩ : BufTy).Contents (Elt F) → (⟨S50000x32x2, .f32⟩ : BufTy).Contents (Elt F)),
    nullary main_cst_16 (constant S_ .f32 0x3727C5AC#32),
    unary main_cst_16 main_v95 (broadcastInDim S50000x32x1 ![] bcast_S_S50000x32x1 : (⟨S_, .f32⟩ : BufTy).Contents (Elt F) → (⟨S50000x32x1, .f32⟩ : BufTy).Contents (Elt F)),
    binary main_v92 main_v95 main_v96 (addf : (⟨S50000x32x1, .f32⟩ : BufTy).Contents (Elt F) → (⟨S50000x32x1, .f32⟩ : BufTy).Contents (Elt F) → (⟨S50000x32x1, .f32⟩ : BufTy).Contents (Elt F)),
    unary main_v96 main_v97 (Host.rsqrt : (⟨S50000x32x1, .f32⟩ : BufTy).Contents (Elt F) → (⟨S50000x32x1, .f32⟩ : BufTy).Contents (Elt F)),
    unary main_v97 main_v98 (broadcastInDim S50000x32x2 ![0, 1, 2] bcast_S50000x32x1_S50000x32x2_0_1_2 : (⟨S50000x32x1, .f32⟩ : BufTy).Contents (Elt F) → (⟨S50000x32x2, .f32⟩ : BufTy).Contents (Elt F)),
    binary main_v94 main_v98 main_v99 (mulf : (⟨S50000x32x2, .f32⟩ : BufTy).Contents (Elt F) → (⟨S50000x32x2, .f32⟩ : BufTy).Contents (Elt F) → (⟨S50000x32x2, .f32⟩ : BufTy).Contents (Elt F)),
    reshape main_v99 main_v100 rfl shapeCasts_S50000x32x2_S50000x64,
    unary main_arg14 main_v101 (broadcastInDim S1x64 ![1] bcast_S64_S1x64_1 : (⟨S64, .f32⟩ : BufTy).Contents (Elt F) → (⟨S1x64, .f32⟩ : BufTy).Contents (Elt F)),
    unary main_v101 main_v102 (broadcastInDim S50000x64 ![0, 1] bcast_S1x64_S50000x64_0_1 : (⟨S1x64, .f32⟩ : BufTy).Contents (Elt F) → (⟨S50000x64, .f32⟩ : BufTy).Contents (Elt F)),
    binary main_v100 main_v102 main_v103 (mulf : (⟨S50000x64, .f32⟩ : BufTy).Contents (Elt F) → (⟨S50000x64, .f32⟩ : BufTy).Contents (Elt F) → (⟨S50000x64, .f32⟩ : BufTy).Contents (Elt F)),
    unary main_arg15 main_v104 (broadcastInDim S1x64 ![1] bcast_S64_S1x64_1 : (⟨S64, .f32⟩ : BufTy).Contents (Elt F) → (⟨S1x64, .f32⟩ : BufTy).Contents (Elt F)),
    unary main_v104 main_v105 (broadcastInDim S50000x64 ![0, 1] bcast_S1x64_S50000x64_0_1 : (⟨S1x64, .f32⟩ : BufTy).Contents (Elt F) → (⟨S50000x64, .f32⟩ : BufTy).Contents (Elt F)),
    binary main_v103 main_v105 main_v106 (addf : (⟨S50000x64, .f32⟩ : BufTy).Contents (Elt F) → (⟨S50000x64, .f32⟩ : BufTy).Contents (Elt F) → (⟨S50000x64, .f32⟩ : BufTy).Contents (Elt F)),
    binary main_v106 main_v62 main_v107 (addf : (⟨S50000x64, .f32⟩ : BufTy).Contents (Elt F) → (⟨S50000x64, .f32⟩ : BufTy).Contents (Elt F) → (⟨S50000x64, .f32⟩ : BufTy).Contents (Elt F)) ]
/-- The references operations 79 to 133 write. -/
abbrev K3_W : List (Ref sig .tc) := [main_v63, main_v64, main_v65, main_v66, main_c_9, main_v67, main_v68, main_c_10, main_v69, main_v70, main_v71, main_v72, main_v73, main_v74, main_v75, main_v76, main_cst_11, main_v77, main_v78, main_v79, main_call2_cst, main_call2_v0, main_v80, main_v81, main_cst_12, main_v82, main_v83, main_cst_13, main_v84, main_v85, main_v86, main_v87, main_v88, main_cst_14, main_v89, main_v90, main_cst_15, main_v91, main_v92, main_v93, main_v94, main_cst_16, main_v95, main_v96, main_v97, main_v98, main_v99, main_v100, main_v101, main_v102, main_v103, main_v104, main_v105, main_v106, main_v107]

/-- Operations 134 to 168: the fourth layer: linear map to the classes, edge aggregation, and the log-softmax over the classes. -/
abbrev K4 : List (HloOp τ sig (Elt F)) :=
  [ binary main_v107 main_arg10 main_v108 ((fun l r => Host.dotGeneral dot_S50000x64_S64x40_S50000x40_1_0_0_1_n_n none l r) : (⟨S50000x64, .f32⟩ : BufTy).Contents (Elt F) → (⟨S64x40, .f32⟩ : BufTy).Contents (Elt F) → (⟨S50000x40, .f32⟩ : BufTy).Contents (Elt F)),
    unary main_arg11 main_v109 (broadcastInDim S1x40 ![1] bcast_S40_S1x40_1 : (⟨S40, .f32⟩ : BufTy).Contents (Elt F) → (⟨S1x40, .f32⟩ : BufTy).Contents (Elt F)),
    unary main_v109 main_v110 (broadcastInDim S50000x40 ![0, 1] bcast_S1x40_S50000x40_0_1 : (⟨S1x40, .f32⟩ : BufTy).Contents (Elt F) → (⟨S50000x40, .f32⟩ : BufTy).Contents (Elt F)),
    binary main_v108 main_v110 main_v111 (addf : (⟨S50000x40, .f32⟩ : BufTy).Contents (Elt F) → (⟨S50000x40, .f32⟩ : BufTy).Contents (Elt F) → (⟨S50000x40, .f32⟩ : BufTy).Contents (Elt F)),
    nullary main_c_17 (constantI S_ 32 0#32),
    unary main_c_17 main_v112 (broadcastInDim S800000 ![] bcast_S_S800000 : (⟨S_, .i32⟩ : BufTy).Contents (Elt F) → (⟨S800000, .i32⟩ : BufTy).Contents (Elt F)),
    binary main_arg1 main_v112 main_v113 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v114 (broadcastInDim S800000 ![] bcast_S_S800000 : (⟨S_, .i32⟩ : BufTy).Contents (Elt F) → (⟨S800000, .i32⟩ : BufTy).Contents (Elt F)),
    binary main_arg1 main_v114 main_v115 (addi : (⟨S800000, .i32⟩ : BufTy).Contents (Elt F) → (⟨S800000, .i32⟩ : BufTy).Contents (Elt F) → (⟨S800000, .i32⟩ : BufTy).Contents (Elt F)),
    ternary main_v113 main_v115 main_arg1 main_v116 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v116 main_v117 (broadcastInDim S800000x1 ![0] bcast_S800000_S800000x1_0 : (⟨S800000, .i32⟩ : BufTy).Contents (Elt F) → (⟨S800000x1, .i32⟩ : BufTy).Contents (Elt F)),
    binary main_v111 main_v117 main_v118 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    unary main_arg3 main_v119 (broadcastInDim S800000x1 ![0] bcast_S800000_S800000x1_0 : (⟨S800000, .f32⟩ : BufTy).Contents (Elt F) → (⟨S800000x1, .f32⟩ : BufTy).Contents (Elt F)),
    unary main_v119 main_v120 (broadcastInDim S800000x40 ![0, 1] bcast_S800000x1_S800000x40_0_1 : (⟨S800000x1, .f32⟩ : BufTy).Contents (Elt F) → (⟨S800000x40, .f32⟩ : BufTy).Contents (Elt F)),
    binary main_v118 main_v120 main_v121 (mulf : (⟨S800000x40, .f32⟩ : BufTy).Contents (Elt F) → (⟨S800000x40, .f32⟩ : BufTy).Contents (Elt F) → (⟨S800000x40, .f32⟩ : BufTy).Contents (Elt F)),
    nullary main_cst_19 (constant S_ .f32 0x00000000#32),
    unary main_cst_19 main_v122 (broadcastInDim S50000x40 ![] bcast_S_S50000x40 : (⟨S_, .f32⟩ : BufTy).Contents (Elt F) → (⟨S50000x40, .f32⟩ : BufTy).Contents (Elt F)),
    unary main_arg2 main_v123 (broadcastInDim S800000x1 ![0] bcast_S800000_S800000x1_0 : (⟨S800000, .i32⟩ : BufTy).Contents (Elt F) → (⟨S800000x1, .i32⟩ : BufTy).Contents (Elt F)),
    ternary main_v122 main_v123 main_v121 main_v124 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v124) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v124) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v125) subf ]
/-- The references operations 134 to 168 write. -/
abbrev K4_W : List (Ref sig .tc) := [main_v108, main_v109, main_v110, main_v111, main_c_17, main_v112, main_v113, main_c_18, main_v114, main_v115, main_v116, main_v117, main_v118, main_v119, main_v120, main_v121, main_cst_19, main_v122, main_v123, main_v124, main_call3_cst, main_call3_v0, main_call3_cst_0, main_call3_v1, main_call3_v2, main_call3_v3, main_call3_v4, main_call3_v5, main_call3_v6, main_call3_cst_1, main_call3_v7, main_call3_v8, main_call3_v9, main_call3_v10, main_v125]

set_option maxRecDepth 16384 in
set_option maxHeartbeats 4000000 in
/-- The four stretches in order are the whole list. -/
theorem ops_eq : (ops : List (HloOp τ sig (Elt F))) = K1 ++ (K2 ++ (K3 ++ K4)) := rfl

/-- Folding a concatenation is folding its second part from what the first part leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The whole list folded is the four stretches folded one after the other. -/
theorem after_ops (V : Valuation τ sig (Elt F)) : after ops V = after K4 (after K3 (after K2 (after K1 V))) := by
  rw [ops_eq, after_app, after_app, after_app]

/-! ## What each stretch leaves alone

Each operation writes exactly its own result reference, so a stretch changes only the references in its list of
written ones; every other buffer (an argument array, or an earlier layer's result) keeps its contents. -/

set_option maxRecDepth 8192 in
set_option maxHeartbeats 1000000 in
theorem K1_writes : (K1 : List (HloOp τ sig (Elt F))).Forall fun op =>
    op.writes ⊆ (K1_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
set_option maxHeartbeats 1000000 in
theorem K2_writes : (K2 : List (HloOp τ sig (Elt F))).Forall fun op =>
    op.writes ⊆ (K2_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
set_option maxHeartbeats 1000000 in
theorem K3_writes : (K3 : List (HloOp τ sig (Elt F))).Forall fun op =>
    op.writes ⊆ (K3_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

set_option maxRecDepth 8192 in
set_option maxHeartbeats 1000000 in
theorem K4_writes : (K4 : List (HloOp τ sig (Elt F))).Forall fun op =>
    op.writes ⊆ (K4_W.map (Proc.devRef (τ := τ) .tc)).toFinset := by
  simp only [List.Forall, nullary_writes, unary_writes, binary_writes, ternary_writes, reshape_writes,
    Finset.singleton_subset_iff, List.mem_toFinset]
  repeat' apply And.intro
  all_goals exact List.mem_map_of_mem (by decide)

theorem keep1 (V : Valuation τ sig (Elt F)) {r : Ref sig .tc} (h1 : r ∉ K1_W) :
    after K1 V (Proc.devRef .tc r) = V (Proc.devRef .tc r) :=
  after_of_writes_sub K1 V K1_writes h1
theorem keep2 (V : Valuation τ sig (Elt F)) {r : Ref sig .tc} (h1 : r ∉ K1_W) (h2 : r ∉ K2_W) :
    after K2 (after K1 V) (Proc.devRef .tc r) = V (Proc.devRef .tc r) :=
  (after_of_writes_sub K2 _ K2_writes h2).trans (keep1 V h1)
theorem keep3 (V : Valuation τ sig (Elt F)) {r : Ref sig .tc} (h1 : r ∉ K1_W) (h2 : r ∉ K2_W) (h3 : r ∉ K3_W) :
    after K3 (after K2 (after K1 V)) (Proc.devRef .tc r) = V (Proc.devRef .tc r) :=
  (after_of_writes_sub K3 _ K3_writes h3).trans (keep2 V h1 h2)
theorem keep4 (V : Valuation τ sig (Elt F)) {r : Ref sig .tc} (h1 : r ∉ K1_W) (h2 : r ∉ K2_W) (h3 : r ∉ K3_W)
    (h4 : r ∉ K4_W) :
    after K4 (after K3 (after K2 (after K1 V))) (Proc.devRef .tc r) = V (Proc.devRef .tc r) :=
  (after_of_writes_sub K4 _ K4_writes h4).trans (keep3 V h1 h2 h3)

/-! ## Each layer's result from the contents at its entry

Folding one stretch from contents `W` gives the stretch's operations composed over `W` at the buffers the stretch
reads from outside: argument arrays, and (from the second layer on) the previous layer's result. With those buffers
at the arguments and at the previous stage, the composed term is the layer's last stage by unfolding the stage names
of this layer only; the previous layer's stage stays a name. -/

/-- An operation of a called function states its function at the value's tensor type and moves contents to the
    buffer's own type and back along the equation of the two types: there and back is the identity. -/
theorem tref_ofBuf_toBuf {T : BufTy} (x : TRef sig T) (v : T.Contents (Elt F)) : x.ofBuf (x.toBuf v) = v := by
  obtain ⟨r, h, h2, h3⟩ := x
  subst h
  rfl

set_option maxRecDepth 16384 in
set_option maxHeartbeats 4000000 in
theorem K1_v17 (W : Valuation τ sig (Elt F)) :
    after K1 W (Proc.devRef .tc main_v17)
      = val_main_v17 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) := by
  after_results_simp
  rfl

set_option maxRecDepth 16384 in
set_option maxHeartbeats 4000000 in
theorem K2_v62 (W : Valuation τ sig (Elt F)) {x0 : (⟨S50000x128, .f32⟩ : BufTy).Contents (Elt F)} {x1 : (⟨S800000, .i32⟩ : BufTy).Contents (Elt F)} {x2 : (⟨S800000, .i32⟩ : BufTy).Contents (Elt F)} {x3 : (⟨S800000, .f32⟩ : BufTy).Contents (Elt F)} {x4 : (⟨S128x64, .f32⟩ : BufTy).Contents (Elt F)} {x5 : (⟨S64, .f32⟩ : BufTy).Contents (Elt F)} {x6 : (⟨S64x64, .f32⟩ : BufTy).Contents (Elt F)} {x7 : (⟨S64, .f32⟩ : BufTy).Contents (Elt F)} {x12 : (⟨S64, .f32⟩ : BufTy).Contents (Elt F)} {x13 : (⟨S64, .f32⟩ : BufTy).Contents (Elt F)}
    (h17 : W (Proc.devRef .tc main_v17) = val_main_v17 (F := F) x0 x1 x2 x3 x4 x5)
    (h1 : W (Proc.devRef .tc main_arg1) = x1) (h2 : W (Proc.devRef .tc main_arg2) = x2) (h3 : W (Proc.devRef .tc main_arg3) = x3) (h6 : W (Proc.devRef .tc main_arg6) = x6) (h7 : W (Proc.devRef .tc main_arg7) = x7) (h12 : W (Proc.devRef .tc main_arg12) = x12) (h13 : W (Proc.devRef .tc main_arg13) = x13) :
    after K2 W (Proc.devRef .tc main_v62) = val_main_v62 (F := F) x0 x1 x2 x3 x4 x5 x6 x7 x12 x13 := by
  after_results_simp
  rw [h17, h1, h2, h3, h6, h7, h12, h13]
  rfl

set_option maxRecDepth 16384 in
set_option maxHeartbeats 4000000 in
theorem K3_v107 (W : Valuation τ sig (Elt F)) {x0 : (⟨S50000x128, .f32⟩ : BufTy).Contents (Elt F)} {x1 : (⟨S800000, .i32⟩ : BufTy).Contents (Elt F)} {x2 : (⟨S800000, .i32⟩ : BufTy).Contents (Elt F)} {x3 : (⟨S800000, .f32⟩ : BufTy).Contents (Elt F)} {x4 : (⟨S128x64, .f32⟩ : BufTy).Contents (Elt F)} {x5 : (⟨S64, .f32⟩ : BufTy).Contents (Elt F)} {x6 : (⟨S64x64, .f32⟩ : BufTy).Contents (Elt F)} {x7 : (⟨S64, .f32⟩ : BufTy).Contents (Elt F)} {x8 : (⟨S64x64, .f32⟩ : BufTy).Contents (Elt F)} {x9 : (⟨S64, .f32⟩ : BufTy).Contents (Elt F)} {x12 : (⟨S64, .f32⟩ : BufTy).Contents (Elt F)} {x13 : (⟨S64, .f32⟩ : BufTy).Contents (Elt F)} {x14 : (⟨S64, .f32⟩ : BufTy).Contents (Elt F)} {x15 : (⟨S64, .f32⟩ : BufTy).Contents (Elt F)}
    (h62 : W (Proc.devRef .tc main_v62) = val_main_v62 (F := F) x0 x1 x2 x3 x4 x5 x6 x7 x12 x13)
    (h1 : W (Proc.devRef .tc main_arg1) = x1) (h2 : W (Proc.devRef .tc main_arg2) = x2) (h3 : W (Proc.devRef .tc main_arg3) = x3) (h8 : W (Proc.devRef .tc main_arg8) = x8) (h9 : W (Proc.devRef .tc main_arg9) = x9) (h14 : W (Proc.devRef .tc main_arg14) = x14) (h15 : W (Proc.devRef .tc main_arg15) = x15) :
    after K3 W (Proc.devRef .tc main_v107) = val_main_v107 (F := F) x0 x1 x2 x3 x4 x5 x6 x7 x8 x9 x12 x13 x14 x15 := by
  after_results_simp
  rw [h62, h1, h2, h3, h8, h9, h14, h15]
  rfl

set_option maxRecDepth 16384 in
set_option maxHeartbeats 4000000 in
theorem K4_v125 (W : Valuation τ sig (Elt F)) {x0 : (⟨S50000x128, .f32⟩ : BufTy).Contents (Elt F)} {x1 : (⟨S800000, .i32⟩ : BufTy).Contents (Elt F)} {x2 : (⟨S800000, .i32⟩ : BufTy).Contents (Elt F)} {x3 : (⟨S800000, .f32⟩ : BufTy).Contents (Elt F)} {x4 : (⟨S128x64, .f32⟩ : BufTy).Contents (Elt F)} {x5 : (⟨S64, .f32⟩ : BufTy).Contents (Elt F)} {x6 : (⟨S64x64, .f32⟩ : BufTy).Contents (Elt F)} {x7 : (⟨S64, .f32⟩ : BufTy).Contents (Elt F)} {x8 : (⟨S64x64, .f32⟩ : BufTy).Contents (Elt F)} {x9 : (⟨S64, .f32⟩ : BufTy).Contents (Elt F)} {x10 : (⟨S64x40, .f32⟩ : BufTy).Contents (Elt F)} {x11 : (⟨S40, .f32⟩ : BufTy).Contents (Elt F)} {x12 : (⟨S64, .f32⟩ : BufTy).Contents (Elt F)} {x13 : (⟨S64, .f32⟩ : BufTy).Contents (Elt F)} {x14 : (⟨S64, .f32⟩ : BufTy).Contents (Elt F)} {x15 : (⟨S64, .f32⟩ : BufTy).Contents (Elt F)}
    (h107 : W (Proc.devRef .tc main_v107) = val_main_v107 (F := F) x0 x1 x2 x3 x4 x5 x6 x7 x8 x9 x12 x13 x14 x15)
    (h1 : W (Proc.devRef .tc main_arg1) = x1) (h2 : W (Proc.devRef .tc main_arg2) = x2) (h3 : W (Proc.devRef .tc main_arg3) = x3) (h10 : W (Proc.devRef .tc main_arg10) = x10) (h11 : W (Proc.devRef .tc main_arg11) = x11) :
    after K4 W (Proc.devRef .tc main_v125) = val_main_v125 (F := F) x0 x1 x2 x3 x4 x5 x6 x7 x8 x9 x10 x11 x12 x13 x14 x15 := by
  after_results_simp
  rw [h107, h1, h2, h3, h10, h11]
  simp only [tref_ofBuf_toBuf]
  rfl

/-! ## The layers chained from any starting contents -/

theorem stage1 (V : Valuation τ sig (Elt F)) :
    after K1 V (Proc.devRef .tc main_v17) = val_main_v17 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) :=
  K1_v17 V
theorem stage2 (V : Valuation τ sig (Elt F)) :
    after K2 (after K1 V) (Proc.devRef .tc main_v62) = val_main_v62 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) :=
  K2_v62 (after K1 V) (stage1 V) (keep1 V (by decide)) (keep1 V (by decide)) (keep1 V (by decide)) (keep1 V (by decide)) (keep1 V (by decide)) (keep1 V (by decide)) (keep1 V (by decide))
theorem stage3 (V : Valuation τ sig (Elt F)) :
    after K3 (after K2 (after K1 V)) (Proc.devRef .tc main_v107) = val_main_v107 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg12)) (V (Proc.devRef .tc main_arg13)) (V (Proc.devRef .tc main_arg14)) (V (Proc.devRef .tc main_arg15)) :=
  K3_v107 (after K2 (after K1 V)) (stage2 V) (keep2 V (by decide) (by decide)) (keep2 V (by decide) (by decide)) (keep2 V (by decide) (by decide)) (keep2 V (by decide) (by decide)) (keep2 V (by decide) (by decide)) (keep2 V (by decide) (by decide)) (keep2 V (by decide) (by decide))
theorem stage4 (V : Valuation τ sig (Elt F)) :
    after K4 (after K3 (after K2 (after K1 V))) (Proc.devRef .tc main_v125) = val_main_v125 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  K4_v125 (after K3 (after K2 (after K1 V))) (stage3 V) (keep3 V (by decide) (by decide) (by decide)) (keep3 V (by decide) (by decide) (by decide)) (keep3 V (by decide) (by decide) (by decide)) (keep3 V (by decide) (by decide) (by decide)) (keep3 V (by decide) (by decide) (by decide))

/-- The whole list's result buffer is the last stage of the contents it starts from. -/
theorem ops_v125 (V : Valuation τ sig (Elt F)) :
    after ops V (Proc.devRef .tc main_v125) = val_main_v125 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) :=
  (congrFun (after_ops V) _).trans (stage4 V)

/-- A reference no operation writes (every argument array) holds after the whole list what it held before. -/
theorem ops_keep (V : Valuation τ sig (Elt F)) {r : Ref sig .tc} (h1 : r ∉ K1_W) (h2 : r ∉ K2_W) (h3 : r ∉ K3_W)
    (h4 : r ∉ K4_W) : after ops V (Proc.devRef .tc r) = V (Proc.devRef .tc r) :=
  (congrFun (after_ops V) _).trans (keep4 V h1 h2 h3 h4)

/-- On every device, for any float values, from any memory with zero counters: every weakly fair execution of @main
    terminates with the result buffer at the last stage of the argument arrays' launch contents, and every argument
    array as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125) = val_main_v125 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun _ h c => ⟨(h c main_v125).trans (ops_v125 _),
      (h c main_arg0).trans (ops_keep _ (by decide) (by decide) (by decide) (by decide)),
      (h c main_arg1).trans (ops_keep _ (by decide) (by decide) (by decide) (by decide)),
      (h c main_arg2).trans (ops_keep _ (by decide) (by decide) (by decide) (by decide)),
      (h c main_arg3).trans (ops_keep _ (by decide) (by decide) (by decide) (by decide)),
      (h c main_arg4).trans (ops_keep _ (by decide) (by decide) (by decide) (by decide)),
      (h c main_arg5).trans (ops_keep _ (by decide) (by decide) (by decide) (by decide)),
      (h c main_arg6).trans (ops_keep _ (by decide) (by decide) (by decide) (by decide)),
      (h c main_arg7).trans (ops_keep _ (by decide) (by decide) (by decide) (by decide)),
      (h c main_arg8).trans (ops_keep _ (by decide) (by decide) (by decide) (by decide)),
      (h c main_arg9).trans (ops_keep _ (by decide) (by decide) (by decide) (by decide)),
      (h c main_arg10).trans (ops_keep _ (by decide) (by decide) (by decide) (by decide)),
      (h c main_arg11).trans (ops_keep _ (by decide) (by decide) (by decide) (by decide)),
      (h c main_arg12).trans (ops_keep _ (by decide) (by decide) (by decide) (by decide)),
      (h c main_arg13).trans (ops_keep _ (by decide) (by decide) (by decide) (by decide)),
      (h c main_arg14).trans (ops_keep _ (by decide) (by decide) (by decide) (by decide)),
      (h c main_arg15).trans (ops_keep _ (by decide) (by decide) (by decide) (by decide))⟩)
    (run_seq scopedRefs_eq scopedSems_eq defs main (fun _ => ops) main_eq (fun _ => ops_sub) m ρ)

end Cert.ReferenceIdeal.StageRun

end
-- ==== Proof.Basic.lean ====
/-
  Shared vocabulary for comparing the two programs at the exact (extended-real) reading.

  The network has four graph-convolution layers over 50000 nodes. Every Pallas region works on blocks of 2000
  rows and each output row depends only on the same row of its row-blocked inputs and on small whole operands,
  so each region's result is written here as ONE function of whole arrays, index by index:
  a linear map plus bias (`linK`), a rectifier (`reluK`), a group normalisation over channel pairs with affine
  part and residual (`gnK`, with the 0/1 group matrices as operands; `gnPair`, with the pairs read directly),
  and a row-wise log-softmax (`lsmK`).
-/
import Idealize.ShloMosaic.PureOps.Ideal
import Idealize.ShloMosaic.Lib.ValueIdx

noncomputable section

namespace Cert.GNN

open Idealize.ShloMosaic Idealize.ShloMosaic.ValueIdx

/-- A rank-2 array of extended reals. -/
abbrev A (r c : Nat) : Type := (⟨2, ![r, c]⟩ : Shape).Idx → EReal

/-- Every entry is a real number (neither infinity). -/
def IsReal {S : Shape} (v : S.Idx → EReal) : Prop := ∀ i, ∃ r : ℝ, v i = (r : EReal)

/-- The float literals the programs share, at the exact reading. -/
abbrev zeroW : EReal := Ideal.ofBits .f32 0x00000000#32
abbrev twoW : EReal := Ideal.ofBits .f32 0x40000000#32
abbrev epsW : EReal := Ideal.ofBits .f32 0x3727C5AC#32
abbrev negInfW : EReal := Ideal.ofBits .f32 0xFF800000#32

/-- Row `n` of `x` times `W`, plus the bias row: entry `(n, j)` is `Σ_k x[n,k]·W[k,j] + b[0,j]`. -/
def linK {K N : Nat} (x : A 50000 K) (W : A K N) (b : A 1 N) : A 50000 N :=
  fun i => (∑ k : Fin K, x (ix2 (i 0) k) * W (ix2 k (i 1))) + b (ix2 0 (i 1))

/-- The rectifier, entry by entry. -/
def reluK {N : Nat} (a : A 50000 N) : A 50000 N := fun i => max (a i) zeroW

/-- Group normalisation of the rectified row with the group sums taken through the 0/1 matrices
    `P` (channel → group) and `Pt` (group → channel): per group the mean `gs/2`, the variance
    `gsq/2 − mean²`, the inverse deviation `rsqrt (var + ε)`; the result is
    `(h − mean)·inv·γ + β + r`. -/
def gnK (raw r : A 50000 64) (γ β : A 1 64) (P : A 64 32) (Pt : A 32 64) : A 50000 64 := fun i =>
  let h : Fin 64 → EReal := fun c => max (raw (ix2 (i 0) c)) zeroW
  let mean : Fin 32 → EReal := fun g => Ideal.div (∑ c : Fin 64, h c * P (ix2 c g)) twoW
  let msq : Fin 32 → EReal := fun g => Ideal.div (∑ c : Fin 64, (h c * h c) * P (ix2 c g)) twoW
  let inv : Fin 32 → EReal := fun g => Ideal.rsqrt ((msq g - mean g * mean g) + epsW)
  ((h (i 1) - ∑ g : Fin 32, mean g * Pt (ix2 g (i 1))) * (∑ g : Fin 32, inv g * Pt (ix2 g (i 1))))
      * γ (ix2 0 (i 1)) + β (ix2 0 (i 1)) + r i

/-- The two channels of the group that channel `c` belongs to. -/
def lo (c : Fin 64) : Fin 64 := ⟨2 * (c.val / 2), by omega⟩
def hi (c : Fin 64) : Fin 64 := ⟨2 * (c.val / 2) + 1, by omega⟩

/-- The same normalisation with each group's pair of channels read directly:
    mean `(h₀ + h₁)/2`, variance `(h₀² + h₁²)/2 − mean²`. -/
def gnPair (raw r : A 50000 64) (γ β : A 1 64) : A 50000 64 := fun i =>
  let h : Fin 64 → EReal := fun c => max (raw (ix2 (i 0) c)) zeroW
  let mean : EReal := Ideal.div (h (lo (i 1)) + h (hi (i 1))) twoW
  let msq : EReal := Ideal.div (h (lo (i 1)) * h (lo (i 1)) + h (hi (i 1)) * h (hi (i 1))) twoW
  ((h (i 1) - mean) * Ideal.rsqrt ((msq - mean * mean) + epsW)) * γ (ix2 0 (i 1)) + β (ix2 0 (i 1)) + r i

/-- The largest entry of row `n`, folded from minus infinity. -/
def rowMax (a : A 50000 40) (n : Fin 50000) : EReal :=
  (Finset.univ : Finset (Fin 40)).fold max negInfW (fun j => a (ix2 n j))

/-- Row-wise log-softmax: `z = a − max`, result `z − log Σ exp z`. -/
def lsmK (a : A 50000 40) : A 50000 40 := fun i =>
  (a i - rowMax a (i 0)) - Ideal.log (∑ j : Fin 40, Ideal.exp (a (ix2 (i 0) j) - rowMax a (i 0)))

end Cert.GNN

end
-- ==== Proof.FinitePre.lean ====
/- The precondition says every float argument array has only finite entries; at the exact reading that is: every entry
   is a real number. -/
import proofs.«400152_j40956808135039_1_alg».proof.Defs
import proofs.«400152_j40956808135039_1_alg».proof.Proof.Gen.Pre_finite_inputs
import proofs.«400152_j40956808135039_1_alg».proof.Proof.Basic
import Idealize.ShloMosaic.Lib.ReduceAll

noncomputable section

namespace Cert.GNN

open Cert.KernelIdeal
open Idealize.ShloMosaic Idealize.ShloMosaic.TcCoe Idealize.SL.Sem

/-- The float arguments of the kernel program, by position. -/
structure ArgsReal (m : (ℓ : Loc nD τ sig) → Buf (Elt Ideal) ℓ) (c : Dev nD) : Prop where
  h0 : IsReal (S := S50000x128) (m ((c.tc : Thread nD τ).loc main_arg0))
  h3 : IsReal (S := S800000) (m ((c.tc : Thread nD τ).loc main_arg3))
  h4 : IsReal (S := S128x64) (m ((c.tc : Thread nD τ).loc main_arg4))
  h5 : IsReal (S := S64) (m ((c.tc : Thread nD τ).loc main_arg5))
  h6 : IsReal (S := S64x64) (m ((c.tc : Thread nD τ).loc main_arg6))
  h7 : IsReal (S := S64) (m ((c.tc : Thread nD τ).loc main_arg7))
  h8 : IsReal (S := S64x64) (m ((c.tc : Thread nD τ).loc main_arg8))
  h9 : IsReal (S := S64) (m ((c.tc : Thread nD τ).loc main_arg9))
  h10 : IsReal (S := S64x40) (m ((c.tc : Thread nD τ).loc main_arg10))
  h11 : IsReal (S := S40) (m ((c.tc : Thread nD τ).loc main_arg11))
  h12 : IsReal (S := S64) (m ((c.tc : Thread nD τ).loc main_arg12))
  h13 : IsReal (S := S64) (m ((c.tc : Thread nD τ).loc main_arg13))
  h14 : IsReal (S := S64) (m ((c.tc : Thread nD τ).loc main_arg14))
  h15 : IsReal (S := S64) (m ((c.tc : Thread nD τ).loc main_arg15))

/-- The scalar shape has exactly one index. -/
instance scalarIdxSubsingleton : Subsingleton (⟨0, ![]⟩ : Shape).Idx := ⟨fun a b => funext fun d => d.elim0⟩

/-- A one-bit word made from a truth value is 1 exactly when the truth value is true. -/
theorem ofBool_eq_one_iff (b : Bool) : BitVec.ofBool b = 1#1 ↔ b = true := by cases b <;> decide

/-- The pattern 0x7F800000 (sign 0, exponent all ones, fraction 0) denotes plus infinity. -/
theorem posInf_eq_top : Ideal.ofBits .f32 0x7F800000#32 = (⊤ : EReal) := by simp [Ideal.ofBits, Ideal.ieee]

/-- If |y| = max y (−y) is strictly below plus infinity then y is neither infinity, that is, y is a real number:
    for y = +∞ the maximum is +∞, for y = −∞ it is −(−∞) = +∞, and +∞ < +∞ is false. -/
theorem real_of_abs_lt_inf (y : EReal)
    (h : Ideal.cmp .olt (max y (-y)) (Ideal.ofBits .f32 0x7F800000#32) = 1#1) : ∃ r : ℝ, y = (r : EReal) := by
  rw [posInf_eq_top] at h
  change BitVec.ofBool (decide (max y (-y) < ⊤)) = 1#1 at h
  rw [ofBool_eq_one_iff, decide_eq_true_eq] at h
  induction y using EReal.rec with
  | bot => simp at h
  | coe r => exact ⟨r, rfl⟩
  | top => simp at h

/-- "All entries of |x| are below plus infinity" (the and-reduction of the entrywise comparison over every axis,
    started from 1, comes out 1) gives: every entry of x is a real number. -/
theorem isReal_of_all_finite {S : Shape} {axes : List (Fin S.rank)} (x : S.Idx → EReal)
    (hb : (⟨0, ![]⟩ : Shape).BroadcastsInDim S (![] : Fin 0 → Fin S.rank))
    (hr : S.ReducesTo axes (⟨0, ![]⟩ : Shape)) (hu : 0 < (⟨0, ![]⟩ : Shape).numel)
    (e : Host.reduce IntOp.andi
          (cmpf .olt (Host.absf (F := Ideal) (φ := .f32) x)
            (broadcastInDim S ![] hb (constant (F := Ideal) (⟨0, ![]⟩ : Shape) .f32 0x7F800000#32)))
          (constantI (⟨0, ![]⟩ : Shape) 1 1#1) hr hu ValueIdx.ix0 = 1#1) : IsReal x := fun i =>
  real_of_abs_lt_inf (x i) (Host.reduce_andi_all _ _ hr hu ValueIdx.ix0 e i)

theorem real_of_pre [hPre : Cert.Pre_finite_inputs.Facts] (m : (ℓ : Loc nD τ sig) → Buf (Elt Ideal) ℓ)
    (hpre : Cert.Pre_KernelIdeal m) (c : Dev nD) : ArgsReal m c := by
  have h := congrFun (hpre c) ValueIdx.ix0
  dsimp only [Cert.Pre_finite_inputs.fn, Cert.Pre_finite_inputs.fn_part1, Cert.Pre_finite_inputs.fn_part2,
    Cert.Pre_finite_inputs.fn_part3, Cert.Pre_finite_inputs.fn_part4, Idealize.ShloMosaic.andi] at h
  simp only [IntOp.andi_eq_one] at h
  obtain ⟨⟨⟨⟨⟨⟨⟨⟨⟨⟨⟨⟨⟨e0, e3⟩, e4⟩, e5⟩, e6⟩, e7⟩, e8⟩, e9⟩, e10⟩, e11⟩, e12⟩, e13⟩, e14⟩, e15⟩ := h
  exact ⟨isReal_of_all_finite _ _ _ _ e0, isReal_of_all_finite _ _ _ _ e3, isReal_of_all_finite _ _ _ _ e4,
    isReal_of_all_finite _ _ _ _ e5, isReal_of_all_finite _ _ _ _ e6, isReal_of_all_finite _ _ _ _ e7,
    isReal_of_all_finite _ _ _ _ e8, isReal_of_all_finite _ _ _ _ e9, isReal_of_all_finite _ _ _ _ e10,
    isReal_of_all_finite _ _ _ _ e11, isReal_of_all_finite _ _ _ _ e12, isReal_of_all_finite _ _ _ _ e13,
    isReal_of_all_finite _ _ _ _ e14, isReal_of_all_finite _ _ _ _ e15⟩

end Cert.GNN

end
-- ==== Proof.Tables.lean ====
/- The two constant group matrices: P[c, g] = 1 when channel c lies in group g = c / 2 and 0 otherwise, Pt its transpose; summing against them picks out a group's pair of channels. -/
import proofs.«400152_j40956808135039_1_alg».proof.KernelIdeal
import proofs.«400152_j40956808135039_1_alg».proof.Proof.Basic
import Idealize.ShloMosaic.PureOps.Ideal.Laws
import Idealize.ShloMosaic.Lib.IdealHost

set_option maxRecDepth 16384

noncomputable section

namespace Cert.GNN

open Cert.KernelIdeal
open Idealize.ShloMosaic Idealize.ShloMosaic.TcCoe Idealize.SL.Sem Idealize.ShloMosaic.ValueIdx

/-- The channel-to-group matrix as the program's first host operation writes it. -/
def Ptab : A 64 32 := fun i => FloatOps.ofBits (F := Ideal) .f32 (lit0 (S64x32.rowMajor i))
/-- The group-to-channel matrix as the program's second host operation writes it. -/
def Pttab : A 32 64 := fun i => FloatOps.ofBits (F := Ideal) .f32 (lit1 (S32x64.rowMajor i))

/-- The first table word by word: position `i = 32·c + g` of the row-major [64, 32] array holds the pattern of 1.0
    exactly when `g = c / 2`, and the zero word otherwise. All 2048 positions are evaluated. -/
theorem lit0_word : ∀ i : Fin 2048,
    lit0 i = if (i.val / 32) / 2 = i.val % 32 then 0x3F800000#32 else 0#32 := by
  decide +kernel

/-- The second table word by word: position `i = 64·g + c` of the row-major [32, 64] array holds the pattern of 1.0
    exactly when `g = c / 2`, and the zero word otherwise. All 2048 positions are evaluated. -/
theorem lit1_word : ∀ i : Fin 2048,
    lit1 i = if (i.val % 64) / 2 = i.val / 64 then 0x3F800000#32 else 0#32 := by
  decide +kernel

theorem Ptab_apply (c : Fin 64) (g : Fin 32) : Ptab (ix2 c g) = if c.val / 2 = g.val then 1 else 0 := by
  have hv : (S64x32.rowMajor (ix2 c g)).val = c.val * 32 + g.val := by
    rw [Shape.rowMajor_val_two]; rfl
  have hw : lit0 (S64x32.rowMajor (ix2 c g)) = if c.val / 2 = g.val then 0x3F800000#32 else 0#32 := by
    have h := lit0_word (S64x32.rowMajor (ix2 c g))
    have hv' : @Fin.val 2048 (S64x32.rowMajor (ix2 c g)) = c.val * 32 + g.val := hv
    rw [hv', show (c.val * 32 + g.val) / 32 = c.val by omega,
      show (c.val * 32 + g.val) % 32 = g.val by omega] at h
    exact h
  show Ideal.ofBits .f32 (lit0 (S64x32.rowMajor (ix2 c g))) = _
  rw [hw]
  by_cases h : c.val / 2 = g.val
  · rw [if_pos h, if_pos h]; exact Ideal.ofBits_one_f32
  · rw [if_neg h, if_neg h]; exact Ideal.ofBits_zero_f32

theorem Pttab_apply (g : Fin 32) (c : Fin 64) : Pttab (ix2 g c) = if c.val / 2 = g.val then 1 else 0 := by
  have hv : (S32x64.rowMajor (ix2 g c)).val = g.val * 64 + c.val := by
    rw [Shape.rowMajor_val_two]; rfl
  have hw : lit1 (S32x64.rowMajor (ix2 g c)) = if c.val / 2 = g.val then 0x3F800000#32 else 0#32 := by
    have h := lit1_word (S32x64.rowMajor (ix2 g c))
    have hv' : @Fin.val 2048 (S32x64.rowMajor (ix2 g c)) = g.val * 64 + c.val := hv
    rw [hv', show (g.val * 64 + c.val) % 64 = c.val by omega,
      show (g.val * 64 + c.val) / 64 = g.val by omega] at h
    exact h
  show Ideal.ofBits .f32 (lit1 (S32x64.rowMajor (ix2 g c))) = _
  rw [hw]
  by_cases h : c.val / 2 = g.val
  · rw [if_pos h, if_pos h]; exact Ideal.ofBits_one_f32
  · rw [if_neg h, if_neg h]; exact Ideal.ofBits_zero_f32

/-- Summing a family over the 64 channels against column `g` of the first matrix leaves the two channels of group `g`:
    every other term is a product with zero, and a product with one is the factor itself (also at ±∞). -/
theorem sum_mul_Ptab (f : Fin 64 → EReal) (g : Fin 32) :
    ∑ c : Fin 64, f c * Ptab (ix2 c g)
      = f ⟨2 * g.val, by omega⟩ + f ⟨2 * g.val + 1, by omega⟩ := by
  rw [Finset.sum_eq_add_of_mem (⟨2 * g.val, by omega⟩ : Fin 64) (⟨2 * g.val + 1, by omega⟩ : Fin 64)
      (Finset.mem_univ _) (Finset.mem_univ _)]
  · rw [Ptab_apply, Ptab_apply, if_pos (by show 2 * g.val / 2 = g.val; omega),
      if_pos (by show (2 * g.val + 1) / 2 = g.val; omega), mul_one, mul_one]
  · intro h
    have := congrArg Fin.val h
    simp only at this
    omega
  · intro c _ hc
    rw [Ptab_apply, if_neg, mul_zero]
    intro h
    have h0 : c.val ≠ 2 * g.val := fun e => hc.1 (Fin.ext e)
    have h1 : c.val ≠ 2 * g.val + 1 := fun e => hc.2 (Fin.ext e)
    omega

/-- Summing a family over the 32 groups against column `q` of the second matrix leaves the term of the group of
    channel `q`. -/
theorem sum_mul_Pttab (a : Fin 32 → EReal) (q : Fin 64) :
    ∑ g : Fin 32, a g * Pttab (ix2 g q) = a ⟨q.val / 2, by omega⟩ := by
  rw [Finset.sum_eq_single_of_mem (⟨q.val / 2, by omega⟩ : Fin 32) (Finset.mem_univ _)]
  · rw [Pttab_apply, if_pos rfl, mul_one]
  · intro g _ hg
    rw [Pttab_apply, if_neg, mul_zero]
    intro h
    exact hg (Fin.ext h.symm)

theorem gnK_tab (raw r : A 50000 64) (γ β : A 1 64) : gnK raw r γ β Ptab Pttab = gnPair raw r γ β := by
  funext i
  obtain ⟨p, q, rfl⟩ : ∃ (p : Fin 50000) (q : Fin 64), i = ix2 p q := ⟨i 0, i 1, eq_ix2 i⟩
  simp only [gnK, gnPair, sum_mul_Pttab, sum_mul_Ptab, lo, hi]

end Cert.GNN

end
-- ==== Proof.Hops.lean ====
/- What the segment boundaries hold in the buffers no segment in between writes: an argument array is as launched at
   every boundary (no host operation and no region writes one), the two constant group matrices are as the first host
   stretch wrote them, and a region's output array stays as that region left it until the later region that reads it. -/
import proofs.«400152_j40956808135039_1_alg».proof.Proof.Gen.KernelIdeal.Frame
import proofs.«400152_j40956808135039_1_alg».proof.Proof.Tables
import Idealize.ShloMosaic.Lib.StableHlo.Run

set_option maxRecDepth 16384

noncomputable section

namespace Cert.GNN

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

namespace Hops

/-! ## The two kinds of hop

A host stretch rewrites only the result references of its own operations, so a reference outside that list reads
after the stretch what it read before. A region rewrites only its windows' arrays (the generated `W(2j+2)_of_ne`),
and of those an input window's array is handed back as it was found. -/

/-- The result references of each host stretch, in program order. -/
abbrev wr0 : List (Ref sig .tc) := [main_cst, main_cst_0, main_v0]
abbrev wr1 : List (Ref sig .tc) :=
  [main_c, main_v2, main_v3, main_c_1, main_v4, main_v5, main_v6, main_v7, main_v8, main_v9, main_v10, main_v11,
   main_cst_2, main_v12, main_v13, main_v14]
abbrev wr2 : List (Ref sig .tc) := [main_v16]
abbrev wr3 : List (Ref sig .tc) :=
  [main_c_3, main_v18, main_v19, main_c_4, main_v20, main_v21, main_v22, main_v23, main_v24, main_v25, main_v26,
   main_v27, main_cst_5, main_v28, main_v29, main_v30, main_v31, main_v32]
abbrev wr4 : List (Ref sig .tc) := [main_v34]
abbrev wr5 : List (Ref sig .tc) :=
  [main_c_6, main_v36, main_v37, main_c_7, main_v38, main_v39, main_v40, main_v41, main_v42, main_v43, main_v44,
   main_v45, main_cst_8, main_v46, main_v47, main_v48, main_v49, main_v50]
abbrev wr6 : List (Ref sig .tc) := [main_v52]

/-- Every operation of a literal stretch writes exactly one reference, and that reference is in the given list. -/
local macro "writes_in " ops:ident : tactic => `(tactic|
  (simp only [$ops:ident, List.Forall, StableHlo.nullary_writes, StableHlo.unary_writes, StableHlo.binary_writes,
     StableHlo.ternary_writes, StableHlo.reshape_writes, Finset.singleton_subset_iff]
   repeat' apply And.intro
   all_goals exact List.mem_toFinset.mpr (List.mem_map_of_mem (by decide))))

theorem writes0 : (hostOps0 (F := Ideal)).Forall fun op => op.writes ⊆ (wr0.map (Proc.devRef (τ := τ) .tc)).toFinset := by
  writes_in hostOps0
theorem writes1 : (hostOps1 (F := Ideal)).Forall fun op => op.writes ⊆ (wr1.map (Proc.devRef (τ := τ) .tc)).toFinset := by
  writes_in hostOps1
theorem writes2 : (hostOps2 (F := Ideal)).Forall fun op => op.writes ⊆ (wr2.map (Proc.devRef (τ := τ) .tc)).toFinset := by
  writes_in hostOps2
theorem writes3 : (hostOps3 (F := Ideal)).Forall fun op => op.writes ⊆ (wr3.map (Proc.devRef (τ := τ) .tc)).toFinset := by
  writes_in hostOps3
theorem writes4 : (hostOps4 (F := Ideal)).Forall fun op => op.writes ⊆ (wr4.map (Proc.devRef (τ := τ) .tc)).toFinset := by
  writes_in hostOps4
theorem writes5 : (hostOps5 (F := Ideal)).Forall fun op => op.writes ⊆ (wr5.map (Proc.devRef (τ := τ) .tc)).toFinset := by
  writes_in hostOps5
theorem writes6 : (hostOps6 (F := Ideal)).Forall fun op => op.writes ⊆ (wr6.map (Proc.devRef (τ := τ) .tc)).toFinset := by
  writes_in hostOps6

section Hop
variable (c : Dev nD) (r : Ref sig .tc)

/-- A host stretch leaves a reference that is none of its results. -/
theorem W1_of_host (h : r ∉ wr0) : W1 (F := Ideal) m ρ c (Proc.devRef .tc r) = W0 (F := Ideal) m ρ c (Proc.devRef .tc r) :=
  StableHlo.after_of_writes_sub hostOps0 (W0 m ρ c) writes0 h
theorem W3_of_host (h : r ∉ wr1) : W3 (F := Ideal) m ρ c (Proc.devRef .tc r) = W2 (F := Ideal) m ρ c (Proc.devRef .tc r) :=
  StableHlo.after_of_writes_sub hostOps1 (W2 m ρ c) writes1 h
theorem W5_of_host (h : r ∉ wr2) : W5 (F := Ideal) m ρ c (Proc.devRef .tc r) = W4 (F := Ideal) m ρ c (Proc.devRef .tc r) :=
  StableHlo.after_of_writes_sub hostOps2 (W4 m ρ c) writes2 h
theorem W7_of_host (h : r ∉ wr3) : W7 (F := Ideal) m ρ c (Proc.devRef .tc r) = W6 (F := Ideal) m ρ c (Proc.devRef .tc r) :=
  StableHlo.after_of_writes_sub hostOps3 (W6 m ρ c) writes3 h
theorem W9_of_host (h : r ∉ wr4) : W9 (F := Ideal) m ρ c (Proc.devRef .tc r) = W8 (F := Ideal) m ρ c (Proc.devRef .tc r) :=
  StableHlo.after_of_writes_sub hostOps4 (W8 m ρ c) writes4 h
theorem W11_of_host (h : r ∉ wr5) : W11 (F := Ideal) m ρ c (Proc.devRef .tc r) = W10 (F := Ideal) m ρ c (Proc.devRef .tc r) :=
  StableHlo.after_of_writes_sub hostOps5 (W10 m ρ c) writes5 h
theorem W13_of_host (h : r ∉ wr6) : W13 (F := Ideal) m ρ c (Proc.devRef .tc r) = W12 (F := Ideal) m ρ c (Proc.devRef .tc r) :=
  StableHlo.after_of_writes_sub hostOps6 (W12 m ρ c) writes6 h

/-- `r` is no result of the first `j` host stretches and no window array of the first `j` regions. -/
abbrev Kept1 : Prop := r ∉ wr0
abbrev Kept2 : Prop := Kept1 r ∧ ∀ w : Fin cfg0.W, Pipeline.arrRef spec0 w ≠ r
abbrev Kept3 : Prop := Kept2 r ∧ r ∉ wr1
abbrev Kept4 : Prop := Kept3 r ∧ ∀ w : Fin cfg1.W, Pipeline.arrRef spec1 w ≠ r
abbrev Kept5 : Prop := Kept4 r ∧ r ∉ wr2
abbrev Kept6 : Prop := Kept5 r ∧ ∀ w : Fin cfg2.W, Pipeline.arrRef spec2 w ≠ r
abbrev Kept7 : Prop := Kept6 r ∧ r ∉ wr3
abbrev Kept8 : Prop := Kept7 r ∧ ∀ w : Fin cfg3.W, Pipeline.arrRef spec3 w ≠ r
abbrev Kept9 : Prop := Kept8 r ∧ r ∉ wr4
abbrev Kept10 : Prop := Kept9 r ∧ ∀ w : Fin cfg4.W, Pipeline.arrRef spec4 w ≠ r
abbrev Kept11 : Prop := Kept10 r ∧ r ∉ wr5
abbrev Kept12 : Prop := Kept11 r ∧ ∀ w : Fin cfg5.W, Pipeline.arrRef spec5 w ≠ r
abbrev Kept13 : Prop := Kept12 r ∧ r ∉ wr6
abbrev Kept14 : Prop := Kept13 r ∧ ∀ w : Fin cfg6.W, Pipeline.arrRef spec6 w ≠ r

/-- Such a reference reads at the boundary what the launch memory holds: one hop back per segment. -/
theorem W1_kept (h : Kept1 r) : W1 (F := Ideal) m ρ c (Proc.devRef .tc r) = m ((c : Thread nD τ).loc r) :=
  (W1_of_host m ρ c r h).trans rfl
theorem W2_kept (h : Kept2 r) : W2 (F := Ideal) m ρ c (Proc.devRef .tc r) = m ((c : Thread nD τ).loc r) :=
  (W2_of_ne m ρ c r h.2).trans (W1_kept m ρ c r h.1)
theorem W3_kept (h : Kept3 r) : W3 (F := Ideal) m ρ c (Proc.devRef .tc r) = m ((c : Thread nD τ).loc r) :=
  (W3_of_host m ρ c r h.2).trans (W2_kept m ρ c r h.1)
theorem W4_kept (h : Kept4 r) : W4 (F := Ideal) m ρ c (Proc.devRef .tc r) = m ((c : Thread nD τ).loc r) :=
  (W4_of_ne m ρ c r h.2).trans (W3_kept m ρ c r h.1)
theorem W5_kept (h : Kept5 r) : W5 (F := Ideal) m ρ c (Proc.devRef .tc r) = m ((c : Thread nD τ).loc r) :=
  (W5_of_host m ρ c r h.2).trans (W4_kept m ρ c r h.1)
theorem W6_kept (h : Kept6 r) : W6 (F := Ideal) m ρ c (Proc.devRef .tc r) = m ((c : Thread nD τ).loc r) :=
  (W6_of_ne m ρ c r h.2).trans (W5_kept m ρ c r h.1)
theorem W7_kept (h : Kept7 r) : W7 (F := Ideal) m ρ c (Proc.devRef .tc r) = m ((c : Thread nD τ).loc r) :=
  (W7_of_host m ρ c r h.2).trans (W6_kept m ρ c r h.1)
theorem W8_kept (h : Kept8 r) : W8 (F := Ideal) m ρ c (Proc.devRef .tc r) = m ((c : Thread nD τ).loc r) :=
  (W8_of_ne m ρ c r h.2).trans (W7_kept m ρ c r h.1)
theorem W9_kept (h : Kept9 r) : W9 (F := Ideal) m ρ c (Proc.devRef .tc r) = m ((c : Thread nD τ).loc r) :=
  (W9_of_host m ρ c r h.2).trans (W8_kept m ρ c r h.1)
theorem W10_kept (h : Kept10 r) : W10 (F := Ideal) m ρ c (Proc.devRef .tc r) = m ((c : Thread nD τ).loc r) :=
  (W10_of_ne m ρ c r h.2).trans (W9_kept m ρ c r h.1)
theorem W11_kept (h : Kept11 r) : W11 (F := Ideal) m ρ c (Proc.devRef .tc r) = m ((c : Thread nD τ).loc r) :=
  (W11_of_host m ρ c r h.2).trans (W10_kept m ρ c r h.1)
theorem W12_kept (h : Kept12 r) : W12 (F := Ideal) m ρ c (Proc.devRef .tc r) = m ((c : Thread nD τ).loc r) :=
  (W12_of_ne m ρ c r h.2).trans (W11_kept m ρ c r h.1)
theorem W13_kept (h : Kept13 r) : W13 (F := Ideal) m ρ c (Proc.devRef .tc r) = m ((c : Thread nD τ).loc r) :=
  (W13_of_host m ρ c r h.2).trans (W12_kept m ρ c r h.1)
theorem W14_kept (h : Kept14 r) : W14 (F := Ideal) m ρ c (Proc.devRef .tc r) = m ((c : Thread nD τ).loc r) :=
  (W14_of_ne m ρ c r h.2).trans (W13_kept m ρ c r h.1)

end Hop

end Hops

open Hops

/-! ## The arguments, at the boundaries where a later segment reads them -/

theorem W0_arg5 (c : Dev nD) : W0 (F := Ideal) m ρ c (Proc.devRef .tc main_arg5) = m ((c : Thread nD τ).loc main_arg5) := rfl

theorem W1_arg0 (c : Dev nD) : W1 (F := Ideal) m ρ c (Proc.devRef .tc main_arg0) = m ((c : Thread nD τ).loc main_arg0) :=
  W1_kept m ρ c main_arg0 (by decide)

theorem W1_arg4 (c : Dev nD) : W1 (F := Ideal) m ρ c (Proc.devRef .tc main_arg4) = m ((c : Thread nD τ).loc main_arg4) :=
  W1_kept m ρ c main_arg4 (by decide)

theorem W2_arg1 (c : Dev nD) : W2 (F := Ideal) m ρ c (Proc.devRef .tc main_arg1) = m ((c : Thread nD τ).loc main_arg1) :=
  W2_kept m ρ c main_arg1 (by decide)

theorem W2_arg2 (c : Dev nD) : W2 (F := Ideal) m ρ c (Proc.devRef .tc main_arg2) = m ((c : Thread nD τ).loc main_arg2) :=
  W2_kept m ρ c main_arg2 (by decide)

theorem W2_arg3 (c : Dev nD) : W2 (F := Ideal) m ρ c (Proc.devRef .tc main_arg3) = m ((c : Thread nD τ).loc main_arg3) :=
  W2_kept m ρ c main_arg3 (by decide)

theorem W4_arg7 (c : Dev nD) : W4 (F := Ideal) m ρ c (Proc.devRef .tc main_arg7) = m ((c : Thread nD τ).loc main_arg7) :=
  W4_kept m ρ c main_arg7 (by decide)

theorem W5_arg6 (c : Dev nD) : W5 (F := Ideal) m ρ c (Proc.devRef .tc main_arg6) = m ((c : Thread nD τ).loc main_arg6) :=
  W5_kept m ρ c main_arg6 (by decide)

theorem W6_arg1 (c : Dev nD) : W6 (F := Ideal) m ρ c (Proc.devRef .tc main_arg1) = m ((c : Thread nD τ).loc main_arg1) :=
  W6_kept m ρ c main_arg1 (by decide)

theorem W6_arg2 (c : Dev nD) : W6 (F := Ideal) m ρ c (Proc.devRef .tc main_arg2) = m ((c : Thread nD τ).loc main_arg2) :=
  W6_kept m ρ c main_arg2 (by decide)

theorem W6_arg3 (c : Dev nD) : W6 (F := Ideal) m ρ c (Proc.devRef .tc main_arg3) = m ((c : Thread nD τ).loc main_arg3) :=
  W6_kept m ρ c main_arg3 (by decide)

theorem W6_arg12 (c : Dev nD) : W6 (F := Ideal) m ρ c (Proc.devRef .tc main_arg12) = m ((c : Thread nD τ).loc main_arg12) :=
  W6_kept m ρ c main_arg12 (by decide)

theorem W6_arg13 (c : Dev nD) : W6 (F := Ideal) m ρ c (Proc.devRef .tc main_arg13) = m ((c : Thread nD τ).loc main_arg13) :=
  W6_kept m ρ c main_arg13 (by decide)

theorem W8_arg9 (c : Dev nD) : W8 (F := Ideal) m ρ c (Proc.devRef .tc main_arg9) = m ((c : Thread nD τ).loc main_arg9) :=
  W8_kept m ρ c main_arg9 (by decide)

theorem W9_arg8 (c : Dev nD) : W9 (F := Ideal) m ρ c (Proc.devRef .tc main_arg8) = m ((c : Thread nD τ).loc main_arg8) :=
  W9_kept m ρ c main_arg8 (by decide)

theorem W10_arg1 (c : Dev nD) : W10 (F := Ideal) m ρ c (Proc.devRef .tc main_arg1) = m ((c : Thread nD τ).loc main_arg1) :=
  W10_kept m ρ c main_arg1 (by decide)

theorem W10_arg2 (c : Dev nD) : W10 (F := Ideal) m ρ c (Proc.devRef .tc main_arg2) = m ((c : Thread nD τ).loc main_arg2) :=
  W10_kept m ρ c main_arg2 (by decide)

theorem W10_arg3 (c : Dev nD) : W10 (F := Ideal) m ρ c (Proc.devRef .tc main_arg3) = m ((c : Thread nD τ).loc main_arg3) :=
  W10_kept m ρ c main_arg3 (by decide)

theorem W10_arg14 (c : Dev nD) : W10 (F := Ideal) m ρ c (Proc.devRef .tc main_arg14) = m ((c : Thread nD τ).loc main_arg14) :=
  W10_kept m ρ c main_arg14 (by decide)

theorem W10_arg15 (c : Dev nD) : W10 (F := Ideal) m ρ c (Proc.devRef .tc main_arg15) = m ((c : Thread nD τ).loc main_arg15) :=
  W10_kept m ρ c main_arg15 (by decide)

theorem W12_arg11 (c : Dev nD) : W12 (F := Ideal) m ρ c (Proc.devRef .tc main_arg11) = m ((c : Thread nD τ).loc main_arg11) :=
  W12_kept m ρ c main_arg11 (by decide)

theorem W13_arg10 (c : Dev nD) : W13 (F := Ideal) m ρ c (Proc.devRef .tc main_arg10) = m ((c : Thread nD τ).loc main_arg10) :=
  W13_kept m ρ c main_arg10 (by decide)

theorem W14_arg1 (c : Dev nD) : W14 (F := Ideal) m ρ c (Proc.devRef .tc main_arg1) = m ((c : Thread nD τ).loc main_arg1) :=
  W14_kept m ρ c main_arg1 (by decide)

theorem W14_arg2 (c : Dev nD) : W14 (F := Ideal) m ρ c (Proc.devRef .tc main_arg2) = m ((c : Thread nD τ).loc main_arg2) :=
  W14_kept m ρ c main_arg2 (by decide)

theorem W14_arg3 (c : Dev nD) : W14 (F := Ideal) m ρ c (Proc.devRef .tc main_arg3) = m ((c : Thread nD τ).loc main_arg3) :=
  W14_kept m ρ c main_arg3 (by decide)

/-! ## The constant group matrices at the entries of the two normalisation regions -/

/-- The first host stretch writes the two matrices; reading its fold at their references gives the tables. -/
theorem Hops.W1_cst (c : Dev nD) : W1 (F := Ideal) m ρ c (Proc.devRef .tc main_cst) = Ptab := by
  show StableHlo.after hostOps0 (W0 m ρ c) (Proc.devRef .tc main_cst) = _
  after_results
  rfl

theorem Hops.W1_cst_0 (c : Dev nD) : W1 (F := Ideal) m ρ c (Proc.devRef .tc main_cst_0) = Pttab := by
  show StableHlo.after hostOps0 (W0 m ρ c) (Proc.devRef .tc main_cst_0) = _
  after_results
  rfl

/-- The first normalisation region reads the two matrices through input windows 4 and 5 and hands them back as found. -/
theorem Hops.W8_cst (c : Dev nD) : W8 (F := Ideal) m ρ c (Proc.devRef .tc main_cst) = W7 (F := Ideal) m ρ c (Proc.devRef .tc main_cst) :=
  (W8_arr m ρ c 4).trans (((dat3 (V7 m ρ) c).arrAt_in 4 rfl _).trans (A_eq3 (V7 m ρ) c 4))

theorem Hops.W8_cst_0 (c : Dev nD) : W8 (F := Ideal) m ρ c (Proc.devRef .tc main_cst_0) = W7 (F := Ideal) m ρ c (Proc.devRef .tc main_cst_0) :=
  (W8_arr m ρ c 5).trans (((dat3 (V7 m ρ) c).arrAt_in 5 rfl _).trans (A_eq3 (V7 m ρ) c 5))

theorem W7_cst (c : Dev nD) : W7 (F := Ideal) m ρ c (Proc.devRef .tc main_cst) = Ptab :=
  (W7_of_host m ρ c main_cst (by decide)).trans <| (W6_of_ne m ρ c main_cst (by decide)).trans <|
  (W5_of_host m ρ c main_cst (by decide)).trans <| (W4_of_ne m ρ c main_cst (by decide)).trans <|
  (W3_of_host m ρ c main_cst (by decide)).trans <| (W2_of_ne m ρ c main_cst (by decide)).trans (W1_cst m ρ c)

theorem W7_cst_0 (c : Dev nD) : W7 (F := Ideal) m ρ c (Proc.devRef .tc main_cst_0) = Pttab :=
  (W7_of_host m ρ c main_cst_0 (by decide)).trans <| (W6_of_ne m ρ c main_cst_0 (by decide)).trans <|
  (W5_of_host m ρ c main_cst_0 (by decide)).trans <| (W4_of_ne m ρ c main_cst_0 (by decide)).trans <|
  (W3_of_host m ρ c main_cst_0 (by decide)).trans <| (W2_of_ne m ρ c main_cst_0 (by decide)).trans (W1_cst_0 m ρ c)

theorem W11_cst (c : Dev nD) : W11 (F := Ideal) m ρ c (Proc.devRef .tc main_cst) = Ptab :=
  (W11_of_host m ρ c main_cst (by decide)).trans <| (W10_of_ne m ρ c main_cst (by decide)).trans <|
  (W9_of_host m ρ c main_cst (by decide)).trans <| (W8_cst m ρ c).trans (W7_cst m ρ c)

theorem W11_cst_0 (c : Dev nD) : W11 (F := Ideal) m ρ c (Proc.devRef .tc main_cst_0) = Pttab :=
  (W11_of_host m ρ c main_cst_0 (by decide)).trans <| (W10_of_ne m ρ c main_cst_0 (by decide)).trans <|
  (W9_of_host m ρ c main_cst_0 (by decide)).trans <| (W8_cst_0 m ρ c).trans (W7_cst_0 m ρ c)

/-! ## Region outputs carried to a later region -/

/-- A region that reads an earlier region's output through its input window 0 hands it back as found. -/
theorem Hops.W6_v15 (c : Dev nD) : W6 (F := Ideal) m ρ c (Proc.devRef .tc main_v15) = W5 (F := Ideal) m ρ c (Proc.devRef .tc main_v15) :=
  (W6_arr m ρ c 0).trans (((dat2 (V5 m ρ) c).arrAt_in 0 rfl _).trans (A_eq2 (V5 m ρ) c 0))

theorem Hops.W10_v33 (c : Dev nD) : W10 (F := Ideal) m ρ c (Proc.devRef .tc main_v33) = W9 (F := Ideal) m ρ c (Proc.devRef .tc main_v33) :=
  (W10_arr m ρ c 0).trans (((dat4 (V9 m ρ) c).arrAt_in 0 rfl _).trans (A_eq4 (V9 m ρ) c 0))

theorem W5_v15 (c : Dev nD) : W5 (F := Ideal) m ρ c (Proc.devRef .tc main_v15) = W4 (F := Ideal) m ρ c (Proc.devRef .tc main_v15) :=
  W5_of_host m ρ c main_v15 (by decide)

theorem W7_v15 (c : Dev nD) : W7 (F := Ideal) m ρ c (Proc.devRef .tc main_v15) = W4 (F := Ideal) m ρ c (Proc.devRef .tc main_v15) :=
  (W7_of_host m ρ c main_v15 (by decide)).trans <| (W6_v15 m ρ c).trans (W5_v15 m ρ c)

theorem W9_v33 (c : Dev nD) : W9 (F := Ideal) m ρ c (Proc.devRef .tc main_v33) = W8 (F := Ideal) m ρ c (Proc.devRef .tc main_v33) :=
  W9_of_host m ρ c main_v33 (by decide)

theorem W11_v33 (c : Dev nD) : W11 (F := Ideal) m ρ c (Proc.devRef .tc main_v33) = W8 (F := Ideal) m ρ c (Proc.devRef .tc main_v33) :=
  (W11_of_host m ρ c main_v33 (by decide)).trans <| (W10_v33 m ρ c).trans (W9_v33 m ρ c)

theorem W13_v51 (c : Dev nD) : W13 (F := Ideal) m ρ c (Proc.devRef .tc main_v51) = W12 (F := Ideal) m ρ c (Proc.devRef .tc main_v51) :=
  W13_of_host m ρ c main_v51 (by decide)

end Cert.GNN

end
-- ==== Proof.RegLin.lean ====
/- Three of the four linear regions (pipelines 0, 2 and 4): each leaves in its output array the row-times-matrix-plus-bias function of its three operand arrays as the region finds them (25 blocks of 2000 rows tile the 50000 rows; the matrix and the bias row are whole in every block). -/
import proofs.«400152_j40956808135039_1_alg».proof.Proof.Gen.KernelIdeal.Frame
import proofs.«400152_j40956808135039_1_alg».proof.Proof.Basic
import Idealize.ShloMosaic.Lib.Pipeline.Value
import Idealize.ShloMosaic.Lib.ValueIdx
import Idealize.ShloMosaic.PureOps.Ideal.Laws

set_option maxRecDepth 16384

noncomputable section

namespace Cert.GNN

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## Shared by the regions -/

/-- The zero offsets of a whole-block access, as a constant function. -/
theorem lin_hz2 : (![0, 0] : Fin 2 → Nat) = fun _ => 0 := funext fun a => by fin_cases a <;> rfl

/-- THE STEP AT ONE POINT, for any inner size K and width N. A block value `pay` that is, entry by entry, the block
    row of `x` times `W` plus the row `b`, where `x` holds rows n … n+1999 of the array `X` and `W`, `b` are the
    whole arrays `Wt`, `B`: then `pay` at (p, q) is the array-level linear map at row n + p, column q. -/
theorem point_lin {K N : Nat} (X : A 50000 K) (Wt : A K N) (B : A 1 N)
    (x : A 2000 K) (W : A K N) (b : A 1 N) (pay : A 2000 N) (n : Nat) (hn : n + 2000 ≤ 50000)
    (hpay : ∀ (p : Fin 2000) (q : Fin N), pay (ix2 p q) = (∑ k : Fin K, x (ix2 p k) * W (ix2 k q)) + b (ix2 0 q))
    (hx : ∀ (p : Fin 2000) (k : Fin K), x (ix2 p k) = X (ix2 ⟨n + p.val, by omega⟩ k))
    (hW : ∀ (k : Fin K) (q : Fin N), W (ix2 k q) = Wt (ix2 k q))
    (hb : ∀ q : Fin N, b (ix2 0 q) = B (ix2 0 q))
    (p : Fin 2000) (q : Fin N) :
    pay (ix2 p q) = linK X Wt B (ix2 ⟨n + p.val, by omega⟩ q) := by
  rw [hpay]
  unfold linK
  simp only [hx, hW, hb]
  rfl

/-! ## Region 0: 128 input channels, 64 output channels -/

/-! The product's operand indices, axis by axis: the left operand is read at (row of the output, contraction index),
    the right operand at (contraction index, column of the output). -/
theorem lin_lhs0_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl
theorem lin_lhs0_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem lin_rhs0_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem lin_rhs0_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- Region 0's stored value at row p, column q of the block: the narrowing of the operands is the identity on exact
    values, the product into the zero accumulator is the plain sum over the 128 inner indices, and the bias row is
    repeated down the rows. -/
theorem lin_pay0_apply (x : Vec Ideal S2000x128 .f32) (W : Vec Ideal S128x64 .f32) (b : Vec Ideal S1x64 .f32)
    (p : Fin 2000) (q : Fin 64) :
    k0_pay1 (F := Ideal) x W b (ix2 p q) = (∑ k : Fin 128, x (ix2 p k) * W (ix2 k q)) + b (ix2 0 q) := by
  unfold k0_pay1
  rw [addf_apply, shapeCast_self]
  rw [broadcastTo_apply b broadcasts_S1x64_S2000x64 (ix2 p q) (ix2 0 q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])]
  simp only [matmul]
  rw [Ideal.matmul_constant_zero_apply,
    ← Equiv.sum_comp (contrEquiv1 dot_S2000x128_S128x64_S2000x64_1_0_0_1_n_n 128 rfl rfl).symm]
  refine congrArg (· + b (ix2 0 q)) (Finset.sum_congr rfl fun k _ => ?_)
  have hk := contrEquiv1_symm_val dot_S2000x128_S128x64_S2000x64_1_0_0_1_n_n 128 rfl rfl k
  have el : dot_S2000x128_S128x64_S2000x64_1_0_0_1_n_n.lhsIdx (ix2 p q)
      ((contrEquiv1 dot_S2000x128_S128x64_S2000x64_1_0_0_1_n_n 128 rfl rfl).symm k) = ix2 p k :=
    funext fun a => Fin.ext (by
      match a with
      | ⟨0, _⟩ => exact lin_lhs0_0 _ _
      | ⟨1, _⟩ => exact (lin_lhs0_1 _ _).trans hk)
  have er : dot_S2000x128_S128x64_S2000x64_1_0_0_1_n_n.rhsIdx (ix2 p q)
      ((contrEquiv1 dot_S2000x128_S128x64_S2000x64_1_0_0_1_n_n 128 rfl rfl).symm k) = ix2 k q :=
    funext fun a => Fin.ext (by
      match a with
      | ⟨0, _⟩ => exact (lin_rhs0_0 _ _).trans hk
      | ⟨1, _⟩ => exact lin_rhs0_1 _ _)
  rw [truncf_apply, truncf_apply, el, er]

/-- The index maps over the 25 grid points: the row-blocked windows sit at block t, the whole operands at block 0. -/
theorem lin_idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lin_lt25_0 (t : Fin cfg0.N) : t.val < 25 := lt_of_lt_of_eq t.isLt N_0

section
-- the TensorCore's buffer contents when the region is entered
variable (V : (c : Dev nD) → (b : Ref sig .tc) → Buf (Elt Ideal) ((c : Thread nD τ).loc b))

/-- The input block at point t is rows 2000·t … 2000·t + 1999 of the input array. -/
theorem lin_iblk0_0_apply (c : Dev nD) (t : Fin cfg0.N) (p : Fin 2000) (k : Fin 128) :
    iblk0 V c 0 t (ix2 p k) = V c main_arg0 (ix2 ⟨t.val * 2000 + p.val, by have := lin_lt25_0 t; omega⟩ k) := by
  obtain ⟨e00, e01, -⟩ := lin_idx_facts0 t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; rw [e00]; omega
  | ⟨1, _⟩ => show win0_0.index t (1 : Fin 2) * 128 + 1 * k.val = k.val; rw [e01]; omega

/-- The weight block at every point is the whole matrix. -/
theorem lin_iblk0_1_apply (c : Dev nD) (t : Fin cfg0.N) (k : Fin 128) (q : Fin 64) :
    iblk0 V c 1 t (ix2 k q) = V c main_arg4 (ix2 k q) := by
  obtain ⟨-, -, e10, e11, -⟩ := lin_idx_facts0 t
  show V c main_arg4 (((cfg0.win 1).blk t).view.emb (ix2 k q)) = _
  refine congrArg (V c main_arg4) (funext fun a => Fin.ext ?_)
  match a with
  | ⟨0, _⟩ => show win0_1.index t (0 : Fin 2) * 128 + 1 * k.val = k.val; rw [e10]; omega
  | ⟨1, _⟩ => show win0_1.index t (1 : Fin 2) * 64 + 1 * q.val = q.val; rw [e11]; omega

/-- The bias block at every point is the whole row. -/
theorem lin_iblk0_2_apply (c : Dev nD) (t : Fin cfg0.N) (q : Fin 64) :
    iblk0 V c 2 t (ix2 0 q) = V c main_v0 (ix2 0 q) := by
  obtain ⟨-, -, -, -, e20, e21, -⟩ := lin_idx_facts0 t
  show V c main_v0 (((cfg0.win 2).blk t).view.emb (ix2 0 q)) = _
  refine congrArg (V c main_v0) (funext fun a => Fin.ext ?_)
  match a with
  | ⟨0, _⟩ => show win0_2.index t (0 : Fin 2) * 1 + 1 * 0 = 0; rw [e20]
  | ⟨1, _⟩ => show win0_2.index t (1 : Fin 2) * 64 + 1 * q.val = q.val; rw [e21]; omega

/-- What point t writes back is block t of the linear map of the three operand arrays. -/
theorem lin_flushed0_eq (c : Dev nD) (t : Fin cfg0.N) :
    (dat0 (F := Ideal) V c).flushed 3 t
      = ((cfg0.win 3).blk t).view.read (Elt Ideal) (linK (K := 128) (N := 64) (V c main_arg0) (V c main_arg4) (V c main_v0)) := by
  show (cfg0.win 3).cut (grid0.coords t) ((dat0 V c).after 3 t) = _
  rw [after0_3]
  unfold out0_3
  rw [View.canon_unit_zero lin_hz2]
  simp only [View.ld_unit_zero (S := S2000x128) lin_hz2, View.ld_unit_zero (S := S128x64) lin_hz2, View.ld_unit_zero (S := S1x64) lin_hz2]
  funext j
  obtain ⟨p, q, rfl⟩ : ∃ (p : Fin 2000) (q : Fin 64), j = ix2 p q := ⟨j 0, j 1, eq_ix2 j⟩
  obtain ⟨-, -, -, -, -, -, e30, e31⟩ := lin_idx_facts0 t
  have ht := lin_lt25_0 t
  show k0_pay1 (iblk0 V c 0 t) (iblk0 V c 1 t) (iblk0 V c 2 t) (ix2 p q)
    = linK (K := 128) (N := 64) (V c main_arg0) (V c main_arg4) (V c main_v0) (((cfg0.win 3).blk t).view.emb (ix2 p q))
  have h3 : ((cfg0.win 3).blk t).view.emb (ix2 p q) = (ix2 ⟨t.val * 2000 + p.val, by omega⟩ q : S50000x64.Idx) := by
    funext a; apply Fin.ext
    match a with
    | ⟨0, _⟩ => show win0_3.index t (0 : Fin 2) * 2000 + 1 * p.val = t.val * 2000 + p.val; rw [e30]; omega
    | ⟨1, _⟩ => show win0_3.index t (1 : Fin 2) * 64 + 1 * q.val = q.val; rw [e31]; omega
  rw [h3]
  exact point_lin (K := 128) (N := 64) (V c main_arg0) (V c main_arg4) (V c main_v0)
    (iblk0 V c 0 t) (iblk0 V c 1 t) (iblk0 V c 2 t)
    (k0_pay1 (F := Ideal) (iblk0 V c 0 t) (iblk0 V c 1 t) (iblk0 V c 2 t)) (t.val * 2000) (by omega)
    (lin_pay0_apply (iblk0 V c 0 t) (iblk0 V c 1 t) (iblk0 V c 2 t))
    (lin_iblk0_0_apply V c t) (lin_iblk0_1_apply V c t) (lin_iblk0_2_apply V c t) p q

/-- An index is in point t's output block iff each coordinate is in the block's range on its axis. -/
theorem lin_mem_blk0_3 (t : Fin cfg0.N) (i : S50000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v1).slice (win0_3.rect t)).set ↔ _
  rw [View.set_slice_whole, Rect.mem_set_unit]
  exact Iff.rfl

/-- Row n of the output lies in the block of point n / 2000. -/
theorem lin_cover0 (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 2000 :=
    ⟨⟨(i 0).val / 2000, lt_of_lt_of_eq (by omega : (i 0).val / 2000 < 25) N_0.symm⟩, rfl⟩
  obtain ⟨-, -, -, -, -, -, e30, e31⟩ := lin_idx_facts0 t
  refine ⟨t, flush0_3 t, ?_⟩
  rw [lin_mem_blk0_3]
  intro a
  match a with
  | ⟨0, _⟩ =>
    show win0_3.index t (0 : Fin 2) * 2000 ≤ (i 0).val ∧ (i 0).val < win0_3.index t (0 : Fin 2) * 2000 + 2000
    rw [e30]; omega
  | ⟨1, _⟩ =>
    show win0_3.index t (1 : Fin 2) * 64 ≤ (i 1).val ∧ (i 1).val < win0_3.index t (1 : Fin 2) * 64 + 64
    rw [e31]; omega

theorem arr0 (c : Dev nD) : (dat0 (F := Ideal) V c).arrAt 3 cfg0.N
    = linK (K := 128) (N := 64) (V c main_arg0) (V c main_arg4) (V c main_v0) :=
  (dat0 (F := Ideal) V c).arrAt_eq_of_cover 3 _ (fun t _ => lin_flushed0_eq V c t) lin_cover0

end

/-! ## Region 2: 64 input channels, 64 output channels -/

/-! The operand indices of the 64-by-64 product (regions 2 and 4 share it), axis by axis. -/
theorem lin_lhs2_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide),
    dif_pos (show (0 : Fin S2000x64.rank) ∈ dot_S2000x64_S64x64_S2000x64_1_0_0_1_n_n.lhsNonContracting by decide)]
  rfl
theorem lin_lhs2_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
theorem lin_rhs2_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
theorem lin_rhs2_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide),
    dif_pos (show (1 : Fin S64x64.rank) ∈ dot_S2000x64_S64x64_S2000x64_1_0_0_1_n_n.rhsNonContracting by decide)]
  rfl

/-- Region 2's stored value at row p, column q of the block: the same-shape casts and the narrowing change nothing,
    the product into the zero accumulator is the plain sum over the 64 inner indices, and the bias row is repeated
    down the rows. -/
theorem lin_pay2_apply (x : Vec Ideal S2000x64 .f32) (W : Vec Ideal S64x64 .f32) (b : Vec Ideal S1x64 .f32)
    (p : Fin 2000) (q : Fin 64) :
    k2_pay1 (F := Ideal) x W b (ix2 p q) = (∑ k : Fin 64, x (ix2 p k) * W (ix2 k q)) + b (ix2 0 q) := by
  unfold k2_pay1
  rw [addf_apply, shapeCast_self, shapeCast_self]
  rw [broadcastTo_apply b broadcasts_S1x64_S2000x64 (ix2 p q) (ix2 0 q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])]
  simp only [matmul]
  rw [Ideal.matmul_constant_zero_apply,
    ← Equiv.sum_comp (contrEquiv1 dot_S2000x64_S64x64_S2000x64_1_0_0_1_n_n 64 rfl rfl).symm]
  refine congrArg (· + b (ix2 0 q)) (Finset.sum_congr rfl fun k _ => ?_)
  have hk := contrEquiv1_symm_val dot_S2000x64_S64x64_S2000x64_1_0_0_1_n_n 64 rfl rfl k
  have el : dot_S2000x64_S64x64_S2000x64_1_0_0_1_n_n.lhsIdx (ix2 p q)
      ((contrEquiv1 dot_S2000x64_S64x64_S2000x64_1_0_0_1_n_n 64 rfl rfl).symm k) = ix2 p k :=
    funext fun a => Fin.ext (by
      match a with
      | ⟨0, _⟩ => exact lin_lhs2_0 _ _
      | ⟨1, _⟩ => exact (lin_lhs2_1 _ _).trans hk)
  have er : dot_S2000x64_S64x64_S2000x64_1_0_0_1_n_n.rhsIdx (ix2 p q)
      ((contrEquiv1 dot_S2000x64_S64x64_S2000x64_1_0_0_1_n_n 64 rfl rfl).symm k) = ix2 k q :=
    funext fun a => Fin.ext (by
      match a with
      | ⟨0, _⟩ => exact (lin_rhs2_0 _ _).trans hk
      | ⟨1, _⟩ => exact lin_rhs2_1 _ _)
  rw [truncf_apply, truncf_apply, el, er]

/-- The index maps over the 25 grid points: the row-blocked windows sit at block t, the whole operands at block 0. -/
theorem lin_idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lin_lt25_2 (t : Fin cfg2.N) : t.val < 25 := lt_of_lt_of_eq t.isLt N_2

section
-- the TensorCore's buffer contents when the region is entered
variable (V : (c : Dev nD) → (b : Ref sig .tc) → Buf (Elt Ideal) ((c : Thread nD τ).loc b))

/-- The input block at point t is rows 2000·t … 2000·t + 1999 of the input array. -/
theorem lin_iblk2_0_apply (c : Dev nD) (t : Fin cfg2.N) (p : Fin 2000) (k : Fin 64) :
    iblk2 V c 0 t (ix2 p k) = V c main_v15 (ix2 ⟨t.val * 2000 + p.val, by have := lin_lt25_2 t; omega⟩ k) := by
  obtain ⟨e00, e01, -⟩ := lin_idx_facts2 t
  show V c main_v15 (((cfg2.win 0).blk t).view.emb (ix2 p k)) = _
  refine congrArg (V c main_v15) (funext fun a => Fin.ext ?_)
  match a with
  | ⟨0, _⟩ => show win2_0.index t (0 : Fin 2) * 2000 + 1 * p.val = t.val * 2000 + p.val; rw [e00]; omega
  | ⟨1, _⟩ => show win2_0.index t (1 : Fin 2) * 64 + 1 * k.val = k.val; rw [e01]; omega

/-- The weight block at every point is the whole matrix. -/
theorem lin_iblk2_1_apply (c : Dev nD) (t : Fin cfg2.N) (k : Fin 64) (q : Fin 64) :
    iblk2 V c 1 t (ix2 k q) = V c main_arg6 (ix2 k q) := by
  obtain ⟨-, -, e10, e11, -⟩ := lin_idx_facts2 t
  show V c main_arg6 (((cfg2.win 1).blk t).view.emb (ix2 k q)) = _
  refine congrArg (V c main_arg6) (funext fun a => Fin.ext ?_)
  match a with
  | ⟨0, _⟩ => show win2_1.index t (0 : Fin 2) * 64 + 1 * k.val = k.val; rw [e10]; omega
  | ⟨1, _⟩ => show win2_1.index t (1 : Fin 2) * 64 + 1 * q.val = q.val; rw [e11]; omega

/-- The bias block at every point is the whole row. -/
theorem lin_iblk2_2_apply (c : Dev nD) (t : Fin cfg2.N) (q : Fin 64) :
    iblk2 V c 2 t (ix2 0 q) = V c main_v16 (ix2 0 q) := by
  obtain ⟨-, -, -, -, e20, e21, -⟩ := lin_idx_facts2 t
  show V c main_v16 (((cfg2.win 2).blk t).view.emb (ix2 0 q)) = _
  refine congrArg (V c main_v16) (funext fun a => Fin.ext ?_)
  match a with
  | ⟨0, _⟩ => show win2_2.index t (0 : Fin 2) * 1 + 1 * 0 = 0; rw [e20]
  | ⟨1, _⟩ => show win2_2.index t (1 : Fin 2) * 64 + 1 * q.val = q.val; rw [e21]; omega

/-- What point t writes back is block t of the linear map of the three operand arrays. -/
theorem lin_flushed2_eq (c : Dev nD) (t : Fin cfg2.N) :
    (dat2 (F := Ideal) V c).flushed 3 t
      = ((cfg2.win 3).blk t).view.read (Elt Ideal) (linK (K := 64) (N := 64) (V c main_v15) (V c main_arg6) (V c main_v16)) := by
  show (cfg2.win 3).cut (grid2.coords t) ((dat2 V c).after 3 t) = _
  rw [after2_3]
  unfold out2_3
  rw [View.canon_unit_zero lin_hz2]
  simp only [View.ld_unit_zero (S := S2000x64) lin_hz2, View.ld_unit_zero (S := S64x64) lin_hz2, View.ld_unit_zero (S := S1x64) lin_hz2]
  funext j
  obtain ⟨p, q, rfl⟩ : ∃ (p : Fin 2000) (q : Fin 64), j = ix2 p q := ⟨j 0, j 1, eq_ix2 j⟩
  obtain ⟨-, -, -, -, -, -, e30, e31⟩ := lin_idx_facts2 t
  have ht := lin_lt25_2 t
  show k2_pay1 (iblk2 V c 0 t) (iblk2 V c 1 t) (iblk2 V c 2 t) (ix2 p q)
    = linK (K := 64) (N := 64) (V c main_v15) (V c main_arg6) (V c main_v16) (((cfg2.win 3).blk t).view.emb (ix2 p q))
  have h3 : ((cfg2.win 3).blk t).view.emb (ix2 p q) = (ix2 ⟨t.val * 2000 + p.val, by omega⟩ q : S50000x64.Idx) := by
    funext a; apply Fin.ext
    match a with
    | ⟨0, _⟩ => show win2_3.index t (0 : Fin 2) * 2000 + 1 * p.val = t.val * 2000 + p.val; rw [e30]; omega
    | ⟨1, _⟩ => show win2_3.index t (1 : Fin 2) * 64 + 1 * q.val = q.val; rw [e31]; omega
  rw [h3]
  exact point_lin (K := 64) (N := 64) (V c main_v15) (V c main_arg6) (V c main_v16)
    (iblk2 V c 0 t) (iblk2 V c 1 t) (iblk2 V c 2 t)
    (k2_pay1 (F := Ideal) (iblk2 V c 0 t) (iblk2 V c 1 t) (iblk2 V c 2 t)) (t.val * 2000) (by omega)
    (lin_pay2_apply (iblk2 V c 0 t) (iblk2 V c 1 t) (iblk2 V c 2 t))
    (lin_iblk2_0_apply V c t) (lin_iblk2_1_apply V c t) (lin_iblk2_2_apply V c t) p q

/-- An index is in point t's output block iff each coordinate is in the block's range on its axis. -/
theorem lin_mem_blk2_3 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v17).slice (win2_3.rect t)).set ↔ _
  rw [View.set_slice_whole, Rect.mem_set_unit]
  exact Iff.rfl

/-- Row n of the output lies in the block of point n / 2000. -/
theorem lin_cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ : ∃ t : Fin cfg2.N, t.val = (i 0).val / 2000 :=
    ⟨⟨(i 0).val / 2000, lt_of_lt_of_eq (by omega : (i 0).val / 2000 < 25) N_2.symm⟩, rfl⟩
  obtain ⟨-, -, -, -, -, -, e30, e31⟩ := lin_idx_facts2 t
  refine ⟨t, flush2_3 t, ?_⟩
  rw [lin_mem_blk2_3]
  intro a
  match a with
  | ⟨0, _⟩ =>
    show win2_3.index t (0 : Fin 2) * 2000 ≤ (i 0).val ∧ (i 0).val < win2_3.index t (0 : Fin 2) * 2000 + 2000
    rw [e30]; omega
  | ⟨1, _⟩ =>
    show win2_3.index t (1 : Fin 2) * 64 ≤ (i 1).val ∧ (i 1).val < win2_3.index t (1 : Fin 2) * 64 + 64
    rw [e31]; omega

theorem arr2 (c : Dev nD) : (dat2 (F := Ideal) V c).arrAt 3 cfg2.N
    = linK (K := 64) (N := 64) (V c main_v15) (V c main_arg6) (V c main_v16) :=
  (dat2 (F := Ideal) V c).arrAt_eq_of_cover 3 _ (fun t _ => lin_flushed2_eq V c t) lin_cover2

end

/-! ## Region 4: 64 input channels, 64 output channels -/

/-- Region 4's stored value at row p, column q of the block: its body is the same sequence of operations as
    region 2's, so the same reading holds. -/
theorem lin_pay4_apply (x : Vec Ideal S2000x64 .f32) (W : Vec Ideal S64x64 .f32) (b : Vec Ideal S1x64 .f32)
    (p : Fin 2000) (q : Fin 64) :
    k4_pay1 (F := Ideal) x W b (ix2 p q) = (∑ k : Fin 64, x (ix2 p k) * W (ix2 k q)) + b (ix2 0 q) :=
  lin_pay2_apply x W b p q

/-- The index maps over the 25 grid points: the row-blocked windows sit at block t, the whole operands at block 0. -/
theorem lin_idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem lin_lt25_4 (t : Fin cfg4.N) : t.val < 25 := lt_of_lt_of_eq t.isLt N_4

section
-- the TensorCore's buffer contents when the region is entered
variable (V : (c : Dev nD) → (b : Ref sig .tc) → Buf (Elt Ideal) ((c : Thread nD τ).loc b))

/-- The input block at point t is rows 2000·t … 2000·t + 1999 of the input array. -/
theorem lin_iblk4_0_apply (c : Dev nD) (t : Fin cfg4.N) (p : Fin 2000) (k : Fin 64) :
    iblk4 V c 0 t (ix2 p k) = V c main_v33 (ix2 ⟨t.val * 2000 + p.val, by have := lin_lt25_4 t; omega⟩ k) := by
  obtain ⟨e00, e01, -⟩ := lin_idx_facts4 t
  show V c main_v33 (((cfg4.win 0).blk t).view.emb (ix2 p k)) = _
  refine congrArg (V c main_v33) (funext fun a => Fin.ext ?_)
  match a with
  | ⟨0, _⟩ => show win4_0.index t (0 : Fin 2) * 2000 + 1 * p.val = t.val * 2000 + p.val; rw [e00]; omega
  | ⟨1, _⟩ => show win4_0.index t (1 : Fin 2) * 64 + 1 * k.val = k.val; rw [e01]; omega

/-- The weight block at every point is the whole matrix. -/
theorem lin_iblk4_1_apply (c : Dev nD) (t : Fin cfg4.N) (k : Fin 64) (q : Fin 64) :
    iblk4 V c 1 t (ix2 k q) = V c main_arg8 (ix2 k q) := by
  obtain ⟨-, -, e10, e11, -⟩ := lin_idx_facts4 t
  show V c main_arg8 (((cfg4.win 1).blk t).view.emb (ix2 k q)) = _
  refine congrArg (V c main_arg8) (funext fun a => Fin.ext ?_)
  match a with
  | ⟨0, _⟩ => show win4_1.index t (0 : Fin 2) * 64 + 1 * k.val = k.val; rw [e10]; omega
  | ⟨1, _⟩ => show win4_1.index t (1 : Fin 2) * 64 + 1 * q.val = q.val; rw [e11]; omega

/-- The bias block at every point is the whole row. -/
theorem lin_iblk4_2_apply (c : Dev nD) (t : Fin cfg4.N) (q : Fin 64) :
    iblk4 V c 2 t (ix2 0 q) = V c main_v34 (ix2 0 q) := by
  obtain ⟨-, -, -, -, e20, e21, -⟩ := lin_idx_facts4 t
  show V c main_v34 (((cfg4.win 2).blk t).view.emb (ix2 0 q)) = _
  refine congrArg (V c main_v34) (funext fun a => Fin.ext ?_)
  match a with
  | ⟨0, _⟩ => show win4_2.index t (0 : Fin 2) * 1 + 1 * 0 = 0; rw [e20]
  | ⟨1, _⟩ => show win4_2.index t (1 : Fin 2) * 64 + 1 * q.val = q.val; rw [e21]; omega

/-- What point t writes back is block t of the linear map of the three operand arrays. -/
theorem lin_flushed4_eq (c : Dev nD) (t : Fin cfg4.N) :
    (dat4 (F := Ideal) V c).flushed 3 t
      = ((cfg4.win 3).blk t).view.read (Elt Ideal) (linK (K := 64) (N := 64) (V c main_v33) (V c main_arg8) (V c main_v34)) := by
  show (cfg4.win 3).cut (grid4.coords t) ((dat4 V c).after 3 t) = _
  rw [after4_3]
  unfold out4_3
  rw [View.canon_unit_zero lin_hz2]
  simp only [View.ld_unit_zero (S := S2000x64) lin_hz2, View.ld_unit_zero (S := S64x64) lin_hz2, View.ld_unit_zero (S := S1x64) lin_hz2]
  funext j
  obtain ⟨p, q, rfl⟩ : ∃ (p : Fin 2000) (q : Fin 64), j = ix2 p q := ⟨j 0, j 1, eq_ix2 j⟩
  obtain ⟨-, -, -, -, -, -, e30, e31⟩ := lin_idx_facts4 t
  have ht := lin_lt25_4 t
  show k4_pay1 (iblk4 V c 0 t) (iblk4 V c 1 t) (iblk4 V c 2 t) (ix2 p q)
    = linK (K := 64) (N := 64) (V c main_v33) (V c main_arg8) (V c main_v34) (((cfg4.win 3).blk t).view.emb (ix2 p q))
  have h3 : ((cfg4.win 3).blk t).view.emb (ix2 p q) = (ix2 ⟨t.val * 2000 + p.val, by omega⟩ q : S50000x64.Idx) := by
    funext a; apply Fin.ext
    match a with
    | ⟨0, _⟩ => show win4_3.index t (0 : Fin 2) * 2000 + 1 * p.val = t.val * 2000 + p.val; rw [e30]; omega
    | ⟨1, _⟩ => show win4_3.index t (1 : Fin 2) * 64 + 1 * q.val = q.val; rw [e31]; omega
  rw [h3]
  exact point_lin (K := 64) (N := 64) (V c main_v33) (V c main_arg8) (V c main_v34)
    (iblk4 V c 0 t) (iblk4 V c 1 t) (iblk4 V c 2 t)
    (k4_pay1 (F := Ideal) (iblk4 V c 0 t) (iblk4 V c 1 t) (iblk4 V c 2 t)) (t.val * 2000) (by omega)
    (lin_pay4_apply (iblk4 V c 0 t) (iblk4 V c 1 t) (iblk4 V c 2 t))
    (lin_iblk4_0_apply V c t) (lin_iblk4_1_apply V c t) (lin_iblk4_2_apply V c t) p q

/-- An index is in point t's output block iff each coordinate is in the block's range on its axis. -/
theorem lin_mem_blk4_3 (t : Fin cfg4.N) (i : S50000x64.Idx) :
    i ∈ ((cfg4.win 3).blk t).view.set ↔ ∀ a : Fin 2, win4_3.index t a * S2000x64.size a ≤ (i a).val
      ∧ (i a).val < win4_3.index t a * S2000x64.size a + S2000x64.size a := by
  show i ∈ ((View.whole main_v35).slice (win4_3.rect t)).set ↔ _
  rw [View.set_slice_whole, Rect.mem_set_unit]
  exact Iff.rfl

/-- Row n of the output lies in the block of point n / 2000. -/
theorem lin_cover4 (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  obtain ⟨t, ht⟩ : ∃ t : Fin cfg4.N, t.val = (i 0).val / 2000 :=
    ⟨⟨(i 0).val / 2000, lt_of_lt_of_eq (by omega : (i 0).val / 2000 < 25) N_4.symm⟩, rfl⟩
  obtain ⟨-, -, -, -, -, -, e30, e31⟩ := lin_idx_facts4 t
  refine ⟨t, flush4_3 t, ?_⟩
  rw [lin_mem_blk4_3]
  intro a
  match a with
  | ⟨0, _⟩ =>
    show win4_3.index t (0 : Fin 2) * 2000 ≤ (i 0).val ∧ (i 0).val < win4_3.index t (0 : Fin 2) * 2000 + 2000
    rw [e30]; omega
  | ⟨1, _⟩ =>
    show win4_3.index t (1 : Fin 2) * 64 ≤ (i 1).val ∧ (i 1).val < win4_3.index t (1 : Fin 2) * 64 + 64
    rw [e31]; omega

theorem arr4 (c : Dev nD) : (dat4 (F := Ideal) V c).arrAt 3 cfg4.N
    = linK (K := 64) (N := 64) (V c main_v33) (V c main_arg8) (V c main_v34) :=
  (dat4 (F := Ideal) V c).arrAt_eq_of_cover 3 _ (fun t _ => lin_flushed4_eq V c t) lin_cover4

end

end Cert.GNN

end
-- ==== Proof.RegLin6.lean ====
/- The last linear region (64 channels to 40 classes): its output array is the row-times-matrix-plus-bias function of its three operand arrays as the region finds them. -/
import proofs.«400152_j40956808135039_1_alg».proof.Proof.Gen.KernelIdeal.Frame
import proofs.«400152_j40956808135039_1_alg».proof.Proof.Basic
import Idealize.ShloMosaic.Lib.Pipeline.Value
import Idealize.ShloMosaic.Lib.ValueIdx
import Idealize.ShloMosaic.PureOps.Ideal.Laws

set_option maxRecDepth 16384

noncomputable section

namespace Cert.GNN

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-! ## The payload at an index -/

/-- The dot's operand indices at output index `i` and contraction index `k`: the left operand's are `(i 0, k)`, the
    right operand's `(k, i 1)`. -/
theorem lin6_lhs_0 (i : S2000x40.Idx) (k : dot_S2000x64_S64x40_S2000x40_1_0_0_1_n_n.contr.Idx) :
    (dot_S2000x64_S64x40_S2000x40_1_0_0_1_n_n.lhsIdx i k 0).val = (i 0).val := by
  unfold DotDims.lhsIdx
  rw [dif_neg (show ¬(0 : Fin S2000x64.rank) ∈ dot_S2000x64_S64x40_S2000x40_1_0_0_1_n_n.lhsBatch by decide),
    dif_pos (show (0 : Fin S2000x64.rank) ∈ dot_S2000x64_S64x40_S2000x40_1_0_0_1_n_n.lhsNonContracting by decide)]
  rfl
theorem lin6_lhs_1 (i : S2000x40.Idx) (k : dot_S2000x64_S64x40_S2000x40_1_0_0_1_n_n.contr.Idx) :
    (dot_S2000x64_S64x40_S2000x40_1_0_0_1_n_n.lhsIdx i k 1).val = (k ⟨0, by decide⟩).val :=
  dot_S2000x64_S64x40_S2000x40_1_0_0_1_n_n.lhsIdx_val_of_single rfl i k
theorem lin6_rhs_0 (i : S2000x40.Idx) (k : dot_S2000x64_S64x40_S2000x40_1_0_0_1_n_n.contr.Idx) :
    (dot_S2000x64_S64x40_S2000x40_1_0_0_1_n_n.rhsIdx i k 0).val = (k ⟨0, by decide⟩).val :=
  dot_S2000x64_S64x40_S2000x40_1_0_0_1_n_n.rhsIdx_val_of_single rfl i k
theorem lin6_rhs_1 (i : S2000x40.Idx) (k : dot_S2000x64_S64x40_S2000x40_1_0_0_1_n_n.contr.Idx) :
    (dot_S2000x64_S64x40_S2000x40_1_0_0_1_n_n.rhsIdx i k 1).val = (i 1).val := by
  unfold DotDims.rhsIdx
  rw [dif_neg (show ¬(1 : Fin S64x40.rank) ∈ dot_S2000x64_S64x40_S2000x40_1_0_0_1_n_n.rhsBatch by decide),
    dif_pos (show (1 : Fin S64x40.rank) ∈ dot_S2000x64_S64x40_S2000x40_1_0_0_1_n_n.rhsNonContracting by decide)]
  rfl

/-- The payload at `(p, q)`: row `p` of the loaded block times column `q` of the weights, plus the bias at `q`. -/
theorem lin6_pay_apply (x : Vec Ideal S2000x64 .f32) (W : Vec Ideal S64x40 .f32) (b : Vec Ideal S1x40 .f32)
    (p : Fin 2000) (q : Fin 40) :
    k6_pay1 (F := Ideal) x W b (ix2 p q) = (∑ k : Fin 64, x (ix2 p k) * W (ix2 k q)) + b (ix2 0 q) := by
  show addf (F := Ideal) (φ := .f32)
      (matmul dot_S2000x64_S64x40_S2000x40_1_0_0_1_n_n none
        (truncf .bf16 (shapeCast S2000x64 x shapeCasts_S2000x64_S2000x64) bitsLt_bf16_f32)
        (truncf .bf16 W bitsLt_bf16_f32) (constant S2000x40 .f32 0x00000000#32))
      (broadcastTo S2000x40 (shapeCast S1x40 b shapeCasts_S1x40_S1x40) broadcasts_S1x40_S2000x40) (ix2 p q) = _
  rw [addf_apply, shapeCast_self, shapeCast_self]
  simp only [matmul]
  rw [Ideal.matmul_constant_zero_apply,
    ← Equiv.sum_comp (contrEquiv1 dot_S2000x64_S64x40_S2000x40_1_0_0_1_n_n 64 rfl rfl).symm]
  congr 1
  · refine Finset.sum_congr rfl fun k _ => ?_
    have hk := contrEquiv1_symm_val dot_S2000x64_S64x40_S2000x40_1_0_0_1_n_n 64 rfl rfl k
    have el : dot_S2000x64_S64x40_S2000x40_1_0_0_1_n_n.lhsIdx (ix2 p q) ((contrEquiv1 dot_S2000x64_S64x40_S2000x40_1_0_0_1_n_n 64 rfl rfl).symm k) = ix2 p k :=
      funext fun a => Fin.ext (by
        match a with
        | ⟨0, _⟩ => exact lin6_lhs_0 _ _
        | ⟨1, _⟩ => exact (lin6_lhs_1 _ _).trans hk)
    have er : dot_S2000x64_S64x40_S2000x40_1_0_0_1_n_n.rhsIdx (ix2 p q) ((contrEquiv1 dot_S2000x64_S64x40_S2000x40_1_0_0_1_n_n 64 rfl rfl).symm k) = ix2 k q :=
      funext fun a => Fin.ext (by
        match a with
        | ⟨0, _⟩ => exact (lin6_rhs_0 _ _).trans hk
        | ⟨1, _⟩ => exact lin6_rhs_1 _ _)
    rw [truncf_apply, truncf_apply, el, er]
  · exact broadcastTo_apply b broadcasts_S1x40_S2000x40 (ix2 p q) (ix2 0 q) (fun a => match a with
      | ⟨0, _⟩ => by show 0 = if (1 : Nat) = 1 then 0 else p.val; rw [if_pos rfl]
      | ⟨1, _⟩ => by show q.val = if (40 : Nat) = 1 then 0 else q.val; rw [if_neg (by decide)])

/-! ## The blocks -/

/-- The offsets of a whole-block rectangle are all zero. -/
theorem lin6_hz : (![0, 0] : Fin 2 → Nat) = fun _ => 0 := funext fun a => by fin_cases a <;> rfl

/-- The windows' block indices at point `t` (decided over the 25 points): the input and the output window are at block
    `(t, 0)`; the weight matrix and the bias row are one block each, `(0, 0)`. -/
theorem lin6_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- Row `p` of block `t` is row `2000 t + p` of the array. -/
def lin6_row (t : Fin cfg6.N) (p : Fin 2000) : Fin 50000 :=
  ⟨t.val * 2000 + p.val, by have h : t.val < 25 := N_6 ▸ t.isLt; omega⟩

theorem lin6_emb_0 (t : Fin cfg6.N) (p : Fin 2000) (k : Fin 64) :
    ((cfg6.win 0).blk t).view.emb (ix2 p k) = ix2 (lin6_row t p) k := by
  obtain ⟨e0, e1, -, -, -, -, -, -⟩ := lin6_idx t
  funext a; apply Fin.ext
  match a with
  | ⟨0, _⟩ => show win6_0.index t (0 : Fin 2) * 2000 + 1 * p.val = t.val * 2000 + p.val; omega
  | ⟨1, _⟩ => show win6_0.index t (1 : Fin 2) * 64 + 1 * k.val = k.val; omega

theorem lin6_emb_1 (t : Fin cfg6.N) (k : Fin 64) (q : Fin 40) :
    ((cfg6.win 1).blk t).view.emb (ix2 k q) = ix2 k q := by
  obtain ⟨-, -, e0, e1, -, -, -, -⟩ := lin6_idx t
  funext a; apply Fin.ext
  match a with
  | ⟨0, _⟩ => show win6_1.index t (0 : Fin 2) * 64 + 1 * k.val = k.val; omega
  | ⟨1, _⟩ => show win6_1.index t (1 : Fin 2) * 40 + 1 * q.val = q.val; omega

theorem lin6_emb_2 (t : Fin cfg6.N) (z : Fin 1) (q : Fin 40) :
    ((cfg6.win 2).blk t).view.emb (ix2 z q) = ix2 z q := by
  obtain ⟨-, -, -, -, e0, e1, -, -⟩ := lin6_idx t
  funext a; apply Fin.ext
  match a with
  | ⟨0, _⟩ => show win6_2.index t (0 : Fin 2) * 1 + 1 * z.val = z.val; omega
  | ⟨1, _⟩ => show win6_2.index t (1 : Fin 2) * 40 + 1 * q.val = q.val; omega

theorem lin6_emb_3 (t : Fin cfg6.N) (p : Fin 2000) (q : Fin 40) :
    ((cfg6.win 3).blk t).view.emb (ix2 p q) = ix2 (lin6_row t p) q := by
  obtain ⟨-, -, -, -, -, -, e0, e1⟩ := lin6_idx t
  funext a; apply Fin.ext
  match a with
  | ⟨0, _⟩ => show win6_3.index t (0 : Fin 2) * 2000 + 1 * p.val = t.val * 2000 + p.val; omega
  | ⟨1, _⟩ => show win6_3.index t (1 : Fin 2) * 40 + 1 * q.val = q.val; omega

/-- The input block read at `(p, k)` is the input array at row `2000 t + p`; the weight and bias blocks are the arrays. -/
theorem lin6_iblk_0 (c : Dev nD) (t : Fin cfg6.N) (p : Fin 2000) (k : Fin 64) :
    iblk6 V c 0 t (ix2 p k) = V c main_v51 (ix2 (lin6_row t p) k) := by
  show V c main_v51 (((cfg6.win 0).blk t).view.emb (ix2 p k)) = _
  rw [lin6_emb_0]
theorem lin6_iblk_1 (c : Dev nD) (t : Fin cfg6.N) (k : Fin 64) (q : Fin 40) :
    iblk6 V c 1 t (ix2 k q) = V c main_arg10 (ix2 k q) := by
  show V c main_arg10 (((cfg6.win 1).blk t).view.emb (ix2 k q)) = _
  rw [lin6_emb_1]
theorem lin6_iblk_2 (c : Dev nD) (t : Fin cfg6.N) (z : Fin 1) (q : Fin 40) :
    iblk6 V c 2 t (ix2 z q) = V c main_v52 (ix2 z q) := by
  show V c main_v52 (((cfg6.win 2).blk t).view.emb (ix2 z q)) = _
  rw [lin6_emb_2]

/-- What point `t` writes back is block `t` of the linear map of the three operand arrays. -/
theorem lin6_flushed_eq (c : Dev nD) (t : Fin cfg6.N) :
    (dat6 (F := Ideal) V c).flushed 3 t
      = ((cfg6.win 3).blk t).view.read (Elt Ideal) (linK (K := 64) (N := 40) (V c main_v51) (V c main_arg10) (V c main_v52)) := by
  show (cfg6.win 3).cut (grid6.coords t) ((dat6 V c).after 3 t) = _
  rw [after6_3]
  unfold out6_3
  rw [View.canon_unit_zero lin6_hz]
  simp only [View.ld_unit_zero (S := S2000x64) lin6_hz, View.ld_unit_zero (S := S64x40) lin6_hz,
    View.ld_unit_zero (S := S1x40) lin6_hz]
  funext j
  obtain ⟨p, q, rfl⟩ : ∃ (p : Fin 2000) (q : Fin 40), j = ix2 p q := ⟨j 0, j 1, eq_ix2 j⟩
  show k6_pay1 (iblk6 V c 0 t) (iblk6 V c 1 t) (iblk6 V c 2 t) (ix2 p q)
    = linK (V c main_v51) (V c main_arg10) (V c main_v52) (((cfg6.win 3).blk t).view.emb (ix2 p q))
  rw [lin6_pay_apply, lin6_emb_3]
  simp only [lin6_iblk_0, lin6_iblk_1, lin6_iblk_2]
  rfl

/-! ## The blocks tile the array -/

/-- An index of the output array is in point `t`'s block iff each coordinate is in the block's range on its axis. -/
theorem lin6_mem_blk (t : Fin cfg6.N) (i : S50000x40.Idx) :
    i ∈ ((cfg6.win 3).blk t).view.set ↔ ∀ a : Fin 2, win6_3.index t a * S2000x40.size a ≤ (i a).val ∧ (i a).val < win6_3.index t a * S2000x40.size a + S2000x40.size a := by
  show i ∈ ((View.whole main_v53).slice (win6_3.rect t)).set ↔ _
  rw [View.set_slice_whole, Rect.mem_set_unit]
  exact Iff.rfl

/-- Row `n` lies in block `n / 2000`. -/
theorem lin6_cover (i : S50000x40.Idx) : ∃ t : Fin cfg6.N, (cfg6.win 3).flush t = true ∧ i ∈ ((cfg6.win 3).blk t).view.set := by
  have hi0 : (i 0).val < 50000 := (i 0).isLt
  have hi1 : (i 1).val < 40 := (i 1).isLt
  have hN : (i 0).val / 2000 < cfg6.N := by rw [show cfg6.N = 25 from N_6]; omega
  obtain ⟨-, -, -, -, -, -, e0, e1⟩ := lin6_idx ⟨(i 0).val / 2000, hN⟩
  refine ⟨⟨(i 0).val / 2000, hN⟩, flush6_3 _, ?_⟩
  rw [lin6_mem_blk]
  intro a
  match a with
  | ⟨0, _⟩ =>
    show win6_3.index ⟨(i 0).val / 2000, hN⟩ (0 : Fin 2) * 2000 ≤ (i 0).val ∧ (i 0).val < win6_3.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win6_3.index ⟨(i 0).val / 2000, hN⟩ (1 : Fin 2) * 40 ≤ (i 1).val ∧ (i 1).val < win6_3.index ⟨(i 0).val / 2000, hN⟩ (1 : Fin 2) * 40 + 40
    rw [e1]; omega

theorem arr6 (c : Dev nD) : (dat6 (F := Ideal) V c).arrAt 3 cfg6.N
    = linK (K := 64) (N := 40) (V c main_v51) (V c main_arg10) (V c main_v52) := by
  exact (dat6 V c).arrAt_eq_of_cover 3 _ (fun t _ => lin6_flushed_eq V c t) lin6_cover

end Cert.GNN

end
-- ==== Proof.RegSimple.lean ====
/- The rectifier region: its output array is the entry-by-entry function (maximum with zero) of the one input array as the region finds it. -/
import proofs.«400152_j40956808135039_1_alg».proof.Proof.Gen.KernelIdeal.Frame
import proofs.«400152_j40956808135039_1_alg».proof.Proof.Basic
import Idealize.ShloMosaic.Lib.Pipeline.Value
import Idealize.ShloMosaic.Lib.ValueIdx
import Idealize.ShloMosaic.PureOps.Ideal.Laws

set_option maxRecDepth 16384

noncomputable section

namespace Cert.GNN

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The offsets of a whole-block rectangle are all zero. -/
theorem hz2 : (![0, 0] : Fin 2 → Nat) = fun _ => 0 := funext fun a => by fin_cases a <;> rfl

/-! ## The rectifier region -/

/-- The payload at an index: the larger of the loaded entry and zero. -/
theorem pay1_apply (x : Vec Ideal S2000x64 .f32) (j : S2000x64.Idx) : k1_pay1 (F := Ideal) x j = max (x j) zeroW := by
  show maximumf (F := Ideal) (φ := .f32) (shapeCast S2000x64 x shapeCasts_S2000x64_S2000x64)
      (broadcast S2000x64 (Scalar.ofBits (F := Ideal) .f32 0x00000000#32)) j = _
  rw [maximumf_apply, shapeCast_self, broadcast_apply]
  rfl

/-- Both windows' block index at point `t` is `(t, 0)` (decided over the 25 points). -/
theorem idx1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- Row `p` of block `t` is row `2000 t + p` of the array. -/
def row1 (t : Fin cfg1.N) (p : Fin 2000) : Fin 50000 :=
  ⟨t.val * 2000 + p.val, by have h : t.val < 25 := N_1 ▸ t.isLt; omega⟩

theorem emb1_0 (t : Fin cfg1.N) (p : Fin 2000) (q : Fin 64) :
    ((cfg1.win 0).blk t).view.emb (ix2 p q) = ix2 (row1 t p) q := by
  obtain ⟨e0, e1, -, -⟩ := idx1 t
  funext a; apply Fin.ext
  match a with
  | ⟨0, _⟩ => show win1_0.index t (0 : Fin 2) * 2000 + 1 * p.val = t.val * 2000 + p.val; omega
  | ⟨1, _⟩ => show win1_0.index t (1 : Fin 2) * 64 + 1 * q.val = q.val; omega

theorem emb1_1 (t : Fin cfg1.N) (p : Fin 2000) (q : Fin 64) :
    ((cfg1.win 1).blk t).view.emb (ix2 p q) = ix2 (row1 t p) q := by
  obtain ⟨-, -, e0, e1⟩ := idx1 t
  funext a; apply Fin.ext
  match a with
  | ⟨0, _⟩ => show win1_1.index t (0 : Fin 2) * 2000 + 1 * p.val = t.val * 2000 + p.val; omega
  | ⟨1, _⟩ => show win1_1.index t (1 : Fin 2) * 64 + 1 * q.val = q.val; omega

/-- The input block read at `(p, q)` is the input array at row `2000 t + p`, column `q`. -/
theorem iblk1_apply (c : Dev nD) (t : Fin cfg1.N) (p : Fin 2000) (q : Fin 64) :
    iblk1 V c 0 t (ix2 p q) = V c main_v14 (ix2 (row1 t p) q) := by
  show V c main_v14 (((cfg1.win 0).blk t).view.emb (ix2 p q)) = _
  rw [emb1_0]

/-- What point `t` writes back is block `t` of the rectified input array. -/
theorem flushed1_eq (c : Dev nD) (t : Fin cfg1.N) :
    (dat1 (F := Ideal) V c).flushed 1 t = ((cfg1.win 1).blk t).view.read (Elt Ideal) (reluK (N := 64) (V c main_v14)) := by
  show (cfg1.win 1).cut (grid1.coords t) ((dat1 V c).after 1 t) = _
  rw [after1_1]
  unfold out1_1
  rw [View.canon_unit_zero hz2]
  simp only [View.ld_unit_zero (S := S2000x64) hz2]
  funext j
  obtain ⟨p, q, rfl⟩ : ∃ (p : Fin 2000) (q : Fin 64), j = ix2 p q := ⟨j 0, j 1, eq_ix2 j⟩
  show k1_pay1 (iblk1 V c 0 t) (ix2 p q) = reluK (V c main_v14) (((cfg1.win 1).blk t).view.emb (ix2 p q))
  rw [pay1_apply, iblk1_apply, emb1_1]
  rfl

/-- An index of the output array is in point `t`'s block iff each coordinate is in the block's range on its axis. -/
theorem mem_blk1 (t : Fin cfg1.N) (i : S50000x64.Idx) :
    i ∈ ((cfg1.win 1).blk t).view.set ↔ ∀ a : Fin 2, win1_1.index t a * S2000x64.size a ≤ (i a).val ∧ (i a).val < win1_1.index t a * S2000x64.size a + S2000x64.size a := by
  show i ∈ ((View.whole main_v15).slice (win1_1.rect t)).set ↔ _
  rw [View.set_slice_whole, Rect.mem_set_unit]
  exact Iff.rfl

/-- Row `n` lies in block `n / 2000`. -/
theorem cover1 (i : S50000x64.Idx) : ∃ t : Fin cfg1.N, (cfg1.win 1).flush t = true ∧ i ∈ ((cfg1.win 1).blk t).view.set := by
  have hi0 : (i 0).val < 50000 := (i 0).isLt
  have hi1 : (i 1).val < 64 := (i 1).isLt
  have hN : (i 0).val / 2000 < cfg1.N := by rw [show cfg1.N = 25 from N_1]; omega
  obtain ⟨-, -, e2, e3⟩ := idx1 ⟨(i 0).val / 2000, hN⟩
  refine ⟨⟨(i 0).val / 2000, hN⟩, flush1_1 _, ?_⟩
  rw [mem_blk1]
  intro a
  match a with
  | ⟨0, _⟩ =>
    show win1_1.index ⟨(i 0).val / 2000, hN⟩ (0 : Fin 2) * 2000 ≤ (i 0).val ∧ (i 0).val < win1_1.index ⟨(i 0).val / 2000, hN⟩ (0 : Fin 2) * 2000 + 2000
    rw [e2]; show (i 0).val / 2000 * 2000 ≤ (i 0).val ∧ (i 0).val < (i 0).val / 2000 * 2000 + 2000; omega
  | ⟨1, _⟩ =>
    show win1_1.index ⟨(i 0).val / 2000, hN⟩ (1 : Fin 2) * 64 ≤ (i 1).val ∧ (i 1).val < win1_1.index ⟨(i 0).val / 2000, hN⟩ (1 : Fin 2) * 64 + 64
    rw [e3]; omega

theorem arr1 (c : Dev nD) : (dat1 (F := Ideal) V c).arrAt 1 cfg1.N = reluK (N := 64) (V c main_v14) := by
  exact (dat1 V c).arrAt_eq_of_cover 1 _ (fun t _ => flushed1_eq V c t) cover1

end Cert.GNN

end
-- ==== Proof.RegLsm.lean ====
/- The log-softmax region: its output array is the row-by-row function (entry minus the row's maximum, minus the logarithm of the row's sum of exponentials) of the one input array as the region finds it. -/
import proofs.«400152_j40956808135039_1_alg».proof.Proof.Gen.KernelIdeal.Frame
import proofs.«400152_j40956808135039_1_alg».proof.Proof.Basic
import Idealize.ShloMosaic.Lib.Pipeline.Value
import Idealize.ShloMosaic.Lib.ValueIdx
import Idealize.ShloMosaic.PureOps.Ideal.Laws

set_option maxRecDepth 16384

noncomputable section

namespace Cert.GNN

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

/-- The offsets of a whole-block rectangle are all zero. -/
theorem lsm_hz : (![0, 0] : Fin 2 → Nat) = fun _ => 0 := funext fun a => by fin_cases a <;> rfl

/-! ## The payload at an index -/

/-- The index a reduction over the columns inserts: row `p`, column `k`. -/
theorem lsm_lift (p : Fin 2000) (k : Fin 40) : reduces_S2000x40_S2000.lift (ix1 p) k = ix2 p k := by
  funext a; apply Fin.ext
  match a with
  | ⟨0, _⟩ => rfl
  | ⟨1, _⟩ => rfl

/-- A vector of 2000 entries viewed as a column reads, at `(p, u)`, its entry `p`. -/
theorem lsm_col_apply (v : FVec Ideal S2000 .f32) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    rw [hu, Nat.mul_one, Nat.add_zero])

/-- A column broadcast along the rows reads, at `(p, q)`, the column's entry `p`. -/
theorem lsm_bcast_apply (v : FVec Ideal S2000x1 .f32) (p : Fin 2000) (q : Fin 40) :
    broadcastTo S2000x40 v broadcasts_S2000x1_S2000x40 (ix2 p q) = v (ix2 p (0 : Fin 1)) := by
  refine broadcastTo_apply v broadcasts_S2000x1_S2000x40 (ix2 p q) (ix2 p (0 : Fin 1)) fun ax => ?_
  match ax with
  | ⟨0, _⟩ =>
    show p.val = if (2000 : Nat) = 1 then 0 else p.val
    rw [if_neg (by decide)]
  | ⟨1, _⟩ =>
    show 0 = if (1 : Nat) = 1 then 0 else q.val
    rw [if_pos rfl]

/-- The largest entry of row `p` of a block, folded from minus infinity. -/
def lsm_bmax (x : Vec Ideal S2000x40 .f32) (p : Fin 2000) : EReal :=
  (Finset.univ : Finset (Fin 40)).fold max negInfW (fun k => x (ix2 p k))

/-- The maximum reduction over the columns, read at row `p`. -/
theorem lsm_max_apply (x : FVec Ideal S2000x40 .f32) (hφ : FKind.Formats .f32)
    (hacc : (0xFF800000#32 : BitVec 32) = FKind.maximumf.neutral .f32 hφ) (p : Fin 2000) :
    multiReduction .maximumf [1] S2000 x 0xFF800000#32 reduces_S2000x40_S2000 hφ hacc (ix1 p) = lsm_bmax x p := by
  refine (Ideal.multiReduction_maximumf_single x _ reduces_S2000x40_S2000 hφ hacc (ix1 p)).trans ?_
  have hf : x ∘ reduces_S2000x40_S2000.lift (ix1 p) = fun k : Fin 40 => x (ix2 p k) :=
    funext fun k => congrArg x (lsm_lift p k)
  rw [hf]
  rfl

/-- The sum reduction over the columns, read at row `p`. -/
theorem lsm_sum_apply (x : FVec Ideal S2000x40 .f32) (hφ : FKind.Formats .f32)
    (hacc : (0x00000000#32 : BitVec 32) = FKind.add.neutral .f32 hφ) (p : Fin 2000) :
    multiReduction .add [1] S2000 x 0x00000000#32 reduces_S2000x40_S2000 hφ hacc (ix1 p) = ∑ k : Fin 40, x (ix2 p k) := by
  refine (Ideal.multiReduction_add_single x _ reduces_S2000x40_S2000 hφ hacc (ix1 p)).trans ?_
  exact Finset.sum_congr rfl fun k _ => congrArg x (lsm_lift p k)

/-- The exponential of an entry minus its row's maximum, as the payload forms it, at `(p, k)`. -/
theorem lsm_z_apply (x : FVec Ideal S2000x40 .f32) (hφ : FKind.Formats .f32)
    (hacc : (0xFF800000#32 : BitVec 32) = FKind.maximumf.neutral .f32 hφ) (p : Fin 2000) (k : Fin 40) :
    exp (subf x (broadcastTo S2000x40 (shapeCast S2000x1
        (multiReduction .maximumf [1] S2000 x 0xFF800000#32 reduces_S2000x40_S2000 hφ hacc) shapeCasts_S2000_S2000x1)
        broadcasts_S2000x1_S2000x40)) (ix2 p k) = Ideal.exp (x (ix2 p k) - lsm_bmax x p) := by
  show Ideal.exp (subf x _ (ix2 p k)) = _
  rw [subf_apply, lsm_bcast_apply, lsm_col_apply, lsm_max_apply]

/-- The payload at `(p, q)`: the entry minus the row's maximum, minus the logarithm of the row's sum of exponentials. -/
theorem lsm_pay_apply (x : Vec Ideal S2000x40 .f32) (p : Fin 2000) (q : Fin 40) :
    k7_pay1 (F := Ideal) x (ix2 p q)
      = (x (ix2 p q) - lsm_bmax x p) - Ideal.log (∑ k : Fin 40, Ideal.exp (x (ix2 p k) - lsm_bmax x p)) := by
  have hφ : FKind.Formats .f32 := .inl rfl
  have hm : (0xFF800000#32 : BitVec 32) = FKind.maximumf.neutral .f32 hφ := rfl
  have ha : (0x00000000#32 : BitVec 32) = FKind.add.neutral .f32 hφ := rfl
  -- the payload with its identity cast removed
  have e : k7_pay1 (F := Ideal) x = subf (subf x (broadcastTo S2000x40 (shapeCast S2000x1
        (multiReduction .maximumf [1] S2000 x 0xFF800000#32 reduces_S2000x40_S2000 hφ hm) shapeCasts_S2000_S2000x1)
        broadcasts_S2000x1_S2000x40))
      (broadcastTo S2000x40 (log (shapeCast S2000x1
        (multiReduction .add [1] S2000 (exp (subf x (broadcastTo S2000x40 (shapeCast S2000x1
        (multiReduction .maximumf [1] S2000 x 0xFF800000#32 reduces_S2000x40_S2000 hφ hm) shapeCasts_S2000_S2000x1)
        broadcasts_S2000x1_S2000x40))) 0x00000000#32 reduces_S2000x40_S2000 hφ ha)
        shapeCasts_S2000_S2000x1)) broadcasts_S2000x1_S2000x40) := by
    unfold k7_pay1
    dsimp only
    rw [shapeCast_self]
  rw [e, subf_apply, subf_apply, lsm_bcast_apply, lsm_col_apply, lsm_max_apply, lsm_bcast_apply]
  show _ - _ - Ideal.log (shapeCast S2000x1 _ shapeCasts_S2000_S2000x1 (ix2 p (0 : Fin 1))) = _
  rw [lsm_col_apply, lsm_sum_apply]
  rw [Finset.sum_congr rfl fun k _ => lsm_z_apply x hφ hm p k]

/-- The payload of a block whose row `p` is row `r` of an array is the log-softmax of that array at row `r`. -/
theorem lsm_pay_row (x : Vec Ideal S2000x40 .f32) (a : A 50000 40) (r : Fin 50000) (p : Fin 2000)
    (hx : ∀ k : Fin 40, x (ix2 p k) = a (ix2 r k)) (q : Fin 40) :
    k7_pay1 (F := Ideal) x (ix2 p q) = lsmK a (ix2 r q) := by
  have hm : lsm_bmax x p = rowMax a r := by
    unfold lsm_bmax rowMax
    simp only [hx]
  rw [lsm_pay_apply, hm]
  simp only [hx]
  rfl

/-! ## The blocks -/

/-- Both windows' block index at point `t` is `(t, 0)` (decided over the 25 points). -/
theorem lsm_idx : ∀ t : Fin cfg7.N, win7_0.index t (0 : Fin 2) = t.val ∧ win7_0.index t (1 : Fin 2) = 0
    ∧ win7_1.index t (0 : Fin 2) = t.val ∧ win7_1.index t (1 : Fin 2) = 0 :=
  (by decide +kernel : ∀ t : Fin grid7.N, _)

/-- Row `p` of block `t` is row `2000 t + p` of the array. -/
def lsm_row (t : Fin cfg7.N) (p : Fin 2000) : Fin 50000 :=
  ⟨t.val * 2000 + p.val, by have h : t.val < 25 := N_7 ▸ t.isLt; omega⟩

theorem lsm_emb0 (t : Fin cfg7.N) (p : Fin 2000) (q : Fin 40) :
    ((cfg7.win 0).blk t).view.emb (ix2 p q) = ix2 (lsm_row t p) q := by
  obtain ⟨e0, e1, -, -⟩ := lsm_idx t
  funext a; apply Fin.ext
  match a with
  | ⟨0, _⟩ => show win7_0.index t (0 : Fin 2) * 2000 + 1 * p.val = t.val * 2000 + p.val; omega
  | ⟨1, _⟩ => show win7_0.index t (1 : Fin 2) * 40 + 1 * q.val = q.val; omega

theorem lsm_emb1 (t : Fin cfg7.N) (p : Fin 2000) (q : Fin 40) :
    ((cfg7.win 1).blk t).view.emb (ix2 p q) = ix2 (lsm_row t p) q := by
  obtain ⟨-, -, e0, e1⟩ := lsm_idx t
  funext a; apply Fin.ext
  match a with
  | ⟨0, _⟩ => show win7_1.index t (0 : Fin 2) * 2000 + 1 * p.val = t.val * 2000 + p.val; omega
  | ⟨1, _⟩ => show win7_1.index t (1 : Fin 2) * 40 + 1 * q.val = q.val; omega

/-- The input block read at `(p, q)` is the input array at row `2000 t + p`, column `q`. -/
theorem lsm_iblk_apply (c : Dev nD) (t : Fin cfg7.N) (p : Fin 2000) (q : Fin 40) :
    iblk7 V c 0 t (ix2 p q) = V c main_v66 (ix2 (lsm_row t p) q) := by
  show V c main_v66 (((cfg7.win 0).blk t).view.emb (ix2 p q)) = _
  rw [lsm_emb0]

/-- What point `t` writes back is block `t` of the log-softmax of the input array. -/
theorem lsm_flushed_eq (c : Dev nD) (t : Fin cfg7.N) :
    (dat7 (F := Ideal) V c).flushed 1 t = ((cfg7.win 1).blk t).view.read (Elt Ideal) (lsmK (V c main_v66)) := by
  show (cfg7.win 1).cut (grid7.coords t) ((dat7 V c).after 1 t) = _
  rw [after7_1]
  unfold out7_1
  rw [View.canon_unit_zero lsm_hz]
  simp only [View.ld_unit_zero (S := S2000x40) lsm_hz]
  funext j
  obtain ⟨p, q, rfl⟩ : ∃ (p : Fin 2000) (q : Fin 40), j = ix2 p q := ⟨j 0, j 1, eq_ix2 j⟩
  show k7_pay1 (iblk7 V c 0 t) (ix2 p q) = lsmK (V c main_v66) (((cfg7.win 1).blk t).view.emb (ix2 p q))
  rw [lsm_emb1]
  exact lsm_pay_row (iblk7 V c 0 t) (V c main_v66) (lsm_row t p) p (fun k => lsm_iblk_apply V c t p k) q

/-! ## The cover -/

/-- An index of the output array is in point `t`'s block iff each coordinate is in the block's range on its axis. -/
theorem lsm_mem_blk (t : Fin cfg7.N) (i : S50000x40.Idx) :
    i ∈ ((cfg7.win 1).blk t).view.set ↔ ∀ a : Fin 2, win7_1.index t a * S2000x40.size a ≤ (i a).val ∧ (i a).val < win7_1.index t a * S2000x40.size a + S2000x40.size a := by
  show i ∈ ((View.whole main_v67).slice (win7_1.rect t)).set ↔ _
  rw [View.set_slice_whole, Rect.mem_set_unit]
  exact Iff.rfl

/-- Row `n` lies in block `n / 2000`. -/
theorem lsm_cover (i : S50000x40.Idx) : ∃ t : Fin cfg7.N, (cfg7.win 1).flush t = true ∧ i ∈ ((cfg7.win 1).blk t).view.set := by
  have hi0 : (i 0).val < 50000 := (i 0).isLt
  have hi1 : (i 1).val < 40 := (i 1).isLt
  have hN : (i 0).val / 2000 < cfg7.N := by rw [show cfg7.N = 25 from N_7]; omega
  obtain ⟨-, -, e2, e3⟩ := lsm_idx ⟨(i 0).val / 2000, hN⟩
  refine ⟨⟨(i 0).val / 2000, hN⟩, flush7_1 _, ?_⟩
  rw [lsm_mem_blk]
  intro a
  match a with
  | ⟨0, _⟩ =>
    show win7_1.index ⟨(i 0).val / 2000, hN⟩ (0 : Fin 2) * 2000 ≤ (i 0).val ∧ (i 0).val < win7_1.index ⟨(i 0).val / 2000, hN⟩ (0 : Fin 2) * 2000 + 2000
    rw [e2]; show (i 0).val / 2000 * 2000 ≤ (i 0).val ∧ (i 0).val < (i 0).val / 2000 * 2000 + 2000; omega
  | ⟨1, _⟩ =>
    show win7_1.index ⟨(i 0).val / 2000, hN⟩ (1 : Fin 2) * 40 ≤ (i 1).val ∧ (i 1).val < win7_1.index ⟨(i 0).val / 2000, hN⟩ (1 : Fin 2) * 40 + 40
    rw [e3]; omega

theorem arr7 (c : Dev nD) : (dat7 (F := Ideal) V c).arrAt 1 cfg7.N = lsmK (V c main_v66) := by
  exact (dat7 V c).arrAt_eq_of_cover 1 _ (fun t _ => lsm_flushed_eq V c t) lsm_cover

end Cert.GNN

end
-- ==== Proof.RegGn.lean ====
/- The two group-normalisation regions: each output array is the normalisation (through the two 0/1 group matrices) of the pre-activation array, with affine row operands and the residual array, all as the region finds them. -/
import proofs.«400152_j40956808135039_1_alg».proof.Proof.Gen.KernelIdeal.Frame
import proofs.«400152_j40956808135039_1_alg».proof.Proof.Basic
import Idealize.ShloMosaic.Lib.Pipeline.Value
import Idealize.ShloMosaic.Lib.ValueIdx
import Idealize.ShloMosaic.PureOps.Ideal.Laws

set_option maxRecDepth 16384

noncomputable section

namespace Cert.GNN

open Cert.KernelIdeal Cert.KernelIdeal.Gen
open Idealize.ShloMosaic Idealize.ShloMosaic.TcCoe Idealize.SL.Sem Idealize.ShloMosaic.ValueIdx
open Idealize.ShloMosaic.Pipeline (Dat Cfg Window)

-- the TensorCore's buffer contents when the region is entered
variable (V : (c : Dev nD) → (b : Ref sig .tc) → Buf (Elt Ideal) ((c : Thread nD τ).loc b))

namespace RegGn

/-! ## The two contractions of the payload, read at an entry -/

/-- The contraction channel → group: [2000,64] × [64,32]. -/
abbrev dCG := dot_S2000x64_S64x32_S2000x32_1_0_0_1_n_n
/-- The contraction group → channel: [2000,32] × [32,64]. -/
abbrev dGC := dot_S2000x32_S32x64_S2000x64_1_0_0_1_n_n

theorem dCG_lhs0 (i : S2000x32.Idx) (k : dCG.contr.Idx) : (dCG.lhsIdx i k 0).val = (i 0).val := by
  unfold DotDims.lhsIdx
  rw [dif_neg (show ¬(0 : Fin S2000x64.rank) ∈ dCG.lhsBatch by decide), dif_pos (show (0 : Fin S2000x64.rank) ∈ dCG.lhsNonContracting by decide)]
  rfl
theorem dCG_lhs1 (i : S2000x32.Idx) (k : dCG.contr.Idx) : (dCG.lhsIdx i k 1).val = (k ⟨0, by decide⟩).val :=
  dCG.lhsIdx_val_of_single rfl i k
theorem dCG_rhs0 (i : S2000x32.Idx) (k : dCG.contr.Idx) : (dCG.rhsIdx i k 0).val = (k ⟨0, by decide⟩).val :=
  dCG.rhsIdx_val_of_single rfl i k
theorem dCG_rhs1 (i : S2000x32.Idx) (k : dCG.contr.Idx) : (dCG.rhsIdx i k 1).val = (i 1).val := by
  unfold DotDims.rhsIdx
  rw [dif_neg (show ¬(1 : Fin S64x32.rank) ∈ dCG.rhsBatch by decide), dif_pos (show (1 : Fin S64x32.rank) ∈ dCG.rhsNonContracting by decide)]
  rfl

theorem dGC_lhs0 (i : S2000x64.Idx) (k : dGC.contr.Idx) : (dGC.lhsIdx i k 0).val = (i 0).val := by
  unfold DotDims.lhsIdx
  rw [dif_neg (show ¬(0 : Fin S2000x32.rank) ∈ dGC.lhsBatch by decide), dif_pos (show (0 : Fin S2000x32.rank) ∈ dGC.lhsNonContracting by decide)]
  rfl
theorem dGC_lhs1 (i : S2000x64.Idx) (k : dGC.contr.Idx) : (dGC.lhsIdx i k 1).val = (k ⟨0, by decide⟩).val :=
  dGC.lhsIdx_val_of_single rfl i k
theorem dGC_rhs0 (i : S2000x64.Idx) (k : dGC.contr.Idx) : (dGC.rhsIdx i k 0).val = (k ⟨0, by decide⟩).val :=
  dGC.rhsIdx_val_of_single rfl i k
theorem dGC_rhs1 (i : S2000x64.Idx) (k : dGC.contr.Idx) : (dGC.rhsIdx i k 1).val = (i 1).val := by
  unfold DotDims.rhsIdx
  rw [dif_neg (show ¬(1 : Fin S32x64.rank) ∈ dGC.rhsBatch by decide), dif_pos (show (1 : Fin S32x64.rank) ∈ dGC.rhsNonContracting by decide)]
  rfl

/-- Entry `(p, g)` of the product into the zero accumulator is `Σ_c a[p,c]·b[c,g]`. -/
theorem mmCG_apply (prec : Option ContractPrecision) (a : FVec Ideal S2000x64 .f32) (b : FVec Ideal S64x32 .f32) (p : Fin 2000) (g : Fin 32) :
    matmul dCG prec a b (constant S2000x32 .f32 0x00000000#32) (ix2 p g) = ∑ c : Fin 64, a (ix2 p c) * b (ix2 c g) := by
  show FloatOps.matmul dCG prec a b (constant S2000x32 .f32 0x00000000#32) (ix2 p g) = _
  rw [Ideal.matmul_constant_zero_apply, ← Equiv.sum_comp (contrEquiv1 dCG 64 rfl rfl).symm]
  refine Finset.sum_congr rfl fun k _ => ?_
  have hk := contrEquiv1_symm_val dCG 64 rfl rfl k
  have el : dCG.lhsIdx (ix2 p g) ((contrEquiv1 dCG 64 rfl rfl).symm k) = ix2 p k := funext fun x => Fin.ext (by
    match x with
    | ⟨0, _⟩ => exact dCG_lhs0 _ _
    | ⟨1, _⟩ => exact (dCG_lhs1 _ _).trans hk)
  have er : dCG.rhsIdx (ix2 p g) ((contrEquiv1 dCG 64 rfl rfl).symm k) = ix2 k g := funext fun x => Fin.ext (by
    match x with
    | ⟨0, _⟩ => exact (dCG_rhs0 _ _).trans hk
    | ⟨1, _⟩ => exact dCG_rhs1 _ _)
  rw [el, er]

/-- Entry `(p, q)` of the product into the zero accumulator is `Σ_g a[p,g]·b[g,q]`. -/
theorem mmGC_apply (prec : Option ContractPrecision) (a : FVec Ideal S2000x32 .f32) (b : FVec Ideal S32x64 .f32) (p : Fin 2000) (q : Fin 64) :
    matmul dGC prec a b (constant S2000x64 .f32 0x00000000#32) (ix2 p q) = ∑ g : Fin 32, a (ix2 p g) * b (ix2 g q) := by
  show FloatOps.matmul dGC prec a b (constant S2000x64 .f32 0x00000000#32) (ix2 p q) = _
  rw [Ideal.matmul_constant_zero_apply, ← Equiv.sum_comp (contrEquiv1 dGC 32 rfl rfl).symm]
  refine Finset.sum_congr rfl fun k _ => ?_
  have hk := contrEquiv1_symm_val dGC 32 rfl rfl k
  have el : dGC.lhsIdx (ix2 p q) ((contrEquiv1 dGC 32 rfl rfl).symm k) = ix2 p k := funext fun x => Fin.ext (by
    match x with
    | ⟨0, _⟩ => exact dGC_lhs0 _ _
    | ⟨1, _⟩ => exact (dGC_lhs1 _ _).trans hk)
  have er : dGC.rhsIdx (ix2 p q) ((contrEquiv1 dGC 32 rfl rfl).symm k) = ix2 k q := funext fun x => Fin.ext (by
    match x with
    | ⟨0, _⟩ => exact (dGC_rhs0 _ _).trans hk
    | ⟨1, _⟩ => exact dGC_rhs1 _ _)
  rw [el, er]

/-! ## One row of the normalisation, and the payload at an entry -/

/-- One output entry of the normalisation, from its row `x` of pre-activations, the two 0/1 group matrices, and the
    entry's own scale `γq`, shift `βq` and residual `rq`: the same formula as `gnK` with the row taken out. -/
def gnRow (x : Fin 64 → EReal) (P : A 64 32) (Pt : A 32 64) (γq βq rq : EReal) (q : Fin 64) : EReal :=
  let h : Fin 64 → EReal := fun c => max (x c) zeroW
  let mean : Fin 32 → EReal := fun g => Ideal.div (∑ c : Fin 64, h c * P (ix2 c g)) twoW
  let msq : Fin 32 → EReal := fun g => Ideal.div (∑ c : Fin 64, (h c * h c) * P (ix2 c g)) twoW
  let inv : Fin 32 → EReal := fun g => Ideal.rsqrt ((msq g - mean g * mean g) + epsW)
  ((h q - ∑ g : Fin 32, mean g * Pt (ix2 g q)) * (∑ g : Fin 32, inv g * Pt (ix2 g q))) * γq + βq + rq

/-- `gnK` at an index is `gnRow` of that index's row. -/
theorem gnK_apply (raw r : A 50000 64) (γ β : A 1 64) (P : A 64 32) (Pt : A 32 64) (i : (⟨2, ![50000, 64]⟩ : Shape).Idx) :
    gnK raw r γ β P Pt i = gnRow (fun c => raw (ix2 (i 0) c)) P Pt (γ (ix2 0 (i 1))) (β (ix2 0 (i 1))) (r i) (i 1) := rfl

/-- The entrywise inverse square root reads through. -/
theorem rsqrt_apply {s : Shape} {φ : FTy} (a : FVec Ideal s φ) (i : s.Idx) : rsqrt a i = Ideal.rsqrt (a i) := rfl

/-- A [1,64] row broadcast over the 2000 rows reads its own column. -/
theorem bcRow_apply (v : Vec Ideal S1x64 .f32) (p : Fin 2000) (q : Fin 64) :
    broadcastTo S2000x64 v broadcasts_S1x64_S2000x64 (ix2 p q) = v (ix2 0 q) :=
  broadcastTo_apply v broadcasts_S1x64_S2000x64 (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The payload of region 3 at entry `(p, q)` of its block. -/
theorem pay3_apply (v0 : Vec Ideal S2000x64 .f32) (v4 : Vec Ideal S64x32 .f32) (v5 : Vec Ideal S32x64 .f32)
    (v22 v26 : Vec Ideal S1x64 .f32) (v30 : Vec Ideal S2000x64 .f32) (p : Fin 2000) (q : Fin 64) :
    k3_pay1 (F := Ideal) v0 v4 v5 v22 v26 v30 (ix2 p q)
      = gnRow (fun c => v0 (ix2 p c)) v4 v5 (v22 (ix2 0 q)) (v26 (ix2 0 q)) (v30 (ix2 p q)) q := by
  unfold k3_pay1 gnRow
  simp only [shapeCast_self, addf_apply, mulf_apply, subf_apply, divf_apply, maximumf_apply, broadcast_apply,
    rsqrt_apply, mmCG_apply, mmGC_apply]
  rw [bcRow_apply v22 p q, bcRow_apply v26 p q]
  rfl

/-- Region 5's payload is the same sequence of operations, so it reads the same at an entry. -/
theorem pay5_apply (v0 : Vec Ideal S2000x64 .f32) (v4 : Vec Ideal S64x32 .f32) (v5 : Vec Ideal S32x64 .f32)
    (v22 v26 : Vec Ideal S1x64 .f32) (v30 : Vec Ideal S2000x64 .f32) (p : Fin 2000) (q : Fin 64) :
    k5_pay1 (F := Ideal) v0 v4 v5 v22 v26 v30 (ix2 p q)
      = gnRow (fun c => v0 (ix2 p c)) v4 v5 (v22 (ix2 0 q)) (v26 (ix2 0 q)) (v30 (ix2 p q)) q :=
  pay3_apply v0 v4 v5 v22 v26 v30 p q

/-- The zero offsets of a whole-buffer access, however spelt. -/
theorem hz : (![0, 0] : Fin 2 → Nat) = fun _ => 0 := funext fun a => by fin_cases a <;> rfl

/-! ## Region 3: the blocks read back, what each point writes, the cover -/

/-- The grid has 25 points. -/
theorem t3_lt (t : Fin cfg3.N) : t.val < 25 := lt_of_lt_of_eq t.isLt N_3

/-- The block indices at point `t`, decided over the grid: the three row-blocked windows (the pre-activations, the
    residual, the output) sit at row block `t`, the four whole operands at block (0, 0). -/
theorem idx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- Row `p` of the block at point `t` is row `2000·t + p` of the array. -/
def row3 (t : Fin cfg3.N) (p : Fin 2000) : Fin 50000 :=
  ⟨2000 * t.val + p.val, by have := t3_lt t; have := p.isLt; omega⟩

/-- The pre-activation block at point `t`, entry `(p, q)`. -/
theorem iblk3_0_apply (c : Dev nD) (t : Fin cfg3.N) (p : Fin 2000) (q : Fin 64) :
    (iblk3 V c 0 t : Vec Ideal S2000x64 .f32) (ix2 p q) = V c main_v30 (ix2 (row3 t p) q) := by
  obtain ⟨e0, e1, -⟩ := idx3 t
  unfold iblk3
  rw [View.read_apply]
  show V c main_v30 _ = V c main_v30 _
  congr 1
  funext a
  apply Fin.ext
  match a with
  | ⟨0, _⟩ => show win3_0.index t 0 * 2000 + 1 * p.val = 2000 * t.val + p.val; rw [e0]; omega
  | ⟨1, _⟩ => show win3_0.index t 1 * 64 + 1 * q.val = q.val; rw [e1]; omega

/-- The residual block at point `t`, entry `(p, q)`. -/
theorem iblk3_1_apply (c : Dev nD) (t : Fin cfg3.N) (p : Fin 2000) (q : Fin 64) :
    (iblk3 V c 1 t : Vec Ideal S2000x64 .f32) (ix2 p q) = V c main_v15 (ix2 (row3 t p) q) := by
  obtain ⟨-, -, e0, e1, -⟩ := idx3 t
  unfold iblk3
  rw [View.read_apply]
  show V c main_v15 _ = V c main_v15 _
  congr 1
  funext a
  apply Fin.ext
  match a with
  | ⟨0, _⟩ => show win3_1.index t 0 * 2000 + 1 * p.val = 2000 * t.val + p.val; rw [e0]; omega
  | ⟨1, _⟩ => show win3_1.index t 1 * 64 + 1 * q.val = q.val; rw [e1]; omega

/-- The scale row's block is the whole row at every point. -/
theorem iblk3_2_eq (c : Dev nD) (t : Fin cfg3.N) : (iblk3 V c 2 t : Vec Ideal S1x64 .f32) = V c main_v31 := by
  obtain ⟨-, -, -, -, e0, e1, -⟩ := idx3 t
  funext j
  unfold iblk3
  rw [View.read_apply]
  show V c main_v31 _ = V c main_v31 _
  congr 1
  funext a
  apply Fin.ext
  match a with
  | ⟨0, _⟩ => show win3_2.index t 0 * 1 + 1 * (j 0).val = (j 0).val; rw [e0]; omega
  | ⟨1, _⟩ => show win3_2.index t 1 * 64 + 1 * (j 1).val = (j 1).val; rw [e1]; omega

/-- The shift row's block is the whole row at every point. -/
theorem iblk3_3_eq (c : Dev nD) (t : Fin cfg3.N) : (iblk3 V c 3 t : Vec Ideal S1x64 .f32) = V c main_v32 := by
  obtain ⟨-, -, -, -, -, -, e0, e1, -⟩ := idx3 t
  funext j
  unfold iblk3
  rw [View.read_apply]
  show V c main_v32 _ = V c main_v32 _
  congr 1
  funext a
  apply Fin.ext
  match a with
  | ⟨0, _⟩ => show win3_3.index t 0 * 1 + 1 * (j 0).val = (j 0).val; rw [e0]; omega
  | ⟨1, _⟩ => show win3_3.index t 1 * 64 + 1 * (j 1).val = (j 1).val; rw [e1]; omega

/-- The channel → group matrix's block is the whole matrix at every point. -/
theorem iblk3_4_eq (c : Dev nD) (t : Fin cfg3.N) : (iblk3 V c 4 t : Vec Ideal S64x32 .f32) = V c main_cst := by
  obtain ⟨-, -, -, -, -, -, -, -, e0, e1, -⟩ := idx3 t
  funext j
  unfold iblk3
  rw [View.read_apply]
  show V c main_cst _ = V c main_cst _
  congr 1
  funext a
  apply Fin.ext
  match a with
  | ⟨0, _⟩ => show win3_4.index t 0 * 64 + 1 * (j 0).val = (j 0).val; rw [e0]; omega
  | ⟨1, _⟩ => show win3_4.index t 1 * 32 + 1 * (j 1).val = (j 1).val; rw [e1]; omega

/-- The group → channel matrix's block is the whole matrix at every point. -/
theorem iblk3_5_eq (c : Dev nD) (t : Fin cfg3.N) : (iblk3 V c 5 t : Vec Ideal S32x64 .f32) = V c main_cst_0 := by
  obtain ⟨-, -, -, -, -, -, -, -, -, -, e0, e1, -⟩ := idx3 t
  funext j
  unfold iblk3
  rw [View.read_apply]
  show V c main_cst_0 _ = V c main_cst_0 _
  congr 1
  funext a
  apply Fin.ext
  match a with
  | ⟨0, _⟩ => show win3_5.index t 0 * 32 + 1 * (j 0).val = (j 0).val; rw [e0]; omega
  | ⟨1, _⟩ => show win3_5.index t 1 * 64 + 1 * (j 1).val = (j 1).val; rw [e1]; omega

/-- The output window moves its whole block: the written part at `(p, q)` is the buffer's entry there. -/
theorem cut3_6_apply (t : Fin cfg3.N) (X : Vec Ideal S2000x64 .f32) (p : Fin 2000) (q : Fin 64) :
    (cfg3.win 6).cut (grid3.coords t) X (ix2 p q) = X (ix2 p q) := rfl

/-- Any contents of the output array, read through the output block at point `t`, entry `(p, q)`. -/
theorem read3_6_apply (t : Fin cfg3.N) (G : A 50000 64) (p : Fin 2000) (q : Fin 64) :
    ((cfg3.win 6).blk t).view.read (Elt Ideal) G (ix2 p q) = G (ix2 (row3 t p) q) := by
  obtain ⟨-, -, -, -, -, -, -, -, -, -, -, -, e0, e1⟩ := idx3 t
  rw [View.read_apply]
  show G _ = G _
  congr 1
  funext a
  apply Fin.ext
  match a with
  | ⟨0, _⟩ => show win3_6.index t 0 * 2000 + 1 * p.val = 2000 * t.val + p.val; rw [e0]; omega
  | ⟨1, _⟩ => show win3_6.index t 1 * 64 + 1 * q.val = q.val; rw [e1]; omega

/-- WHAT POINT `t` WRITES BACK is block `t` of the normalisation of the whole operand arrays. -/
theorem flushed3_eq (c : Dev nD) (t : Fin cfg3.N) :
    (dat3 (F := Ideal) V c).flushed 6 t = ((cfg3.win 6).blk t).view.read (Elt Ideal)
      (gnK (V c main_v30) (V c main_v15) (V c main_v31) (V c main_v32) (V c main_cst) (V c main_cst_0)) := by
  show (cfg3.win 6).cut (grid3.coords t) ((dat3 V c).after 6 t) = _
  rw [after3_6]
  unfold out3_6
  rw [View.canon_unit_zero hz]
  simp only [View.ld_unit_zero (S := S2000x64) hz, View.ld_unit_zero (S := S64x32) hz, View.ld_unit_zero (S := S32x64) hz,
    View.ld_unit_zero (S := S1x64) hz]
  rw [iblk3_2_eq V c t, iblk3_3_eq V c t, iblk3_4_eq V c t, iblk3_5_eq V c t]
  funext j
  obtain ⟨p, q, rfl⟩ : ∃ (p : Fin 2000) (q : Fin 64), j = ix2 p q := ⟨j 0, j 1, eq_ix2 j⟩
  rw [cut3_6_apply t _ p q, read3_6_apply t _ p q, pay3_apply, gnK_apply]
  have h0 : (fun c' : Fin 64 => (iblk3 V c 0 t : Vec Ideal S2000x64 .f32) (ix2 p c'))
      = fun c' => V c main_v30 (ix2 (row3 t p) c') := funext fun c' => iblk3_0_apply V c t p c'
  rw [h0, iblk3_1_apply V c t p q]

/-- Every row of the array lies in the block of the point `row / 2000`. -/
theorem cover3 (i : S50000x64.Idx) :
    ∃ t : Fin cfg3.N, (cfg3.win 6).flush t = true ∧ i ∈ ((cfg3.win 6).blk t).view.set := by
  have h0 : (i 0).val < 50000 := (i 0).isLt
  have h1 : (i 1).val < 64 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, -, -, -, -, -, e0, e1⟩ := idx3 t
  refine ⟨t, flush3_6 t, ?_⟩
  show i ∈ ((View.whole main_v33).slice (win3_6.rect t)).set
  rw [View.set_slice_whole, Rect.mem_set_unit]
  intro a
  match a with
  | ⟨0, _⟩ => show win3_6.index t 0 * 2000 ≤ (i 0).val ∧ (i 0).val < win3_6.index t 0 * 2000 + 2000; rw [e0, ht]; omega
  | ⟨1, _⟩ => show win3_6.index t 1 * 64 ≤ (i 1).val ∧ (i 1).val < win3_6.index t 1 * 64 + 64; rw [e1]; omega

/-! ## Region 5: the blocks read back, what each point writes, the cover -/

/-- The grid has 25 points. -/
theorem t5_lt (t : Fin cfg5.N) : t.val < 25 := lt_of_lt_of_eq t.isLt N_5

/-- The block indices at point `t`, decided over the grid: the three row-blocked windows (the pre-activations, the
    residual, the output) sit at row block `t`, the four whole operands at block (0, 0). -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- Row `p` of the block at point `t` is row `2000·t + p` of the array. -/
def row5 (t : Fin cfg5.N) (p : Fin 2000) : Fin 50000 :=
  ⟨2000 * t.val + p.val, by have := t5_lt t; have := p.isLt; omega⟩

/-- The pre-activation block at point `t`, entry `(p, q)`. -/
theorem iblk5_0_apply (c : Dev nD) (t : Fin cfg5.N) (p : Fin 2000) (q : Fin 64) :
    (iblk5 V c 0 t : Vec Ideal S2000x64 .f32) (ix2 p q) = V c main_v48 (ix2 (row5 t p) q) := by
  obtain ⟨e0, e1, -⟩ := idx5 t
  unfold iblk5
  rw [View.read_apply]
  show V c main_v48 _ = V c main_v48 _
  congr 1
  funext a
  apply Fin.ext
  match a with
  | ⟨0, _⟩ => show win5_0.index t 0 * 2000 + 1 * p.val = 2000 * t.val + p.val; rw [e0]; omega
  | ⟨1, _⟩ => show win5_0.index t 1 * 64 + 1 * q.val = q.val; rw [e1]; omega

/-- The residual block at point `t`, entry `(p, q)`. -/
theorem iblk5_1_apply (c : Dev nD) (t : Fin cfg5.N) (p : Fin 2000) (q : Fin 64) :
    (iblk5 V c 1 t : Vec Ideal S2000x64 .f32) (ix2 p q) = V c main_v33 (ix2 (row5 t p) q) := by
  obtain ⟨-, -, e0, e1, -⟩ := idx5 t
  unfold iblk5
  rw [View.read_apply]
  show V c main_v33 _ = V c main_v33 _
  congr 1
  funext a
  apply Fin.ext
  match a with
  | ⟨0, _⟩ => show win5_1.index t 0 * 2000 + 1 * p.val = 2000 * t.val + p.val; rw [e0]; omega
  | ⟨1, _⟩ => show win5_1.index t 1 * 64 + 1 * q.val = q.val; rw [e1]; omega

/-- The scale row's block is the whole row at every point. -/
theorem iblk5_2_eq (c : Dev nD) (t : Fin cfg5.N) : (iblk5 V c 2 t : Vec Ideal S1x64 .f32) = V c main_v49 := by
  obtain ⟨-, -, -, -, e0, e1, -⟩ := idx5 t
  funext j
  unfold iblk5
  rw [View.read_apply]
  show V c main_v49 _ = V c main_v49 _
  congr 1
  funext a
  apply Fin.ext
  match a with
  | ⟨0, _⟩ => show win5_2.index t 0 * 1 + 1 * (j 0).val = (j 0).val; rw [e0]; omega
  | ⟨1, _⟩ => show win5_2.index t 1 * 64 + 1 * (j 1).val = (j 1).val; rw [e1]; omega

/-- The shift row's block is the whole row at every point. -/
theorem iblk5_3_eq (c : Dev nD) (t : Fin cfg5.N) : (iblk5 V c 3 t : Vec Ideal S1x64 .f32) = V c main_v50 := by
  obtain ⟨-, -, -, -, -, -, e0, e1, -⟩ := idx5 t
  funext j
  unfold iblk5
  rw [View.read_apply]
  show V c main_v50 _ = V c main_v50 _
  congr 1
  funext a
  apply Fin.ext
  match a with
  | ⟨0, _⟩ => show win5_3.index t 0 * 1 + 1 * (j 0).val = (j 0).val; rw [e0]; omega
  | ⟨1, _⟩ => show win5_3.index t 1 * 64 + 1 * (j 1).val = (j 1).val; rw [e1]; omega

/-- The channel → group matrix's block is the whole matrix at every point. -/
theorem iblk5_4_eq (c : Dev nD) (t : Fin cfg5.N) : (iblk5 V c 4 t : Vec Ideal S64x32 .f32) = V c main_cst := by
  obtain ⟨-, -, -, -, -, -, -, -, e0, e1, -⟩ := idx5 t
  funext j
  unfold iblk5
  rw [View.read_apply]
  show V c main_cst _ = V c main_cst _
  congr 1
  funext a
  apply Fin.ext
  match a with
  | ⟨0, _⟩ => show win5_4.index t 0 * 64 + 1 * (j 0).val = (j 0).val; rw [e0]; omega
  | ⟨1, _⟩ => show win5_4.index t 1 * 32 + 1 * (j 1).val = (j 1).val; rw [e1]; omega

/-- The group → channel matrix's block is the whole matrix at every point. -/
theorem iblk5_5_eq (c : Dev nD) (t : Fin cfg5.N) : (iblk5 V c 5 t : Vec Ideal S32x64 .f32) = V c main_cst_0 := by
  obtain ⟨-, -, -, -, -, -, -, -, -, -, e0, e1, -⟩ := idx5 t
  funext j
  unfold iblk5
  rw [View.read_apply]
  show V c main_cst_0 _ = V c main_cst_0 _
  congr 1
  funext a
  apply Fin.ext
  match a with
  | ⟨0, _⟩ => show win5_5.index t 0 * 32 + 1 * (j 0).val = (j 0).val; rw [e0]; omega
  | ⟨1, _⟩ => show win5_5.index t 1 * 64 + 1 * (j 1).val = (j 1).val; rw [e1]; omega

/-- The output window moves its whole block: the written part at `(p, q)` is the buffer's entry there. -/
theorem cut5_6_apply (t : Fin cfg5.N) (X : Vec Ideal S2000x64 .f32) (p : Fin 2000) (q : Fin 64) :
    (cfg5.win 6).cut (grid5.coords t) X (ix2 p q) = X (ix2 p q) := rfl

/-- Any contents of the output array, read through the output block at point `t`, entry `(p, q)`. -/
theorem read5_6_apply (t : Fin cfg5.N) (G : A 50000 64) (p : Fin 2000) (q : Fin 64) :
    ((cfg5.win 6).blk t).view.read (Elt Ideal) G (ix2 p q) = G (ix2 (row5 t p) q) := by
  obtain ⟨-, -, -, -, -, -, -, -, -, -, -, -, e0, e1⟩ := idx5 t
  rw [View.read_apply]
  show G _ = G _
  congr 1
  funext a
  apply Fin.ext
  match a with
  | ⟨0, _⟩ => show win5_6.index t 0 * 2000 + 1 * p.val = 2000 * t.val + p.val; rw [e0]; omega
  | ⟨1, _⟩ => show win5_6.index t 1 * 64 + 1 * q.val = q.val; rw [e1]; omega

/-- WHAT POINT `t` WRITES BACK is block `t` of the normalisation of the whole operand arrays. -/
theorem flushed5_eq (c : Dev nD) (t : Fin cfg5.N) :
    (dat5 (F := Ideal) V c).flushed 6 t = ((cfg5.win 6).blk t).view.read (Elt Ideal)
      (gnK (V c main_v48) (V c main_v33) (V c main_v49) (V c main_v50) (V c main_cst) (V c main_cst_0)) := by
  show (cfg5.win 6).cut (grid5.coords t) ((dat5 V c).after 6 t) = _
  rw [after5_6]
  unfold out5_6
  rw [View.canon_unit_zero hz]
  simp only [View.ld_unit_zero (S := S2000x64) hz, View.ld_unit_zero (S := S64x32) hz, View.ld_unit_zero (S := S32x64) hz,
    View.ld_unit_zero (S := S1x64) hz]
  rw [iblk5_2_eq V c t, iblk5_3_eq V c t, iblk5_4_eq V c t, iblk5_5_eq V c t]
  funext j
  obtain ⟨p, q, rfl⟩ : ∃ (p : Fin 2000) (q : Fin 64), j = ix2 p q := ⟨j 0, j 1, eq_ix2 j⟩
  rw [cut5_6_apply t _ p q, read5_6_apply t _ p q, pay5_apply, gnK_apply]
  have h0 : (fun c' : Fin 64 => (iblk5 V c 0 t : Vec Ideal S2000x64 .f32) (ix2 p c'))
      = fun c' => V c main_v48 (ix2 (row5 t p) c') := funext fun c' => iblk5_0_apply V c t p c'
  rw [h0, iblk5_1_apply V c t p q]

/-- Every row of the array lies in the block of the point `row / 2000`. -/
theorem cover5 (i : S50000x64.Idx) :
    ∃ t : Fin cfg5.N, (cfg5.win 6).flush t = true ∧ i ∈ ((cfg5.win 6).blk t).view.set := by
  have h0 : (i 0).val < 50000 := (i 0).isLt
  have h1 : (i 1).val < 64 := (i 1).isLt
  obtain ⟨t, ht⟩ : ∃ t : Fin cfg5.N, t.val = (i 0).val / 2000 :=
    ⟨⟨(i 0).val / 2000, by rw [show cfg5.N = 25 from N_5]; omega⟩, rfl⟩
  obtain ⟨-, -, -, -, -, -, -, -, -, -, -, -, e0, e1⟩ := idx5 t
  refine ⟨t, flush5_6 t, ?_⟩
  show i ∈ ((View.whole main_v51).slice (win5_6.rect t)).set
  rw [View.set_slice_whole, Rect.mem_set_unit]
  intro a
  match a with
  | ⟨0, _⟩ => show win5_6.index t 0 * 2000 ≤ (i 0).val ∧ (i 0).val < win5_6.index t 0 * 2000 + 2000; rw [e0, ht]; omega
  | ⟨1, _⟩ => show win5_6.index t 1 * 64 ≤ (i 1).val ∧ (i 1).val < win5_6.index t 1 * 64 + 64; rw [e1]; omega

end RegGn

/-! ## The two regions' output arrays -/

theorem arr3 (c : Dev nD) : (dat3 (F := Ideal) V c).arrAt 6 cfg3.N
    = gnK (V c main_v30) (V c main_v15) (V c main_v31) (V c main_v32) (V c main_cst) (V c main_cst_0) :=
  (dat3 V c).arrAt_eq_of_cover 6 _ (fun t _ => RegGn.flushed3_eq V c t) RegGn.cover3

theorem arr5 (c : Dev nD) : (dat5 (F := Ideal) V c).arrAt 6 cfg5.N
    = gnK (V c main_v48) (V c main_v33) (V c main_v49) (V c main_v50) (V c main_cst) (V c main_cst_0) :=
  (dat5 V c).arrAt_eq_of_cover 6 _ (fun t _ => RegGn.flushed5_eq V c t) RegGn.cover5

end Cert.GNN

end
-- ==== Proof.RefImports.lean ====
/- The reference's operation list and its operations read at an index, gathered for the modules that compare the two programs. -/
import proofs.«400152_j40956808135039_1_alg».proof.Proof.RefOps
import proofs.«400152_j40956808135039_1_alg».proof.Proof.RefRead
-- ==== Proof.LinRef.lean ====
/- The four linear layers: the row-times-matrix-plus-bias function is the reference's dot_general plus broadcast bias, at each layer's input. -/
import proofs.«400152_j40956808135039_1_alg».proof.Proof.RefImports
import proofs.«400152_j40956808135039_1_alg».proof.Proof.Basic

noncomputable section

namespace Cert.GNN

open Cert.ReferenceIdeal Cert.ReferenceIdeal.Read
open Idealize.ShloMosaic Idealize.ShloMosaic.TcCoe Idealize.ShloMosaic.ValueIdx

theorem lin0_ref (x0 : (⟨S50000x128, .f32⟩ : BufTy).Contents (Elt Ideal)) (x4 : (⟨S128x64, .f32⟩ : BufTy).Contents (Elt Ideal)) (x5 : (⟨S64, .f32⟩ : BufTy).Contents (Elt Ideal)) (b2 : A 1 64) (hb : ∀ j : Fin 64, b2 (ix2 0 j) = x5 (ix1 j)) :
    linK (K := 128) (N := 64) x0 x4 b2 = val_main_v3 (F := Ideal) x0 x4 x5 := by
  funext i
  obtain ⟨n, j, rfl⟩ : ∃ (n : Fin 50000) (j : Fin 64), i = ix2 n j := ⟨i 0, i 1, eq_ix2 i⟩
  rw [val_main_v3_apply, val_main_v0_apply, val_main_v2_apply, val_main_v1_apply]
  -- the contraction reads row n of the left operand and column j of the right one
  have el : ∀ k : Fin 128, lidx_main_v0 (ix2 n j) k = ix2 n k := fun k =>
    funext fun a => by match a with | ⟨0, _⟩ => rfl | ⟨1, _⟩ => rfl
  have er : ∀ k : Fin 128, ridx_main_v0 (ix2 n j) k = ix2 k j := fun k =>
    funext fun a => by match a with | ⟨0, _⟩ => rfl | ⟨1, _⟩ => rfl
  -- the two broadcasts of the bias vector read its entry j
  have eb : idx_main_v1 (idx_main_v2 (ix2 n j)) = ix1 j :=
    funext fun a => by match a with | ⟨0, _⟩ => rfl
  simp only [el, er, eb, Ideal.addf_def]
  rw [← hb j]
  rfl

theorem lin1_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (b2 : A 1 64) (hb : ∀ j : Fin 64, b2 (ix2 0 j) = x7 (ix1 j)) :
    linK (K := 64) (N := 64) (val_main_v17 (F := Ideal) x0 x1 x2 x3 x4 x5) x6 b2 = val_main_v21 (F := Ideal) x0 x1 x2 x3 x4 x5 x6 x7 := by
  funext i
  obtain ⟨n, j, rfl⟩ : ∃ (n : Fin 50000) (j : Fin 64), i = ix2 n j := ⟨i 0, i 1, eq_ix2 i⟩
  rw [val_main_v21_apply, val_main_v18_apply, val_main_v20_apply, val_main_v19_apply]
  generalize val_main_v17 (F := Ideal) x0 x1 x2 x3 x4 x5 = y
  -- the contraction reads row n of the left operand and column j of the right one
  have el : ∀ k : Fin 64, lidx_main_v18 (ix2 n j) k = ix2 n k := fun k =>
    funext fun a => by match a with | ⟨0, _⟩ => rfl | ⟨1, _⟩ => rfl
  have er : ∀ k : Fin 64, ridx_main_v18 (ix2 n j) k = ix2 k j := fun k =>
    funext fun a => by match a with | ⟨0, _⟩ => rfl | ⟨1, _⟩ => rfl
  -- the two broadcasts of the bias vector read its entry j
  have eb : idx_main_v19 (idx_main_v20 (ix2 n j)) = ix1 j :=
    funext fun a => by match a with | ⟨0, _⟩ => rfl
  simp only [el, er, eb, Ideal.addf_def]
  rw [← hb j]
  rfl

theorem lin2_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x12 : (⟨S64, .f32⟩ : BufTy).Contents (Elt Ideal)) (x13 : (⟨S64, .f32⟩ : BufTy).Contents (Elt Ideal)) (b2 : A 1 64) (hb : ∀ j : Fin 64, b2 (ix2 0 j) = x9 (ix1 j)) :
    linK (K := 64) (N := 64) (val_main_v62 (F := Ideal) x0 x1 x2 x3 x4 x5 x6 x7 x12 x13) x8 b2 = val_main_v66 (F := Ideal) x0 x1 x2 x3 x4 x5 x6 x7 x8 x9 x12 x13 := by
  funext i
  obtain ⟨n, j, rfl⟩ : ∃ (n : Fin 50000) (j : Fin 64), i = ix2 n j := ⟨i 0, i 1, eq_ix2 i⟩
  rw [val_main_v66_apply, val_main_v63_apply, val_main_v65_apply, val_main_v64_apply]
  generalize val_main_v62 (F := Ideal) x0 x1 x2 x3 x4 x5 x6 x7 x12 x13 = y
  -- the contraction reads row n of the left operand and column j of the right one
  have el : ∀ k : Fin 64, lidx_main_v63 (ix2 n j) k = ix2 n k := fun k =>
    funext fun a => by match a with | ⟨0, _⟩ => rfl | ⟨1, _⟩ => rfl
  have er : ∀ k : Fin 64, ridx_main_v63 (ix2 n j) k = ix2 k j := fun k =>
    funext fun a => by match a with | ⟨0, _⟩ => rfl | ⟨1, _⟩ => rfl
  -- the two broadcasts of the bias vector read its entry j
  have eb : idx_main_v64 (idx_main_v65 (ix2 n j)) = ix1 j :=
    funext fun a => by match a with | ⟨0, _⟩ => rfl
  simp only [el, er, eb, Ideal.addf_def]
  rw [← hb j]
  rfl

theorem lin3_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) (b2 : A 1 40) (hb : ∀ j : Fin 40, b2 (ix2 0 j) = x11 (ix1 j)) :
    linK (K := 64) (N := 40) (val_main_v107 (F := Ideal) x0 x1 x2 x3 x4 x5 x6 x7 x8 x9 x12 x13 x14 x15) x10 b2 = val_main_v111 (F := Ideal) x0 x1 x2 x3 x4 x5 x6 x7 x8 x9 x10 x11 x12 x13 x14 x15 := by
  funext i
  obtain ⟨n, j, rfl⟩ : ∃ (n : Fin 50000) (j : Fin 40), i = ix2 n j := ⟨i 0, i 1, eq_ix2 i⟩
  rw [val_main_v111_apply, val_main_v108_apply, val_main_v110_apply, val_main_v109_apply]
  generalize val_main_v107 (F := Ideal) x0 x1 x2 x3 x4 x5 x6 x7 x8 x9 x12 x13 x14 x15 = y
  -- the contraction reads row n of the left operand and column j of the right one
  have el : ∀ k : Fin 64, lidx_main_v108 (ix2 n j) k = ix2 n k := fun k =>
    funext fun a => by match a with | ⟨0, _⟩ => rfl | ⟨1, _⟩ => rfl
  have er : ∀ k : Fin 64, ridx_main_v108 (ix2 n j) k = ix2 k j := fun k =>
    funext fun a => by match a with | ⟨0, _⟩ => rfl | ⟨1, _⟩ => rfl
  -- the two broadcasts of the bias vector read its entry j
  have eb : idx_main_v109 (idx_main_v110 (ix2 n j)) = ix1 j :=
    funext fun a => by match a with | ⟨0, _⟩ => rfl
  simp only [el, er, eb, Ideal.addf_def]
  rw [← hb j]
  rfl

end Cert.GNN

end
-- ==== Proof.SimpleRef.lean ====
/- The rectifier after layer 0 and the closing log-softmax are the reference's own operations of the same arrays. -/
import proofs.«400152_j40956808135039_1_alg».proof.Proof.RefImports
import proofs.«400152_j40956808135039_1_alg».proof.Proof.Basic

noncomputable section

namespace Cert.GNN

open Cert.ReferenceIdeal Cert.ReferenceIdeal.Read
open Idealize.ShloMosaic Idealize.ShloMosaic.TcCoe Idealize.ShloMosaic.ValueIdx

/-- The pattern 0xFF800000 (sign 1, exponent all ones, fraction 0) denotes minus infinity. -/
theorem negInf_eq_bot : Ideal.ofBits .f32 0xFF800000#32 = (⊥ : EReal) := by simp [Ideal.ofBits, Ideal.ieee]

/-- The maximum-reduction of a [50000, 40] array along its second axis, started from minus infinity, is at row `m`
    the fold of `max` from minus infinity over the 40 entries of that row: the order of the fold does not matter
    because `max` is commutative and associative, and the source index over row `m` with `k` on the reduced axis
    is `(m, k)`. -/
theorem rowMax_reduce (y : A 50000 40) (init : (⟨0, ![]⟩ : Shape).Idx → EReal) (hinit : ∀ j, init j = negInfW)
    (h' : (⟨2, ![50000, 40]⟩ : Shape).ReducesTo [1] (⟨1, ![50000]⟩ : Shape)) (hu : 0 < (⟨0, ![]⟩ : Shape).numel)
    (m : Fin 50000) :
    Host.reduce (FloatOps.maximumf (F := Ideal) (φ := .f32)) y init h' hu (ix1 m) = rowMax y m := by
  rw [Host.reduce_eq_fold_single (a := 1) _ y init h' (by decide) hu (ix1 m), hinit]
  unfold rowMax
  refine Finset.fold_congr fun k _ => ?_
  exact congrArg y (funext fun a => Fin.ext (by match a with | ⟨0, _⟩ => rfl | ⟨1, _⟩ => rfl))

theorem relu_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) :
    reluK (N := 64) (val_main_v16 (F := Ideal) x0 x1 x2 x3 x4 x5) = val_main_v17 (F := Ideal) x0 x1 x2 x3 x4 x5 := by
  funext i
  rw [val_main_v17_apply, val_main_call0_v0_apply, val_main_call0_cst_apply]
  generalize val_main_v16 (F := Ideal) x0 x1 x2 x3 x4 x5 = y
  rfl

theorem lsm_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x40, .f32⟩ : BufTy).Contents (Elt Ideal)) (x11 : (⟨S40, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) :
    lsmK (val_main_v124 (F := Ideal) x0 x1 x2 x3 x4 x5 x6 x7 x8 x9 x10 x11 x12 x13 x14 x15) = val_main_v125 (F := Ideal) x0 x1 x2 x3 x4 x5 x6 x7 x8 x9 x10 x11 x12 x13 x14 x15 := by
  obtain ⟨y, hy⟩ : ∃ y, y = val_main_v124 (F := Ideal) x0 x1 x2 x3 x4 x5 x6 x7 x8 x9 x10 x11 x12 x13 x14 x15 := ⟨_, rfl⟩
  rw [← hy]
  -- the row maximum: max(−∞, reduce-max) is the fold of max from −∞ over the row
  have hv2 : ∀ m : Fin 50000, val_main_call3_v2 (F := Ideal) x0 x1 x2 x3 x4 x5 x6 x7 x8 x9 x10 x11 x12 x13 x14 x15 (ix1 m) = rowMax y m := by
    intro m
    rw [val_main_call3_v2_apply, val_main_call3_v1_apply, val_main_call3_cst_0_apply]
    unfold val_main_call3_v0
    rw [← hy, rowMax_reduce y (val_main_call3_cst (F := Ideal)) (fun _ => rfl) _ _ m]
    show max (Ideal.ofBits .f32 0xFF800000#32) (rowMax y m) = rowMax y m
    rw [negInf_eq_bot]
    exact max_eq_right bot_le
  -- the row maximum broadcast back over the row, and the shifted entries z = a − max
  have hv4 : ∀ (p : Fin 50000) (q : Fin 40), val_main_call3_v4 (F := Ideal) x0 x1 x2 x3 x4 x5 x6 x7 x8 x9 x10 x11 x12 x13 x14 x15 (ix2 p q) = rowMax y p := by
    intro p q
    rw [val_main_call3_v4_apply, val_main_call3_v3_apply,
      show idx_main_call3_v3 (idx_main_call3_v4 (ix2 p q)) = ix1 p from
        funext fun a => by match a with | ⟨0, _⟩ => rfl]
    exact hv2 p
  have hv5 : ∀ (p : Fin 50000) (q : Fin 40),
      val_main_call3_v5 (F := Ideal) x0 x1 x2 x3 x4 x5 x6 x7 x8 x9 x10 x11 x12 x13 x14 x15 (ix2 p q) = y (ix2 p q) - rowMax y p := by
    intro p q
    rw [val_main_call3_v5_apply, hv4, ← hy]
    rfl
  -- the row sum of exp z
  have hv7 : ∀ p : Fin 50000, val_main_call3_v7 (F := Ideal) x0 x1 x2 x3 x4 x5 x6 x7 x8 x9 x10 x11 x12 x13 x14 x15 (ix1 p)
      = ∑ k : Fin 40, Ideal.exp (y (ix2 p k) - rowMax y p) := by
    intro p
    rw [val_main_call3_v7_apply, val_main_call3_cst_1_apply]
    show Ideal.ofBits .f32 0x00000000#32 + _ = _
    rw [Ideal.ofBits_zero_f32, zero_add]
    refine Finset.sum_congr rfl fun k _ => ?_
    rw [show idx_main_call3_v7 (ix1 p) k = ix2 p k from
        funext fun a => by match a with | ⟨0, _⟩ => rfl | ⟨1, _⟩ => rfl,
      val_main_call3_v6_apply, hv5]
    rfl
  funext i
  obtain ⟨p, q, rfl⟩ : ∃ (p : Fin 50000) (q : Fin 40), i = ix2 p q := ⟨i 0, i 1, eq_ix2 i⟩
  rw [val_main_v125_apply, hv5, val_main_call3_v10_apply, val_main_call3_v9_apply, val_main_call3_v8_apply,
    show idx_main_call3_v8 (idx_main_call3_v10 (ix2 p q)) = ix1 p from
      funext fun a => by match a with | ⟨0, _⟩ => rfl,
    hv7]
  rfl

end Cert.GNN

end
-- ==== Proof.GnRef.lean ====
/- Group normalisation: the pair form (variance as mean of squares minus squared mean) equals the reference's (mean of squared deviations) where the rectified input is real. -/
import proofs.«400152_j40956808135039_1_alg».proof.Proof.RefImports
import proofs.«400152_j40956808135039_1_alg».proof.Proof.Basic

noncomputable section

namespace Cert.GNN

open Cert.ReferenceIdeal Cert.ReferenceIdeal.Read
open Idealize.ShloMosaic Idealize.ShloMosaic.TcCoe Idealize.ShloMosaic.ValueIdx

namespace GnRef

/-! ### The scalars -/

/-- The zero word is zero. -/
theorem zeroW_eq : zeroW = 0 := Ideal.ofBits_zero_f32

/-- The word `0x40000000` is the real number two. -/
theorem twoW_eq : twoW = ((2 : ℝ) : EReal) := by
  simp [twoW, Ideal.ofBits, Ideal.ieee, -EReal.coe_mul]; norm_num

/-- One rectified entry of row `n`. -/
def rect (a : A 50000 64) (n : Fin 50000) (c : Fin 64) : EReal := max (a (ix2 n c)) zeroW

/-- A rectified real entry is real. -/
theorem rect_real {a : A 50000 64} (ha : IsReal a) (n : Fin 50000) (c : Fin 64) : ∃ p : ℝ, rect a n c = (p : EReal) := by
  obtain ⟨x, hx⟩ := ha (ix2 n c)
  refine ⟨max x 0, ?_⟩
  unfold rect
  rw [hx, zeroW_eq, ← EReal.coe_zero]
  exact (EReal.coe_strictMono.monotone.map_max).symm

/-- For two real numbers the mean of the squares minus the squared mean is the mean of the squared deviations;
    at the extended reals this needs both entries finite. -/
theorem var_pair (p0 p1 : ℝ) :
    Ideal.div ((((p0 : EReal) - Ideal.div ((p0 : EReal) + p1) twoW) * ((p0 : EReal) - Ideal.div ((p0 : EReal) + p1) twoW))
        + (((p1 : EReal) - Ideal.div ((p0 : EReal) + p1) twoW) * ((p1 : EReal) - Ideal.div ((p0 : EReal) + p1) twoW))) twoW
      = Ideal.div ((p0 : EReal) * p0 + (p1 : EReal) * p1) twoW
          - Ideal.div ((p0 : EReal) + p1) twoW * Ideal.div ((p0 : EReal) + p1) twoW := by
  rw [twoW_eq]
  simp only [Ideal.div_coe (by norm_num : (2 : ℝ) ≠ 0)]
  simp only [← EReal.coe_add, ← EReal.coe_mul, ← EReal.coe_sub]
  rw [EReal.coe_eq_coe_iff]
  ring

/-! ### The comparison over arbitrary arrays

The reference's stages enter only through what they read at an index: the rectified input regrouped in pairs (`v36`),
the pair's mean (`v40`), the deviations (`v42`, and `v49` which is the same array computed again), the inverse
deviation (`v52`) and the result (`out`). -/

theorem gn_core (a r : A 50000 64)
    (g b : (⟨S64, .f32⟩ : BufTy).Contents (Elt Ideal)) (γ2 β2 : A 1 64)
    (hγ : ∀ j : Fin 64, γ2 (ix2 0 j) = g (ix1 j)) (hβ : ∀ j : Fin 64, β2 (ix2 0 j) = b (ix1 j))
    (hreal : IsReal a)
    (v36 v42 v49 : (⟨S50000x32x2, .f32⟩ : BufTy).Contents (Elt Ideal))
    (v40 v52 : (⟨S50000x32x1, .f32⟩ : BufTy).Contents (Elt Ideal))
    (out : A 50000 64)
    (h36 : ∀ (n : Fin 50000) (p : Fin 32) (k : Fin 2),
      v36 (ix3 n p k) = rect a n ⟨2 * p.val + k.val, by omega⟩)
    (h40 : ∀ (n : Fin 50000) (p : Fin 32),
      v40 (ix3 n p 0) = Ideal.div (zeroW + (v36 (ix3 n p 0) + v36 (ix3 n p 1))) twoW)
    (h42 : ∀ (n : Fin 50000) (p : Fin 32) (k : Fin 2), v42 (ix3 n p k) = v36 (ix3 n p k) - v40 (ix3 n p 0))
    (h49 : ∀ (n : Fin 50000) (p : Fin 32) (k : Fin 2), v49 (ix3 n p k) = v36 (ix3 n p k) - v40 (ix3 n p 0))
    (h52 : ∀ (n : Fin 50000) (p : Fin 32),
      v52 (ix3 n p 0) = Ideal.rsqrt (Ideal.div (zeroW + (v42 (ix3 n p 0) * v42 (ix3 n p 0)
        + v42 (ix3 n p 1) * v42 (ix3 n p 1))) twoW + epsW))
    (hout : ∀ (n : Fin 50000) (q : Fin 64),
      out (ix2 n q) = v49 (ix3 n ⟨q.val / 2, by omega⟩ ⟨q.val % 2, by omega⟩) * v52 (ix3 n ⟨q.val / 2, by omega⟩ 0)
        * g (ix1 q) + b (ix1 q) + r (ix2 n q)) :
    gnPair a r γ2 β2 = out := by
  funext i
  obtain ⟨n, q, rfl⟩ : ∃ (n : Fin 50000) (q : Fin 64), i = ix2 n q := ⟨i 0, i 1, eq_ix2 i⟩
  -- the pair of channel q read through the regrouped array
  have g0 : v36 (ix3 n ⟨q.val / 2, by omega⟩ 0) = rect a n (lo q) := by
    rw [h36]; exact congrArg (rect a n) (Fin.ext (by show 2 * (q.val / 2) + 0 = 2 * (q.val / 2); omega))
  have g1 : v36 (ix3 n ⟨q.val / 2, by omega⟩ 1) = rect a n (hi q) := by
    rw [h36]; exact congrArg (rect a n) (Fin.ext (by show 2 * (q.val / 2) + 1 = 2 * (q.val / 2) + 1; rfl))
  have gk : v36 (ix3 n ⟨q.val / 2, by omega⟩ ⟨q.val % 2, by omega⟩) = rect a n q := by
    rw [h36]; exact congrArg (rect a n) (Fin.ext (by show 2 * (q.val / 2) + q.val % 2 = q.val; omega))
  obtain ⟨p0, hp0⟩ := rect_real hreal n (lo q)
  obtain ⟨p1, hp1⟩ := rect_real hreal n (hi q)
  rw [hout n q, h49, h52, h42, h42, h40, g0, g1, gk, zeroW_eq, zero_add, zero_add, hp0, hp1, var_pair p0 p1,
    ← hγ q, ← hβ q, ← hp0, ← hp1]
  rfl

end GnRef

open GnRef

theorem gn1_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64, .f32⟩ : BufTy).Contents (Elt Ideal)) (x13 : (⟨S64, .f32⟩ : BufTy).Contents (Elt Ideal)) (γ2 β2 : A 1 64)
    (hγ : ∀ j : Fin 64, γ2 (ix2 0 j) = x12 (ix1 j)) (hβ : ∀ j : Fin 64, β2 (ix2 0 j) = x13 (ix1 j))
    (hreal : IsReal (val_main_v34 (F := Ideal) x0 x1 x2 x3 x4 x5 x6 x7)) :
    gnPair (val_main_v34 (F := Ideal) x0 x1 x2 x3 x4 x5 x6 x7) (val_main_v17 (F := Ideal) x0 x1 x2 x3 x4 x5) γ2 β2 = val_main_v62 (F := Ideal) x0 x1 x2 x3 x4 x5 x6 x7 x12 x13 := by
  refine gn_core _ _ x12 x13 γ2 β2 hγ hβ hreal
    (val_main_v36 (F := Ideal) x0 x1 x2 x3 x4 x5 x6 x7) (val_main_v42 (F := Ideal) x0 x1 x2 x3 x4 x5 x6 x7) (val_main_v49 (F := Ideal) x0 x1 x2 x3 x4 x5 x6 x7)
    (val_main_v40 (F := Ideal) x0 x1 x2 x3 x4 x5 x6 x7) (val_main_v52 (F := Ideal) x0 x1 x2 x3 x4 x5 x6 x7) _ ?_ ?_ ?_ ?_ ?_ ?_
  · -- the regrouped rectified input: entry (n, p, k) is channel 2p + k of row n
    intro n p k
    rw [val_main_v36_apply, val_main_v35_apply, val_main_call1_v0_apply, val_main_call1_cst_apply]
    have e : idx_main_v36 (ix3 n p k) = ix2 n ⟨2 * p.val + k.val, by omega⟩ := by
      funext t; refine Fin.ext ?_
      match t with
      | ⟨0, _⟩ => show ((n.val * 32 + p.val) * 2 + k.val) / 64 = n.val; omega
      | ⟨1, _⟩ => show ((n.val * 32 + p.val) * 2 + k.val) % 64 = 2 * p.val + k.val; omega
    rw [e]; rfl
  · -- the pair's mean: the sum over the last axis, divided by two
    intro n p
    rw [val_main_v40_apply, val_main_v38_apply, val_main_v39_apply, val_main_cst_5_apply, val_main_v37_apply, val_main_cst_4_apply,
      Fin.sum_univ_two]
    have e0 : idx_main_v37 (idx_main_v38 (ix3 n p 0)) 0 = ix3 n p 0 := by
      funext t; refine Fin.ext ?_
      match t with
      | ⟨0, _⟩ => rfl
      | ⟨1, _⟩ => rfl
      | ⟨2, _⟩ => rfl
    have e1 : idx_main_v37 (idx_main_v38 (ix3 n p 0)) 1 = ix3 n p 1 := by
      funext t; refine Fin.ext ?_
      match t with
      | ⟨0, _⟩ => rfl
      | ⟨1, _⟩ => rfl
      | ⟨2, _⟩ => rfl
    rw [e0, e1]; rfl
  · -- the deviations from the mean (for the variance)
    intro n p k
    rw [val_main_v42_apply, val_main_v41_apply]
    have e : idx_main_v41 (ix3 n p k) = ix3 n p 0 := by
      funext t; refine Fin.ext ?_
      match t with
      | ⟨0, _⟩ => rfl
      | ⟨1, _⟩ => rfl
      | ⟨2, _⟩ => rfl
    rw [e]; rfl
  · -- the deviations from the mean (for the result)
    intro n p k
    rw [val_main_v49_apply, val_main_v48_apply]
    have e : idx_main_v48 (ix3 n p k) = ix3 n p 0 := by
      funext t; refine Fin.ext ?_
      match t with
      | ⟨0, _⟩ => rfl
      | ⟨1, _⟩ => rfl
      | ⟨2, _⟩ => rfl
    rw [e]; rfl
  · -- the inverse deviation: the mean of the squared deviations, plus ε, under the inverse square root
    intro n p
    rw [val_main_v52_apply, val_main_v51_apply, val_main_v50_apply, val_main_cst_8_apply, val_main_v47_apply, val_main_v46_apply,
      val_main_cst_7_apply, val_main_v45_apply, val_main_v44_apply, val_main_cst_6_apply, Fin.sum_univ_two]
    have e0 : idx_main_v44 (idx_main_v45 (ix3 n p 0)) 0 = ix3 n p 0 := by
      funext t; refine Fin.ext ?_
      match t with
      | ⟨0, _⟩ => rfl
      | ⟨1, _⟩ => rfl
      | ⟨2, _⟩ => rfl
    have e1 : idx_main_v44 (idx_main_v45 (ix3 n p 0)) 1 = ix3 n p 1 := by
      funext t; refine Fin.ext ?_
      match t with
      | ⟨0, _⟩ => rfl
      | ⟨1, _⟩ => rfl
      | ⟨2, _⟩ => rfl
    rw [e0, e1, val_main_v43_apply, val_main_v43_apply]; rfl
  · -- the result: regrouped back, scaled, shifted, plus the residual
    intro n q
    rw [val_main_v62_apply, val_main_v61_apply, val_main_v58_apply, val_main_v60_apply, val_main_v59_apply, val_main_v57_apply,
      val_main_v56_apply, val_main_v55_apply, val_main_v54_apply, val_main_v53_apply]
    have e55 : idx_main_v55 (ix2 n q) = ix3 n ⟨q.val / 2, by omega⟩ ⟨q.val % 2, by omega⟩ := by
      funext t; refine Fin.ext ?_
      match t with
      | ⟨0, _⟩ => show (n.val * 64 + q.val) / 64 = n.val; omega
      | ⟨1, _⟩ => show (n.val * 64 + q.val) / 2 % 32 = q.val / 2; omega
      | ⟨2, _⟩ => show (n.val * 64 + q.val) % 2 = q.val % 2; omega
    have e53 : idx_main_v53 (ix3 n (⟨q.val / 2, by omega⟩ : Fin 32) (⟨q.val % 2, by omega⟩ : Fin 2))
        = ix3 n ⟨q.val / 2, by omega⟩ 0 := by
      funext t; refine Fin.ext ?_
      match t with
      | ⟨0, _⟩ => rfl
      | ⟨1, _⟩ => rfl
      | ⟨2, _⟩ => rfl
    have e56 : idx_main_v56 (idx_main_v57 (ix2 n q)) = ix1 q := by
      funext t; refine Fin.ext ?_
      match t with
      | ⟨0, _⟩ => rfl
    have e59 : idx_main_v59 (idx_main_v60 (ix2 n q)) = ix1 q := by
      funext t; refine Fin.ext ?_
      match t with
      | ⟨0, _⟩ => rfl
    rw [e55, e53, e56, e59]; rfl

end Cert.GNN

end
-- ==== Proof.Gn2Ref.lean ====
/- Group normalisation of the second hidden layer: the pair form (variance as mean of squares minus squared mean) equals the reference's (mean of squared deviations) where the rectified input is real. -/
import proofs.«400152_j40956808135039_1_alg».proof.Proof.RefImports
import proofs.«400152_j40956808135039_1_alg».proof.Proof.Basic
import proofs.«400152_j40956808135039_1_alg».proof.Proof.GnRef

noncomputable section

namespace Cert.GNN

open Cert.ReferenceIdeal Cert.ReferenceIdeal.Read
open Idealize.ShloMosaic Idealize.ShloMosaic.TcCoe Idealize.ShloMosaic.ValueIdx

open GnRef

theorem gn2_ref (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x12 : (⟨S64, .f32⟩ : BufTy).Contents (Elt Ideal)) (x13 : (⟨S64, .f32⟩ : BufTy).Contents (Elt Ideal)) (x14 : (⟨S64, .f32⟩ : BufTy).Contents (Elt Ideal)) (x15 : (⟨S64, .f32⟩ : BufTy).Contents (Elt Ideal)) (γ2 β2 : A 1 64)
    (hγ : ∀ j : Fin 64, γ2 (ix2 0 j) = x14 (ix1 j)) (hβ : ∀ j : Fin 64, β2 (ix2 0 j) = x15 (ix1 j))
    (hreal : IsReal (val_main_v79 (F := Ideal) x0 x1 x2 x3 x4 x5 x6 x7 x8 x9 x12 x13)) :
    gnPair (val_main_v79 (F := Ideal) x0 x1 x2 x3 x4 x5 x6 x7 x8 x9 x12 x13) (val_main_v62 (F := Ideal) x0 x1 x2 x3 x4 x5 x6 x7 x12 x13) γ2 β2 = val_main_v107 (F := Ideal) x0 x1 x2 x3 x4 x5 x6 x7 x8 x9 x12 x13 x14 x15 := by
  refine gn_core _ _ x14 x15 γ2 β2 hγ hβ hreal
    (val_main_v81 (F := Ideal) x0 x1 x2 x3 x4 x5 x6 x7 x8 x9 x12 x13) (val_main_v87 (F := Ideal) x0 x1 x2 x3 x4 x5 x6 x7 x8 x9 x12 x13) (val_main_v94 (F := Ideal) x0 x1 x2 x3 x4 x5 x6 x7 x8 x9 x12 x13)
    (val_main_v85 (F := Ideal) x0 x1 x2 x3 x4 x5 x6 x7 x8 x9 x12 x13) (val_main_v97 (F := Ideal) x0 x1 x2 x3 x4 x5 x6 x7 x8 x9 x12 x13) _ ?_ ?_ ?_ ?_ ?_ ?_
  · -- the regrouped rectified input: entry (n, p, k) is channel 2p + k of row n
    intro n p k
    rw [val_main_v81_apply, val_main_v80_apply, val_main_call2_v0_apply, val_main_call2_cst_apply]
    have e : idx_main_v81 (ix3 n p k) = ix2 n ⟨2 * p.val + k.val, by omega⟩ := by
      funext t; refine Fin.ext ?_
      match t with
      | ⟨0, _⟩ => show ((n.val * 32 + p.val) * 2 + k.val) / 64 = n.val; omega
      | ⟨1, _⟩ => show ((n.val * 32 + p.val) * 2 + k.val) % 64 = 2 * p.val + k.val; omega
    rw [e]; rfl
  · -- the pair's mean: the sum over the last axis, divided by two
    intro n p
    rw [val_main_v85_apply, val_main_v83_apply, val_main_v84_apply, val_main_cst_13_apply, val_main_v82_apply, val_main_cst_12_apply,
      Fin.sum_univ_two]
    have e0 : idx_main_v82 (idx_main_v83 (ix3 n p 0)) 0 = ix3 n p 0 := by
      funext t; refine Fin.ext ?_
      match t with
      | ⟨0, _⟩ => rfl
      | ⟨1, _⟩ => rfl
      | ⟨2, _⟩ => rfl
    have e1 : idx_main_v82 (idx_main_v83 (ix3 n p 0)) 1 = ix3 n p 1 := by
      funext t; refine Fin.ext ?_
      match t with
      | ⟨0, _⟩ => rfl
      | ⟨1, _⟩ => rfl
      | ⟨2, _⟩ => rfl
    rw [e0, e1]; rfl
  · -- the deviations from the mean (for the variance)
    intro n p k
    rw [val_main_v87_apply, val_main_v86_apply]
    have e : idx_main_v86 (ix3 n p k) = ix3 n p 0 := by
      funext t; refine Fin.ext ?_
      match t with
      | ⟨0, _⟩ => rfl
      | ⟨1, _⟩ => rfl
      | ⟨2, _⟩ => rfl
    rw [e]; rfl
  · -- the deviations from the mean (for the result)
    intro n p k
    rw [val_main_v94_apply, val_main_v93_apply]
    have e : idx_main_v93 (ix3 n p k) = ix3 n p 0 := by
      funext t; refine Fin.ext ?_
      match t with
      | ⟨0, _⟩ => rfl
      | ⟨1, _⟩ => rfl
      | ⟨2, _⟩ => rfl
    rw [e]; rfl
  · -- the inverse deviation: the mean of the squared deviations, plus ε, under the inverse square root
    intro n p
    rw [val_main_v97_apply, val_main_v96_apply, val_main_v95_apply, val_main_cst_16_apply, val_main_v92_apply, val_main_v91_apply,
      val_main_cst_15_apply, val_main_v90_apply, val_main_v89_apply, val_main_cst_14_apply, Fin.sum_univ_two]
    have e0 : idx_main_v89 (idx_main_v90 (ix3 n p 0)) 0 = ix3 n p 0 := by
      funext t; refine Fin.ext ?_
      match t with
      | ⟨0, _⟩ => rfl
      | ⟨1, _⟩ => rfl
      | ⟨2, _⟩ => rfl
    have e1 : idx_main_v89 (idx_main_v90 (ix3 n p 0)) 1 = ix3 n p 1 := by
      funext t; refine Fin.ext ?_
      match t with
      | ⟨0, _⟩ => rfl
      | ⟨1, _⟩ => rfl
      | ⟨2, _⟩ => rfl
    rw [e0, e1, val_main_v88_apply, val_main_v88_apply]; rfl
  · -- the result: regrouped back, scaled, shifted, plus the residual
    intro n q
    rw [val_main_v107_apply, val_main_v106_apply, val_main_v103_apply, val_main_v105_apply, val_main_v104_apply, val_main_v102_apply,
      val_main_v101_apply, val_main_v100_apply, val_main_v99_apply, val_main_v98_apply]
    have e55 : idx_main_v100 (ix2 n q) = ix3 n ⟨q.val / 2, by omega⟩ ⟨q.val % 2, by omega⟩ := by
      funext t; refine Fin.ext ?_
      match t with
      | ⟨0, _⟩ => show (n.val * 64 + q.val) / 64 = n.val; omega
      | ⟨1, _⟩ => show (n.val * 64 + q.val) / 2 % 32 = q.val / 2; omega
      | ⟨2, _⟩ => show (n.val * 64 + q.val) % 2 = q.val % 2; omega
    have e53 : idx_main_v98 (ix3 n (⟨q.val / 2, by omega⟩ : Fin 32) (⟨q.val % 2, by omega⟩ : Fin 2))
        = ix3 n ⟨q.val / 2, by omega⟩ 0 := by
      funext t; refine Fin.ext ?_
      match t with
      | ⟨0, _⟩ => rfl
      | ⟨1, _⟩ => rfl
      | ⟨2, _⟩ => rfl
    have e56 : idx_main_v101 (idx_main_v102 (ix2 n q)) = ix1 q := by
      funext t; refine Fin.ext ?_
      match t with
      | ⟨0, _⟩ => rfl
    have e59 : idx_main_v104 (idx_main_v105 (ix2 n q)) = ix1 q := by
      funext t; refine Fin.ext ?_
      match t with
      | ⟨0, _⟩ => rfl
    rw [e55, e53, e56, e59]; rfl

end Cert.GNN

end
-- ==== Proof.FiniteOps.lean ====
/- Real-valuedness (no infinite entry) is kept by every operation the network applies to real arrays: sums of products, a
   maximum with zero, the group normalisation (its variance plus ε is positive, so the inverse square root is a real
   number), a gather (every entry is an entry of the operand), an entry-wise product, a broadcast, and a scatter-add
   (a real entry plus a finite sum of real updates). -/
import proofs.«400152_j40956808135039_1_alg».proof.Proof.Basic
import Idealize.ShloMosaic.PureOps.Ideal.Laws
import Idealize.ShloMosaic.PureOps.Contract

noncomputable section

namespace Cert.GNN

open Idealize.ShloMosaic Idealize.ShloMosaic.ValueIdx

/-- A finite sum of real numbers is a real number. -/
theorem real_sum {ι : Type} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := h a (Finset.mem_insert_self a s)
    obtain ⟨q, hq⟩ := ih (fun i hi => h i (Finset.mem_insert_of_mem hi))
    exact ⟨r + q, by rw [Finset.sum_insert ha, hr, hq, EReal.coe_add]⟩

/-- The product of two real numbers is a real number. -/
theorem real_mul_pt {x y : EReal} (hx : ∃ r : ℝ, x = (r : EReal)) (hy : ∃ r : ℝ, y = (r : EReal)) :
    ∃ r : ℝ, x * y = (r : EReal) := by
  obtain ⟨a, rfl⟩ := hx
  obtain ⟨b, rfl⟩ := hy
  exact ⟨a * b, (EReal.coe_mul a b).symm⟩

/-- The sum of two real numbers is a real number. -/
theorem real_add_pt {x y : EReal} (hx : ∃ r : ℝ, x = (r : EReal)) (hy : ∃ r : ℝ, y = (r : EReal)) :
    ∃ r : ℝ, x + y = (r : EReal) := by
  obtain ⟨a, rfl⟩ := hx
  obtain ⟨b, rfl⟩ := hy
  exact ⟨a + b, (EReal.coe_add a b).symm⟩

/-- The maximum of a real number and zero is a nonnegative real number. -/
theorem real_max_zero_pt {x : EReal} (hx : ∃ r : ℝ, x = (r : EReal)) : ∃ r : ℝ, max x zeroW = (r : EReal) := by
  obtain ⟨a, rfl⟩ := hx
  rw [show zeroW = (0 : EReal) from Ideal.ofBits_zero_f32]
  rcases le_total (a : EReal) 0 with h | h
  · exact ⟨0, by rw [max_eq_right h, EReal.coe_zero]⟩
  · exact ⟨a, by rw [max_eq_left h]⟩

/-- The word of two is the real number two. -/
theorem twoW_eq : twoW = ((2 : ℝ) : EReal) := by
  simp [twoW, Ideal.ofBits, Ideal.ieee, -EReal.coe_mul]; norm_num

/-- The word of ε is a positive real number. -/
theorem epsW_pos : ∃ e : ℝ, epsW = (e : EReal) ∧ 0 < e := by
  refine ⟨_, by simp [epsW, Ideal.ofBits, Ideal.ieee, -EReal.coe_mul]; rfl, ?_⟩
  positivity

theorem real_lin {K N : Nat} (x : A 50000 K) (W : A K N) (b : A 1 N)
    (hx : IsReal x) (hW : IsReal W) (hb : IsReal b) : IsReal (linK x W b) := by
  intro i
  have hs : ∃ s : ℝ, (∑ k : Fin K, x (ix2 (i 0) k) * W (ix2 k (i 1))) = (s : EReal) :=
    real_sum Finset.univ _ (fun k _ => real_mul_pt (hx _) (hW _))
  exact real_add_pt hs (hb _)

theorem real_relu {N : Nat} (a : A 50000 N) (ha : IsReal a) : IsReal (reluK a) := by
  intro i
  exact real_max_zero_pt (ha i)

theorem real_gnPair (raw r : A 50000 64) (γ β : A 1 64)
    (hraw : IsReal raw) (hr : IsReal r) (hγ : IsReal γ) (hβ : IsReal β) : IsReal (gnPair raw r γ β) := by
  intro i
  obtain ⟨a, ha⟩ := real_max_zero_pt (hraw (ix2 (i 0) (lo (i 1))))
  obtain ⟨b, hb⟩ := real_max_zero_pt (hraw (ix2 (i 0) (hi (i 1))))
  obtain ⟨c, hc⟩ := real_max_zero_pt (hraw (ix2 (i 0) (i 1)))
  obtain ⟨g, hg⟩ := hγ (ix2 0 (i 1))
  obtain ⟨t, ht⟩ := hβ (ix2 0 (i 1))
  obtain ⟨u, hu⟩ := hr i
  obtain ⟨e, he, hepos⟩ := epsW_pos
  -- the variance of the pair is the squared half difference, so it is not negative
  have hvar : 0 < ((a * a + b * b) * (1 / 2) - (a + b) * (1 / 2) * ((a + b) * (1 / 2))) + e := by
    have : (a * a + b * b) * (1 / 2) - (a + b) * (1 / 2) * ((a + b) * (1 / 2)) = ((a - b) / 2) ^ 2 := by ring
    rw [this]; positivity
  simp only [gnPair]
  rw [ha, hb, hc, hg, ht, hu, he, twoW_eq, Ideal.div_coe two_ne_zero, Ideal.div_coe two_ne_zero]
  simp only [← EReal.coe_add, ← EReal.coe_mul, ← EReal.coe_sub]
  rw [Ideal.rsqrt_coe, if_neg (not_lt.mpr hvar.le), if_neg hvar.ne']
  simp only [← EReal.coe_add, ← EReal.coe_mul, ← EReal.coe_sub]
  exact ⟨_, rfl⟩

theorem real_scatterAdd {s si su : Shape} {w : Nat} (d : ScatterDims s si su) (x : FVec Ideal s .f32) (idx : IVec si w)
    (upd : FVec Ideal su .f32) (hx : IsReal x) (hu : IsReal upd) : IsReal (Host.scatterAdd d x idx upd) := by
  intro i
  show ∃ r : ℝ, Ideal.hostScatterAdd d x idx upd i = (r : EReal)
  exact real_add_pt (hx i) (real_sum _ _ (fun j _ => hu j))

theorem real_gather {s si t : Shape} {w : Nat} (d : GatherDims s si t) (x : s.Idx → EReal) (idx : IVec si w)
    (hx : IsReal x) : IsReal (Host.gather d x idx) := by
  intro j
  exact hx _

theorem real_mulf {s : Shape} (a b : FVec Ideal s .f32) (ha : IsReal a) (hb : IsReal b) : IsReal (mulf a b) := by
  intro i
  exact real_mul_pt (ha i) (hb i)

end Cert.GNN

end
-- ==== Proof.FiniteChain.lean ====
/- From real arguments, the pre-activations that enter the two group normalisations are real: layer by layer, the linear
   map, the gather-multiply-scatter message passing, the rectifier and the first normalisation keep entries real. -/
import proofs.«400152_j40956808135039_1_alg».proof.Proof.FiniteOps
import proofs.«400152_j40956808135039_1_alg».proof.Proof.LinRef
import proofs.«400152_j40956808135039_1_alg».proof.Proof.SimpleRef
import proofs.«400152_j40956808135039_1_alg».proof.Proof.GnRef

noncomputable section

namespace Cert.GNN

open Cert.ReferenceIdeal Cert.ReferenceIdeal.Read
open Idealize.ShloMosaic Idealize.ShloMosaic.TcCoe Idealize.ShloMosaic.ValueIdx

/-- The broadcast of the zero constant has real entries (three copies of the same stage, one per message-passing round). -/
theorem real_v14 : IsReal (S := S50000x64) (val_main_v14 (F := Ideal)) := by
  intro i
  rw [val_main_v14_apply, val_main_cst_apply]
  exact ⟨0, Ideal.ofBits_zero_f32.trans EReal.coe_zero.symm⟩

theorem real_v32 : IsReal (S := S50000x64) (val_main_v32 (F := Ideal)) := by
  intro i
  rw [val_main_v32_apply, val_main_cst_3_apply]
  exact ⟨0, Ideal.ofBits_zero_f32.trans EReal.coe_zero.symm⟩

theorem real_v77 : IsReal (S := S50000x64) (val_main_v77 (F := Ideal)) := by
  intro i
  rw [val_main_v77_apply, val_main_cst_11_apply]
  exact ⟨0, Ideal.ofBits_zero_f32.trans EReal.coe_zero.symm⟩

/-- The edge weights broadcast along the channels: every entry is an entry of the weight vector. -/
theorem real_v12 (x3 : (⟨S800000, .f32⟩ : BufTy).Contents (Elt Ideal)) (h3 : IsReal (S := S800000) x3) : IsReal (S := S800000x64) (val_main_v12 (F := Ideal) x3) := by
  intro i
  rw [val_main_v12_apply, val_main_v11_apply]
  exact h3 _

theorem real_v30 (x3 : (⟨S800000, .f32⟩ : BufTy).Contents (Elt Ideal)) (h3 : IsReal (S := S800000) x3) : IsReal (S := S800000x64) (val_main_v30 (F := Ideal) x3) := by
  intro i
  rw [val_main_v30_apply, val_main_v29_apply]
  exact h3 _

theorem real_v75 (x3 : (⟨S800000, .f32⟩ : BufTy).Contents (Elt Ideal)) (h3 : IsReal (S := S800000) x3) : IsReal (S := S800000x64) (val_main_v75 (F := Ideal) x3) := by
  intro i
  rw [val_main_v75_apply, val_main_v74_apply]
  exact h3 _

/-- Layer 0's linear map of real features by real weights and bias. -/
theorem real_v3 (x0 : (⟨S50000x128, .f32⟩ : BufTy).Contents (Elt Ideal)) (x4 : (⟨S128x64, .f32⟩ : BufTy).Contents (Elt Ideal)) (x5 : (⟨S64, .f32⟩ : BufTy).Contents (Elt Ideal)) (h0 : IsReal (S := S50000x128) x0) (h4 : IsReal (S := S128x64) x4) (h5 : IsReal (S := S64) x5) :
    IsReal (S := S50000x64) (val_main_v3 (F := Ideal) x0 x4 x5) := by
  rw [← lin0_ref x0 x4 x5 (fun i => x5 (ix1 (i 1))) (fun j => rfl)]
  exact real_lin _ _ _ h0 h4 (fun i => h5 _)

/-- Layer 0's message passing: rows gathered from a real array, times real edge weights, added into zeros. -/
theorem real_v16 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (h0 : IsReal (S := S50000x128) x0) (h3 : IsReal (S := S800000) x3) (h4 : IsReal (S := S128x64) x4) (h5 : IsReal (S := S64) x5) :
    IsReal (S := S50000x64) (val_main_v16 (F := Ideal) x0 x1 x2 x3 x4 x5) := by
  unfold val_main_v16 val_main_v13 val_main_v10
  exact real_scatterAdd _ _ _ _ real_v14 (real_mulf _ _ (real_gather _ _ _ (real_v3 x0 x4 x5 h0 h4 h5)) (real_v12 x3 h3))

/-- The rectified layer-0 output. -/
theorem real_v17 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (h0 : IsReal (S := S50000x128) x0) (h3 : IsReal (S := S800000) x3) (h4 : IsReal (S := S128x64) x4) (h5 : IsReal (S := S64) x5) :
    IsReal (S := S50000x64) (val_main_v17 (F := Ideal) x0 x1 x2 x3 x4 x5) := by
  rw [← relu_ref x0 x1 x2 x3 x4 x5]
  exact real_relu _ (real_v16 x0 x1 x2 x3 x4 x5 h0 h3 h4 h5)

/-- Layer 1's linear map. -/
theorem real_v21 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (h0 : IsReal (S := S50000x128) x0) (h3 : IsReal (S := S800000) x3) (h4 : IsReal (S := S128x64) x4) (h5 : IsReal (S := S64) x5) (h6 : IsReal (S := S64x64) x6) (h7 : IsReal (S := S64) x7) :
    IsReal (S := S50000x64) (val_main_v21 (F := Ideal) x0 x1 x2 x3 x4 x5 x6 x7) := by
  rw [← lin1_ref x0 x1 x2 x3 x4 x5 x6 x7 (fun i => x7 (ix1 (i 1))) (fun j => rfl)]
  exact real_lin _ _ _ (real_v17 x0 x1 x2 x3 x4 x5 h0 h3 h4 h5) h6 (fun i => h7 _)

theorem real_v34 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (h0 : IsReal (S := S50000x128) x0) (h3 : IsReal (S := S800000) x3) (h4 : IsReal (S := S128x64) x4) (h5 : IsReal (S := S64) x5) (h6 : IsReal (S := S64x64) x6) (h7 : IsReal (S := S64) x7) :
    IsReal (S := S50000x64) (val_main_v34 (F := Ideal) x0 x1 x2 x3 x4 x5 x6 x7) := by
  unfold val_main_v34 val_main_v31 val_main_v28
  exact real_scatterAdd _ _ _ _ real_v32 (real_mulf _ _ (real_gather _ _ _ (real_v21 x0 x1 x2 x3 x4 x5 x6 x7 h0 h3 h4 h5 h6 h7)) (real_v30 x3 h3))

/-- The first group normalisation with its residual: real because its input (layer 1's message passing) is. -/
theorem real_v62 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64, .f32⟩ : BufTy).Contents (Elt Ideal)) (x13 : (⟨S64, .f32⟩ : BufTy).Contents (Elt Ideal)) (h0 : IsReal (S := S50000x128) x0) (h3 : IsReal (S := S800000) x3) (h4 : IsReal (S := S128x64) x4) (h5 : IsReal (S := S64) x5) (h6 : IsReal (S := S64x64) x6) (h7 : IsReal (S := S64) x7) (h12 : IsReal (S := S64) x12) (h13 : IsReal (S := S64) x13) :
    IsReal (S := S50000x64) (val_main_v62 (F := Ideal) x0 x1 x2 x3 x4 x5 x6 x7 x12 x13) := by
  have h34 := real_v34 x0 x1 x2 x3 x4 x5 x6 x7 h0 h3 h4 h5 h6 h7
  rw [← gn1_ref x0 x1 x2 x3 x4 x5 x6 x7 x12 x13 (fun i => x12 (ix1 (i 1))) (fun i => x13 (ix1 (i 1))) (fun j => rfl) (fun j => rfl) h34]
  exact real_gnPair _ _ _ _ h34 (real_v17 x0 x1 x2 x3 x4 x5 h0 h3 h4 h5) (fun i => h12 _) (fun i => h13 _)

/-- Layer 2's linear map. -/
theorem real_v66 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x12 : (⟨S64, .f32⟩ : BufTy).Contents (Elt Ideal)) (x13 : (⟨S64, .f32⟩ : BufTy).Contents (Elt Ideal)) (h0 : IsReal (S := S50000x128) x0) (h3 : IsReal (S := S800000) x3) (h4 : IsReal (S := S128x64) x4) (h5 : IsReal (S := S64) x5) (h6 : IsReal (S := S64x64) x6) (h7 : IsReal (S := S64) x7) (h8 : IsReal (S := S64x64) x8) (h9 : IsReal (S := S64) x9) (h12 : IsReal (S := S64) x12) (h13 : IsReal (S := S64) x13) :
    IsReal (S := S50000x64) (val_main_v66 (F := Ideal) x0 x1 x2 x3 x4 x5 x6 x7 x8 x9 x12 x13) := by
  rw [← lin2_ref x0 x1 x2 x3 x4 x5 x6 x7 x8 x9 x12 x13 (fun i => x9 (ix1 (i 1))) (fun j => rfl)]
  exact real_lin _ _ _ (real_v62 x0 x1 x2 x3 x4 x5 x6 x7 x12 x13 h0 h3 h4 h5 h6 h7 h12 h13) h8 (fun i => h9 _)

theorem real_v79 (x0 : (⟨S50000x128, .f32⟩ : BufTy).Contents (Elt Ideal)) (x1 : (⟨S800000, .i32⟩ : BufTy).Contents (Elt Ideal)) (x2 : (⟨S800000, .i32⟩ : BufTy).Contents (Elt Ideal)) (x3 : (⟨S800000, .f32⟩ : BufTy).Contents (Elt Ideal)) (x4 : (⟨S128x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x12 : (⟨S64, .f32⟩ : BufTy).Contents (Elt Ideal)) (x13 : (⟨S64, .f32⟩ : BufTy).Contents (Elt Ideal)) (h0 : IsReal (S := S50000x128) x0) (h3 : IsReal (S := S800000) x3) (h4 : IsReal (S := S128x64) x4) (h5 : IsReal (S := S64) x5) (h6 : IsReal (S := S64x64) x6) (h7 : IsReal (S := S64) x7) (h8 : IsReal (S := S64x64) x8) (h9 : IsReal (S := S64) x9) (h12 : IsReal (S := S64) x12) (h13 : IsReal (S := S64) x13) :
    IsReal (S := S50000x64) (val_main_v79 (F := Ideal) x0 x1 x2 x3 x4 x5 x6 x7 x8 x9 x12 x13) := by
  unfold val_main_v79 val_main_v76 val_main_v73
  exact real_scatterAdd _ _ _ _ real_v77 (real_mulf _ _ (real_gather _ _ _ (real_v66 x0 x1 x2 x3 x4 x5 x6 x7 x8 x9 x12 x13 h0 h3 h4 h5 h6 h7 h8 h9 h12 h13)) (real_v75 x3 h3))

end Cert.GNN

end
-- ==== Proof.Wiring.lean ====
/- The kernel program's boundary contents, followed from the launch memory to the result: each region's output array and
   each message-passing stretch's result IS the reference's stage of the same name-by-position, as a function of the
   argument arrays. The chain: linear → gather·weight → scatter-add → rectifier, twice more with the group
   normalisation and residual in place of the rectifier, then the last linear layer and the row-wise log-softmax.
   Real-valued arguments are needed only where the two normalisations enter. -/
import proofs.«400152_j40956808135039_1_alg».proof.Proof.Hops
import proofs.«400152_j40956808135039_1_alg».proof.Proof.RegLin
import proofs.«400152_j40956808135039_1_alg».proof.Proof.RegLin6
import proofs.«400152_j40956808135039_1_alg».proof.Proof.RegSimple
import proofs.«400152_j40956808135039_1_alg».proof.Proof.RegLsm
import proofs.«400152_j40956808135039_1_alg».proof.Proof.RegGn
import proofs.«400152_j40956808135039_1_alg».proof.Proof.LinRef
import proofs.«400152_j40956808135039_1_alg».proof.Proof.SimpleRef
import proofs.«400152_j40956808135039_1_alg».proof.Proof.GnRef
import proofs.«400152_j40956808135039_1_alg».proof.Proof.Gn2Ref
import proofs.«400152_j40956808135039_1_alg».proof.Proof.FiniteChain
import proofs.«400152_j40956808135039_1_alg».proof.Proof.FinitePre
import Idealize.ShloMosaic.Lib.ValueLayout

set_option maxRecDepth 16384

noncomputable section

namespace Cert.GNN

open Cert.KernelIdeal Cert.KernelIdeal.Gen
open Cert.ReferenceIdeal.Read (val_main_v3 val_main_v16 val_main_v17 val_main_v21 val_main_v34 val_main_v62 val_main_v66 val_main_v79 val_main_v107 val_main_v111 val_main_v124 val_main_v125)
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The main_v0 row operand is the main_arg5 vector laid out as one row. -/
theorem row_v0 (j : Fin 64) :
    (W1 (F := Ideal) m ρ c (Proc.devRef .tc main_v0) : A 1 64) (ix2 0 j) = m ((c : Thread nD τ).loc main_arg5) (ix1 j) := by
  have e : W1 (F := Ideal) m ρ c (Proc.devRef .tc main_v0)
      = shapeCast S1x64 (W0 (F := Ideal) m ρ c (Proc.devRef .tc main_arg5)) shapeCasts_S64_S1x64 := by
    show StableHlo.after hostOps0 _ (Proc.devRef .tc main_v0) = _
    after_results
    rfl
  rw [e, W0_arg5 m ρ c]
  exact shapeCast_a_1a_apply _ _ 0 j

/-- Layer 0, linear part (region 0). -/
theorem exit0 : W2 (F := Ideal) m ρ c (Proc.devRef .tc main_v1) = val_main_v3 (F := Ideal) (m ((c : Thread nD τ).loc main_arg0)) (m ((c : Thread nD τ).loc main_arg4)) (m ((c : Thread nD τ).loc main_arg5)) := by
  refine (W2_arr m ρ c 3).trans ?_
  rw [arr0 (V1 m ρ) c]
  have e0 : V1 (F := Ideal) m ρ c main_arg0 = m ((c : Thread nD τ).loc main_arg0) := W1_arg0 m ρ c
  have e4 : V1 (F := Ideal) m ρ c main_arg4 = m ((c : Thread nD τ).loc main_arg4) := W1_arg4 m ρ c
  rw [e0, e4]
  exact lin0_ref _ _ _ _ (fun j => row_v0 m ρ c j)

/-- Message passing after main_v1: gather by source, weight, scatter-add by target (host stretch hostOps1). -/
theorem host1 : W3 (F := Ideal) m ρ c (Proc.devRef .tc main_v14) = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v14) = _
  after_results_simp
  rw [exit0 m ρ c, W2_arg1 m ρ c, W2_arg2 m ρ c, W2_arg3 m ρ c]
  rfl

/-- Layer 0, rectifier (region 1). -/
theorem exit1 : W4 (F := Ideal) m ρ c (Proc.devRef .tc main_v15) = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_arr m ρ c 1).trans ?_
  rw [arr1 (V3 m ρ) c]
  have e : V3 (F := Ideal) m ρ c main_v14 = val_main_v16 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := host1 m ρ c
  rw [e]
  exact relu_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The main_v16 row operand is the main_arg7 vector laid out as one row. -/
theorem row_v16 (j : Fin 64) :
    (W5 (F := Ideal) m ρ c (Proc.devRef .tc main_v16) : A 1 64) (ix2 0 j) = m ((c : Thread nD τ).loc main_arg7) (ix1 j) := by
  have e : W5 (F := Ideal) m ρ c (Proc.devRef .tc main_v16)
      = shapeCast S1x64 (W4 (F := Ideal) m ρ c (Proc.devRef .tc main_arg7)) shapeCasts_S64_S1x64 := by
    show StableHlo.after hostOps2 _ (Proc.devRef .tc main_v16) = _
    after_results
    rfl
  rw [e, W4_arg7 m ρ c]
  exact shapeCast_a_1a_apply _ _ 0 j

/-- Layer 1, linear part (region 2). -/
theorem exit2 : W6 (F := Ideal) m ρ c (Proc.devRef .tc main_v17) = val_main_v21 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 3).trans ?_
  rw [arr2 (V5 m ρ) c]
  have e0 : V5 (F := Ideal) m ρ c main_v15 = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W5_v15 m ρ c).trans (exit1 m ρ c)
  have e6 : V5 (F := Ideal) m ρ c main_arg6 = m ((c : Thread nD τ).loc main_arg6) := W5_arg6 m ρ c
  rw [e0, e6]
  exact lin1_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) _ (fun j => row_v16 m ρ c j)

/-- Message passing after main_v17: gather by source, weight, scatter-add by target (host stretch hostOps3). -/
theorem host3 : W7 (F := Ideal) m ρ c (Proc.devRef .tc main_v30) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v30) = _
  after_results_simp
  rw [exit2 m ρ c, W6_arg1 m ρ c, W6_arg2 m ρ c, W6_arg3 m ρ c]
  rfl

/-- The main_v31 row operand is the main_arg12 vector laid out as one row. -/
theorem row_v31 (j : Fin 64) :
    (W7 (F := Ideal) m ρ c (Proc.devRef .tc main_v31) : A 1 64) (ix2 0 j) = m ((c : Thread nD τ).loc main_arg12) (ix1 j) := by
  have e : W7 (F := Ideal) m ρ c (Proc.devRef .tc main_v31)
      = shapeCast S1x64 (W6 (F := Ideal) m ρ c (Proc.devRef .tc main_arg12)) shapeCasts_S64_S1x64 := by
    show StableHlo.after hostOps3 _ (Proc.devRef .tc main_v31) = _
    after_results_simp
    rfl
  rw [e, W6_arg12 m ρ c]
  exact shapeCast_a_1a_apply _ _ 0 j

/-- The main_v32 row operand is the main_arg13 vector laid out as one row. -/
theorem row_v32 (j : Fin 64) :
    (W7 (F := Ideal) m ρ c (Proc.devRef .tc main_v32) : A 1 64) (ix2 0 j) = m ((c : Thread nD τ).loc main_arg13) (ix1 j) := by
  have e : W7 (F := Ideal) m ρ c (Proc.devRef .tc main_v32)
      = shapeCast S1x64 (W6 (F := Ideal) m ρ c (Proc.devRef .tc main_arg13)) shapeCasts_S64_S1x64 := by
    show StableHlo.after hostOps3 _ (Proc.devRef .tc main_v32) = _
    after_results_simp
    rfl
  rw [e, W6_arg13 m ρ c]
  exact shapeCast_a_1a_apply _ _ 0 j

/-- Layer 1, group normalisation and residual (region 3): where the arguments are real. -/
theorem exit3 (hA : ArgsReal m c) : W8 (F := Ideal) m ρ c (Proc.devRef .tc main_v33) = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) := by
  refine (W8_arr m ρ c 6).trans ?_
  rw [arr3 (V7 m ρ) c]
  have e0 : V7 (F := Ideal) m ρ c main_v30 = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := host3 m ρ c
  have e1 : V7 (F := Ideal) m ρ c main_v15 = val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (W7_v15 m ρ c).trans (exit1 m ρ c)
  have e4 : V7 (F := Ideal) m ρ c main_cst = Ptab := W7_cst m ρ c
  have e5 : V7 (F := Ideal) m ρ c main_cst_0 = Pttab := W7_cst_0 m ρ c
  rw [e0, e1, e4, e5, gnK_tab]
  exact gn1_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) _ _ (fun j => row_v31 m ρ c j) (fun j => row_v32 m ρ c j)
    (real_v34 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) hA.h0 hA.h3 hA.h4 hA.h5 hA.h6 hA.h7)

/-- The main_v34 row operand is the main_arg9 vector laid out as one row. -/
theorem row_v34 (j : Fin 64) :
    (W9 (F := Ideal) m ρ c (Proc.devRef .tc main_v34) : A 1 64) (ix2 0 j) = m ((c : Thread nD τ).loc main_arg9) (ix1 j) := by
  have e : W9 (F := Ideal) m ρ c (Proc.devRef .tc main_v34)
      = shapeCast S1x64 (W8 (F := Ideal) m ρ c (Proc.devRef .tc main_arg9)) shapeCasts_S64_S1x64 := by
    show StableHlo.after hostOps4 _ (Proc.devRef .tc main_v34) = _
    after_results
    rfl
  rw [e, W8_arg9 m ρ c]
  exact shapeCast_a_1a_apply _ _ 0 j

/-- Layer 2, linear part (region 4). -/
theorem exit4 (hA : ArgsReal m c) : W10 (F := Ideal) m ρ c (Proc.devRef .tc main_v35) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  refine (W10_arr m ρ c 3).trans ?_
  rw [arr4 (V9 m ρ) c]
  have e0 : V9 (F := Ideal) m ρ c main_v33 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) := (W9_v33 m ρ c).trans (exit3 m ρ c hA)
  have e8 : V9 (F := Ideal) m ρ c main_arg8 = m ((c : Thread nD τ).loc main_arg8) := W9_arg8 m ρ c
  rw [e0, e8]
  exact lin2_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) _ (fun j => row_v34 m ρ c j)

/-- Message passing of layer 2 (host stretch hostOps5). -/
theorem host5 (hA : ArgsReal m c) : W11 (F := Ideal) m ρ c (Proc.devRef .tc main_v48) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := by
  show StableHlo.after hostOps5 (W10 m ρ c) (Proc.devRef .tc main_v48) = _
  after_results_simp
  rw [exit4 m ρ c hA, W10_arg1 m ρ c, W10_arg2 m ρ c, W10_arg3 m ρ c]
  rfl

/-- The main_v49 row operand is the main_arg14 vector laid out as one row. -/
theorem row_v49 (j : Fin 64) :
    (W11 (F := Ideal) m ρ c (Proc.devRef .tc main_v49) : A 1 64) (ix2 0 j) = m ((c : Thread nD τ).loc main_arg14) (ix1 j) := by
  have e : W11 (F := Ideal) m ρ c (Proc.devRef .tc main_v49)
      = shapeCast S1x64 (W10 (F := Ideal) m ρ c (Proc.devRef .tc main_arg14)) shapeCasts_S64_S1x64 := by
    show StableHlo.after hostOps5 _ (Proc.devRef .tc main_v49) = _
    after_results_simp
    rfl
  rw [e, W10_arg14 m ρ c]
  exact shapeCast_a_1a_apply _ _ 0 j

/-- The main_v50 row operand is the main_arg15 vector laid out as one row. -/
theorem row_v50 (j : Fin 64) :
    (W11 (F := Ideal) m ρ c (Proc.devRef .tc main_v50) : A 1 64) (ix2 0 j) = m ((c : Thread nD τ).loc main_arg15) (ix1 j) := by
  have e : W11 (F := Ideal) m ρ c (Proc.devRef .tc main_v50)
      = shapeCast S1x64 (W10 (F := Ideal) m ρ c (Proc.devRef .tc main_arg15)) shapeCasts_S64_S1x64 := by
    show StableHlo.after hostOps5 _ (Proc.devRef .tc main_v50) = _
    after_results_simp
    rfl
  rw [e, W10_arg15 m ρ c]
  exact shapeCast_a_1a_apply _ _ 0 j

/-- Layer 2, group normalisation and residual (region 5). -/
theorem exit5 (hA : ArgsReal m c) : W12 (F := Ideal) m ρ c (Proc.devRef .tc main_v51) = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) := by
  refine (W12_arr m ρ c 6).trans ?_
  rw [arr5 (V11 m ρ) c]
  have e0 : V11 (F := Ideal) m ρ c main_v48 = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) := host5 m ρ c hA
  have e1 : V11 (F := Ideal) m ρ c main_v33 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg12)) (m ((c : Thread nD τ).loc main_arg13)) := (W11_v33 m ρ c).trans (exit3 m ρ c hA)
  have e4 : V11 (F := Ideal) m ρ c main_cst = Ptab := W11_cst m ρ c
  have e5 : V11 (F := Ideal) m ρ c main_cst_0 = Pttab := W11_cst_0 m ρ c
  rw [e0, e1, e4, e5, gnK_tab]
  exact gn2_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) _ _ (fun j => row_v49 m ρ c j) (fun j => row_v50 m ρ c j)
    (real_v79 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) hA.h0 hA.h3 hA.h4 hA.h5 hA.h6 hA.h7 hA.h8 hA.h9 hA.h12 hA.h13)

/-- The main_v52 row operand is the main_arg11 vector laid out as one row. -/
theorem row_v52 (j : Fin 40) :
    (W13 (F := Ideal) m ρ c (Proc.devRef .tc main_v52) : A 1 40) (ix2 0 j) = m ((c : Thread nD τ).loc main_arg11) (ix1 j) := by
  have e : W13 (F := Ideal) m ρ c (Proc.devRef .tc main_v52)
      = shapeCast S1x40 (W12 (F := Ideal) m ρ c (Proc.devRef .tc main_arg11)) shapeCasts_S40_S1x40 := by
    show StableHlo.after hostOps6 _ (Proc.devRef .tc main_v52) = _
    after_results
    rfl
  rw [e, W12_arg11 m ρ c]
  exact shapeCast_a_1a_apply _ _ 0 j

/-- Layer 3, linear part (region 6). -/
theorem exit6 (hA : ArgsReal m c) : W14 (F := Ideal) m ρ c (Proc.devRef .tc main_v53) = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W14_arr m ρ c 3).trans ?_
  rw [arr6 (V13 m ρ) c]
  have e0 : V13 (F := Ideal) m ρ c main_v51 = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg12)) (m ((c : Thread nD τ).loc main_arg13)) (m ((c : Thread nD τ).loc main_arg14)) (m ((c : Thread nD τ).loc main_arg15)) := (W13_v51 m ρ c).trans (exit5 m ρ c hA)
  have e10 : V13 (F := Ideal) m ρ c main_arg10 = m ((c : Thread nD τ).loc main_arg10) := W13_arg10 m ρ c
  rw [e0, e10]
  exact lin3_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) _ (fun j => row_v52 m ρ c j)

/-- Message passing of layer 3 (host stretch hostOps7). -/
theorem host7 (hA : ArgsReal m c) : W15 (F := Ideal) m ρ c (Proc.devRef .tc main_v66) = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  show StableHlo.after hostOps7 (W14 m ρ c) (Proc.devRef .tc main_v66) = _
  after_results_simp
  rw [exit6 m ρ c hA, W14_arg1 m ρ c, W14_arg2 m ρ c, W14_arg3 m ρ c]
  rfl

/-- THE KERNEL PROGRAM'S RESULT: the log-softmax region leaves the reference's last stage of the argument arrays. -/
theorem kernel_value (hA : ArgsReal m c) : W16 (F := Ideal) m ρ c (Proc.devRef .tc main_v67) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W16_arr m ρ c 1).trans ?_
  rw [arr7 (V15 m ρ) c]
  have e : V15 (F := Ideal) m ρ c main_v66 = val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := host7 m ρ c hA
  rw [e]
  exact lsm_ref (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

end Cert.GNN

end
-- ==== Proof.lean ====
/-
  The certificate of a four-layer graph network — per layer a linear map (a bf16-fed matmul plus bias), message passing
  on the host (gather by source node, multiply by the edge weight, scatter-add by target node), then a rectifier
  (layer 0), a group normalisation over channel pairs with affine part and residual (layers 1 and 2), and a row-wise
  log-softmax (layer 3) — against the plain reference.

  Frames: the two kernel programs' are the generated ones; the reference's is its run with the result dropped.
  The idealization rewrote nothing. At the exact reading both programs end with the reference's last stage of the
  argument arrays: the kernel program's eight regions and host stretches are followed boundary by boundary
  (Proof/Wiring.lean), each region's output array being one whole-array function of its operands; every layer agrees
  with the reference entry by entry for all extended reals except the normalisation, whose variance the kernel takes
  as the mean of squares minus the squared mean and the reference as the mean of squared deviations: equal for real
  entries, which the precondition (finite inputs) gives and every layer keeps.
-/
import proofs.«400152_j40956808135039_1_alg».proof.Defs
import proofs.«400152_j40956808135039_1_alg».proof.Proof.Gen.Kernel
import proofs.«400152_j40956808135039_1_alg».proof.Proof.Gen.Kernel.Frame
import proofs.«400152_j40956808135039_1_alg».proof.Proof.Gen.KernelIdeal
import proofs.«400152_j40956808135039_1_alg».proof.Proof.Gen.KernelIdeal.Frame
import proofs.«400152_j40956808135039_1_alg».proof.Proof.Gen.ReferenceIdeal
import proofs.«400152_j40956808135039_1_alg».proof.Proof.Gen.Pre_finite_inputs
import proofs.«400152_j40956808135039_1_alg».proof.Proof.KRun
import proofs.«400152_j40956808135039_1_alg».proof.Proof.RefRun
import proofs.«400152_j40956808135039_1_alg».proof.Proof.FinitePre
import proofs.«400152_j40956808135039_1_alg».proof.Proof.Wiring

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run over its stages, the result dropped. -/
theorem frame_ri : Cert.frame_ReferenceIdeal := fun m ρ _ =>
  (θ_run Cert.ReferenceIdeal.defs _ _).mono (fun _ h c => (h c).2) (Cert.ReferenceIdeal.StageRun.run (F := Ideal) m ρ)

theorem preserves : Cert.preserves_Kernel_KernelIdeal := trivial

/-- Both programs end at the reference's last stage of the (agreeing) argument arrays. -/
theorem algebraic : Cert.algebraic_KernelIdeal_ReferenceIdeal := by
  intro m ρ m' ρ' hpre hagree
  refine ⟨fun c => Cert.ReferenceIdeal.Read.val_main_v125 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.GNN.kernel_value m ρ c (Cert.GNN.real_of_pre m hpre c)), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.StageRun.run (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
